-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32 : Shape := ⟨1, ![32]⟩
abbrev S4096x1024 : Shape := ⟨2, ![4096, 1024]⟩
abbrev S1024x4096 : Shape := ⟨2, ![1024, 4096]⟩
abbrev S16x1024 : Shape := ⟨2, ![16, 1024]⟩
abbrev S4096x16 : Shape := ⟨2, ![4096, 16]⟩
abbrev S16x4096 : Shape := ⟨2, ![16, 4096]⟩
abbrev S1024x16 : Shape := ⟨2, ![1024, 16]⟩
abbrev S8x16x1024 : Shape := ⟨3, ![8, 16, 1024]⟩
abbrev S8x4096x16 : Shape := ⟨3, ![8, 4096, 16]⟩
abbrev S8x16x4096 : Shape := ⟨3, ![8, 16, 4096]⟩
abbrev S8x1024x16 : Shape := ⟨3, ![8, 1024, 16]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S16x1024 : S_.BroadcastsInDim S16x1024 (![] : Fin 0 → Fin S16x1024.rank)
  reducesTo_S16x1024_S_d0_1 : S16x1024.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S1024x16 : S_.BroadcastsInDim S1024x16 (![] : Fin 0 → Fin S1024x16.rank)
  reducesTo_S1024x16_S_d0_1 : S1024x16.ReducesTo [0, 1] S_
  bcast_S_S8x16x1024 : S_.BroadcastsInDim S8x16x1024 (![] : Fin 0 → Fin S8x16x1024.rank)
  reducesTo_S8x16x1024_S_d0_1_2 : S8x16x1024.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_
  bcast_S_S8x1024x16 : S_.BroadcastsInDim S8x1024x16 (![] : Fin 0 → Fin S8x1024x16.rank)
  reducesTo_S8x1024x16_S_d0_1_2 : S8x1024x16.ReducesTo [0, 1, 2] S_
  bcast_S_S32 : S_.BroadcastsInDim S32 (![] : Fin 0 → Fin S32.rank)
  reducesTo_S32_S_d0 : S32.ReducesTo [0] S_

variable [Facts]

def fn_part3 {F : FTy → Type} [FloatOps F] (main_arg1 : IVec S32 32) (main_v48 : IVec S_ 1) (main_v49 : FVec F S8x1024x16 .f32) (main_v50 : FVec F S8x1024x16 .f32) : IVec S_ 1 :=
  let main_v51 : IVec S8x1024x16 1 := cmpf .olt main_v49 main_v50
  let main_c_19 : IVec S_ 1 := constantI S_ 1 1#1
  let main_v52 : IVec S_ 1 := (fun x v => Host.reduce IntOp.andi x v reducesTo_S8x1024x16_S_d0_1_2 h_S_) main_v51 main_c_19
  let main_v53 : IVec S_ 1 := andi main_v48 main_v52
  let main_c_20 : IVec S_ 32 := constantI S_ 32 0#32
  let main_v54 : IVec S32 32 := broadcastInDim S32 ![] bcast_S_S32 main_c_20
  let main_v55 : IVec S32 1 := cmpi .sge main_arg1 main_v54
  let main_c_21 : IVec S_ 1 := constantI S_ 1 1#1
  let main_v56 : IVec S_ 1 := (fun x v => Host.reduce IntOp.andi x v reducesTo_S32_S_d0 h_S_) main_v55 main_c_21
  let main_v57 : IVec S_ 1 := andi main_v53 main_v56
  main_v57

def fn_part2 {F : FTy → Type} [FloatOps F] (main_arg1 : IVec S32 32) (main_arg8 : FVec F S8x16x1024 .f32) (main_arg9 : FVec F S8x4096x16 .f32) (main_arg10 : FVec F S8x16x4096 .f32) (main_arg11 : FVec F S8x1024x16 .f32) (main_v33 : IVec S_ 1) : IVec S_ 1 :=
  let main_v34 : FVec F S8x16x1024 .f32 := Host.absf main_arg8
  let main_cst_12 : FVec F S_ .f32 := constant S_ .f32 0x7F800000#32
  let main_v35 : FVec F S8x16x1024 .f32 := broadcastInDim S8x16x1024 ![] bcast_S_S8x16x1024 main_cst_12
  let main_v36 : IVec S8x16x1024 1 := cmpf .olt main_v34 main_v35
  let main_c_13 : IVec S_ 1 := constantI S_ 1 1#1
  let main_v37 : IVec S_ 1 := (fun x v => Host.reduce IntOp.andi x v reducesTo_S8x16x1024_S_d0_1_2 h_S_) main_v36 main_c_13
  let main_v38 : IVec S_ 1 := andi main_v33 main_v37
  let main_v39 : FVec F S8x4096x16 .f32 := Host.absf main_arg9
  let main_cst_14 : FVec F S_ .f32 := constant S_ .f32 0x7F800000#32
  let main_v40 : FVec F S8x4096x16 .f32 := broadcastInDim S8x4096x16 ![] bcast_S_S8x4096x16 main_cst_14
  let main_v41 : IVec S8x4096x16 1 := cmpf .olt main_v39 main_v40
  let main_c_15 : IVec S_ 1 := constantI S_ 1 1#1
  let main_v42 : IVec S_ 1 := (fun x v => Host.reduce IntOp.andi x v reducesTo_S8x4096x16_S_d0_1_2 h_S_) main_v41 main_c_15
  let main_v43 : IVec S_ 1 := andi main_v38 main_v42
  let main_v44 : FVec F S8x16x4096 .f32 := Host.absf main_arg10
  let main_cst_16 : FVec F S_ .f32 := constant S_ .f32 0x7F800000#32
  let main_v45 : FVec F S8x16x4096 .f32 := broadcastInDim S8x16x4096 ![] bcast_S_S8x16x4096 main_cst_16
  let main_v46 : IVec S8x16x4096 1 := cmpf .olt main_v44 main_v45
  let main_c_17 : IVec S_ 1 := constantI S_ 1 1#1
  let main_v47 : IVec S_ 1 := (fun x v => Host.reduce IntOp.andi x v reducesTo_S8x16x4096_S_d0_1_2 h_S_) main_v46 main_c_17
  let main_v48 : IVec S_ 1 := andi main_v43 main_v47
  let main_v49 : FVec F S8x1024x16 .f32 := Host.absf main_arg11
  let main_cst_18 : FVec F S_ .f32 := constant S_ .f32 0x7F800000#32
  let main_v50 : FVec F S8x1024x16 .f32 := broadcastInDim S8x1024x16 ![] bcast_S_S8x1024x16 main_cst_18
  fn_part3 (F := F) main_arg1 main_v48 main_v49 main_v50

def fn_part1 {F : FTy → Type} [FloatOps F] (main_arg1 : IVec S32 32) (main_arg5 : FVec F S4096x16 .f32) (main_arg6 : FVec F S16x4096 .f32) (main_arg7 : FVec F S1024x16 .f32) (main_arg8 : FVec F S8x16x1024 .f32) (main_arg9 : FVec F S8x4096x16 .f32) (main_arg10 : FVec F S8x16x4096 .f32) (main_arg11 : FVec F S8x1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S4096x16 .f32 := Host.absf main_arg5
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S16x4096 .f32 := Host.absf main_arg6
  let main_cst_8 : FVec F S_ .f32 := constant S_ .f32 0x7F800000#32
  let main_v25 : FVec F S16x4096 .f32 := broadcastInDim S16x4096 ![] bcast_S_S16x4096 main_cst_8
  let main_v26 : IVec S16x4096 1 := cmpf .olt main_v24 main_v25
  let main_c_9 : IVec S_ 1 := constantI S_ 1 1#1
  let main_v27 : IVec S_ 1 := (fun x v => Host.reduce IntOp.andi x v reducesTo_S16x4096_S_d0_1 h_S_) main_v26 main_c_9
  let main_v28 : IVec S_ 1 := andi main_v23 main_v27
  let main_v29 : FVec F S1024x16 .f32 := Host.absf main_arg7
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S32x512x1024 .f32) (main_arg1 : IVec S32 32) (main_arg2 : FVec F S4096x1024 .f32) (main_arg3 : FVec F S1024x4096 .f32) (main_arg4 : FVec F S16x1024 .f32) (main_arg5 : FVec F S4096x16 .f32) (main_arg6 : FVec F S16x4096 .f32) (main_arg7 : FVec F S1024x16 .f32) (main_arg8 : FVec F S8x16x1024 .f32) (main_arg9 : FVec F S8x4096x16 .f32) (main_arg10 : FVec F S8x16x4096 .f32) (main_arg11 : FVec F S8x1024x16 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S16x1024 .f32 := Host.absf main_arg4
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg1 main_arg5 main_arg6 main_arg7 main_arg8 main_arg9 main_arg10 main_arg11 main_v13 main_v16
-- ==== Kernel.lean ====
abbrev S32x512x1024 : Shape := ⟨3, ![32, 512, 1024]⟩
abbrev S32 : Shape := ⟨1, ![32]⟩
abbrev S4096x1024 : Shape := ⟨2, ![4096, 1024]⟩
abbrev S1024x4096 : Shape := ⟨2, ![1024, 4096]⟩
abbrev S16x1024 : Shape := ⟨2, ![16, 1024]⟩
abbrev S4096x16 : Shape := ⟨2, ![4096, 16]⟩
abbrev S16x4096 : Shape := ⟨2, ![16, 4096]⟩
abbrev S1024x16 : Shape := ⟨2, ![1024, 16]⟩
abbrev S8x16x1024 : Shape := ⟨3, ![8, 16, 1024]⟩
abbrev S8x4096x16 : Shape := ⟨3, ![8, 4096, 16]⟩
abbrev S8x16x4096 : Shape := ⟨3, ![8, 16, 4096]⟩
abbrev S8x1024x16 : Shape := ⟨3, ![8, 1024, 16]⟩
abbrev S_ : Shape := ⟨0, ![]⟩
abbrev S1x16x1024 : Shape := ⟨3, ![1, 16, 1024]⟩
abbrev S8x32x1024 : Shape := ⟨3, ![8, 32, 1024]⟩
abbrev S1x16x4096 : Shape := ⟨3, ![1, 16, 4096]⟩
abbrev S8x32x4096 : Shape := ⟨3, ![8, 32, 4096]⟩
abbrev S1x256x1024 : Shape := ⟨3, ![1, 256, 1024]⟩
abbrev S1x32x1024 : Shape := ⟨3, ![1, 32, 1024]⟩
abbrev S1 : Shape := ⟨1, ![1]⟩
abbrev S1x32x4096 : Shape := ⟨3, ![1, 32, 4096]⟩
abbrev S256x1024 : Shape := ⟨2, ![256, 1024]⟩
abbrev S256x4096 : Shape := ⟨2, ![256, 4096]⟩
abbrev S32x1024 : Shape := ⟨2, ![32, 1024]⟩
abbrev S256x32 : Shape := ⟨2, ![256, 32]⟩
abbrev S32x4096 : Shape := ⟨2, ![32, 4096]⟩

abbrev nBuf : Space → Nat
  | .hbm => 56
  | .vmem => 14
  | .smem => 1
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S4096x1024, .f32⟩
  | .hbm, ⟨3, _⟩ => ⟨S1024x4096, .f32⟩
  | .hbm, ⟨4, _⟩ => ⟨S16x1024, .f32⟩
  | .hbm, ⟨5, _⟩ => ⟨S4096x16, .f32⟩
  | .hbm, ⟨6, _⟩ => ⟨S16x4096, .f32⟩
  | .hbm, ⟨7, _⟩ => ⟨S1024x16, .f32⟩
  | .hbm, ⟨8, _⟩ => ⟨S8x16x1024, .f32⟩
  | .hbm, ⟨9, _⟩ => ⟨S8x4096x16, .f32⟩
  | .hbm, ⟨10, _⟩ => ⟨S8x16x4096, .f32⟩
  | .hbm, ⟨11, _⟩ => ⟨S8x1024x16, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1x16x1024, .f32⟩
  | .hbm, ⟨24, _⟩ => ⟨S8x16x1024, .f32⟩
  | .hbm, ⟨25, _⟩ => ⟨S8x32x1024, .f32⟩
  | .hbm, ⟨26, _⟩ => ⟨S8x32x1024, .bf16⟩
  | .hbm, ⟨27, _⟩ => ⟨S16x4096, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S1x16x4096, .f32⟩
  | .hbm, ⟨32, _⟩ => ⟨S8x16x4096, .f32⟩
  | .hbm, ⟨33, _⟩ => ⟨S8x16x4096, .f32⟩
  | .hbm, ⟨34, _⟩ => ⟨S_, .f32⟩
  | .hbm, ⟨35, _⟩ => ⟨S8x16x4096, .f32⟩
  | .hbm, ⟨36, _⟩ => ⟨S8x16x4096, .f32⟩
  | .hbm, ⟨37, _⟩ => ⟨S8x32x4096, .f32⟩
  | .hbm, ⟨38, _⟩ => ⟨S8x32x4096, .bf16⟩
  | .hbm, ⟨39, _⟩ => ⟨S1x16x4096, .f32⟩
  | .hbm, ⟨40, _⟩ => ⟨S8x16x4096, .f32⟩
  | .hbm, ⟨41, _⟩ => ⟨S8x32x4096, .f32⟩
  | .hbm, ⟨42, _⟩ => ⟨S8x32x4096, .bf16⟩
  | .hbm, ⟨43, _⟩ => ⟨S16x1024, .f32⟩
  | .hbm, ⟨44, _⟩ => ⟨S_, .f32⟩
  | .hbm, ⟨45, _⟩ => ⟨S16x1024, .f32⟩
  | .hbm, ⟨46, _⟩ => ⟨S16x1024, .f32⟩
  | .hbm, ⟨47, _⟩ => ⟨S1x16x1024, .f32⟩
  | .hbm, ⟨48, _⟩ => ⟨S8x16x1024, .f32⟩
  | .hbm, ⟨49, _⟩ => ⟨S8x16x1024, .f32⟩
  | .hbm, ⟨50, _⟩ => ⟨S_, .f32⟩
  | .hbm, ⟨51, _⟩ => ⟨S8x16x1024, .f32⟩
  | .hbm, ⟨52, _⟩ => ⟨S8x16x1024, .f32⟩
  | .hbm, ⟨53, _⟩ => ⟨S8x32x1024, .f32⟩
  | .hbm, ⟨54, _⟩ => ⟨S8x32x1024, .bf16⟩
  | .hbm, ⟨55, _⟩ => ⟨S32x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x4096, .bf16⟩
  | .local _ .vmem, ⟨7, _⟩ => ⟨S1x32x4096, .bf16⟩
  | .local _ .vmem, ⟨8, _⟩ => ⟨S1x32x4096, .bf16⟩
  | .local _ .vmem, ⟨9, _⟩ => ⟨S1x32x4096, .bf16⟩
  | .local _ .vmem, ⟨10, _⟩ => ⟨S1x32x1024, .bf16⟩
  | .local _ .vmem, ⟨11, _⟩ => ⟨S1x32x1024, .bf16⟩
  | .local _ .vmem, ⟨12, _⟩ => ⟨S1x256x1024, .f32⟩
  | .local _ .vmem, ⟨13, _⟩ => ⟨S1x256x1024, .f32⟩
  | .local _ .smem, ⟨0, _⟩ => ⟨S32, .i32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S32 : S_.BroadcastsInDim S32 (![] : Fin 0 → Fin S32.rank)
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  bcast_S16x1024_S1x16x1024_1_2 : S16x1024.BroadcastsInDim S1x16x1024 (![1, 2] : Fin 2 → Fin S1x16x1024.rank)
  bcast_S1x16x1024_S8x16x1024_0_1_2 : S1x16x1024.BroadcastsInDim S8x16x1024 (![0, 1, 2] : Fin 3 → Fin S8x16x1024.rank)
  concatenates_S8x16x1024_S8x16x1024_S8x32x1024_d1 : Shape.Concatenates [S8x16x1024, S8x16x1024] S8x32x1024 1
  transposes_S4096x16_S16x4096_1_0 : S4096x16.Transposes [1, 0] S16x4096
  bcast_S_S16x4096 : S_.BroadcastsInDim S16x4096 (![] : Fin 0 → Fin S16x4096.rank)
  bcast_S16x4096_S1x16x4096_1_2 : S16x4096.BroadcastsInDim S1x16x4096 (![1, 2] : Fin 2 → Fin S1x16x4096.rank)
  bcast_S1x16x4096_S8x16x4096_0_1_2 : S1x16x4096.BroadcastsInDim S8x16x4096 (![0, 1, 2] : Fin 3 → Fin S8x16x4096.rank)
  transposes_S8x4096x16_S8x16x4096_0_2_1 : S8x4096x16.Transposes [0, 2, 1] S8x16x4096
  bcast_S_S8x16x4096 : S_.BroadcastsInDim S8x16x4096 (![] : Fin 0 → Fin S8x16x4096.rank)
  concatenates_S8x16x4096_S8x16x4096_S8x32x4096_d1 : Shape.Concatenates [S8x16x4096, S8x16x4096] S8x32x4096 1
  transposes_S1024x16_S16x1024_1_0 : S1024x16.Transposes [1, 0] S16x1024
  bcast_S_S16x1024 : S_.BroadcastsInDim S16x1024 (![] : Fin 0 → Fin S16x1024.rank)
  transposes_S8x1024x16_S8x16x1024_0_2_1 : S8x1024x16.Transposes [0, 2, 1] S8x16x1024
  bcast_S_S8x16x1024 : S_.BroadcastsInDim S8x16x1024 (![] : Fin 0 → Fin S8x16x1024.rank)
  numel1_S1 : S1.numel = 1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S256x1024_S1x256x1024 : S256x1024.ShapeCasts S1x256x1024
  dot_S256x1024_S1024x4096_S256x4096_1_0_0_1_n_n_wf : DotDims.WF S256x1024 S1024x4096 S256x4096 [1] [0] [0] [1] [] []
  dot_S256x1024_S32x1024_S256x32_1_1_0_0_n_n_wf : DotDims.WF S256x1024 S32x1024 S256x32 [1] [1] [0] [0] [] []
  dot_S256x32_S32x4096_S256x4096_1_0_0_1_n_n_wf : DotDims.WF S256x32 S32x4096 S256x4096 [1] [0] [0] [1] [] []
  dot_S256x4096_S4096x1024_S256x1024_1_0_0_1_n_n_wf : DotDims.WF S256x4096 S4096x1024 S256x1024 [1] [0] [0] [1] [] []
  dot_S256x4096_S32x4096_S256x32_1_1_0_0_n_n_wf : DotDims.WF S256x4096 S32x4096 S256x32 [1] [1] [0] [0] [] []
  dot_S256x32_S32x1024_S256x1024_1_0_0_1_n_n_wf : DotDims.WF S256x32 S32x1024 S256x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x512x1024.size a
  hwx0_0 : ∀ i : grid0.Coords, EltTy.bits .f32 = 32 ∨ (Rect.block (s := S32x512x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S32x512x1024.size a
  hwx0_7 : ∀ i : grid0.Coords, EltTy.bits .f32 = 32 ∨ (Rect.block (s := S32x512x1024) S1x256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S32x1024_S256x32_1_1_0_0_n_n : DotDims S256x1024 S32x1024 S256x32 where
  lhsContracting := [1]
  rhsContracting := [1]
  lhsNonContracting := [0]
  rhsNonContracting := [0]
  lhsBatch := []
  rhsBatch := []
  wf := dot_S256x1024_S32x1024_S256x32_1_1_0_0_n_n_wf
def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x4096_S32x4096_S256x32_1_1_0_0_n_n : DotDims S256x4096 S32x4096 S256x32 where
  lhsContracting := [1]
  rhsContracting := [1]
  lhsNonContracting := [0]
  rhsNonContracting := [0]
  lhsBatch := []
  rhsBatch := []
  wf := dot_S256x4096_S32x4096_S256x32_1_1_0_0_n_n_wf
def dot_S256x32_S32x1024_S256x1024_1_0_0_1_n_n : DotDims S256x32 S32x1024 S256x1024 where
  lhsContracting := [1]
  rhsContracting := [0]
  lhsNonContracting := [0]
  rhsNonContracting := [1]
  lhsBatch := []
  rhsBatch := []
  wf := dot_S256x32_S32x1024_S256x1024_1_0_0_1_n_n_wf

abbrev spec0_0 : Pipeline.WinSpec sig grid0.rank :=
  Pipeline.WinSpec.ofSpec (Memref.whole main_arg0) S1x256x1024.size reads0_0 false false 2 stage0_0 sem0_0 nbuf0_0 hstage0_0

abbrev spec0_1 : Pipeline.WinSpec sig grid0.rank :=
  Pipeline.WinSpec.ofSpec (Memref.whole main_v2) S1024x4096.size reads0_1 false true 1 stage0_1 sem0_1 nbuf0_1 hstage0_1

abbrev spec0_2 : Pipeline.WinSpec sig grid0.rank :=
  Pipeline.WinSpec.ofSpec (Memref.whole main_v4) S4096x1024.size reads0_2 false true 1 stage0_2 sem0_2 nbuf0_2 hstage0_2

abbrev spec0_3 : Pipeline.WinSpec sig grid0.rank :=
  Pipeline.WinSpec.ofSpec (Memref.whole main_v8) S1x32x1024.size reads0_3 false false 2 stage0_3 sem0_3 nbuf0_3 hstage0_3

abbrev spec0_4 : Pipeline.WinSpec sig grid0.rank :=
  Pipeline.WinSpec.ofSpec (Memref.whole main_v18) S1x32x4096.size reads0_4 false false 2 stage0_4 sem0_4 nbuf0_4 hstage0_4

abbrev spec0_5 : Pipeline.WinSpec sig grid0.rank :=
  Pipeline.WinSpec.ofSpec (Memref.whole main_v22) S1x32x4096.size reads0_5 false false 2 stage0_5 sem0_5 nbuf0_5 hstage0_5

abbrev spec0_6 : Pipeline.WinSpec sig grid0.rank :=
  Pipeline.WinSpec.ofSpec (Memref.whole main_v32) S1x32x1024.size reads0_6 false false 2 stage0_6 sem0_6 nbuf0_6 hstage0_6

abbrev spec0_7 : Pipeline.WinSpec sig grid0.rank :=
  Pipeline.WinSpec.ofSpec (Memref.whole main_v33) S1x256x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 pf | 5 => hreads0_5 pf | 6 => hreads0_6 pf | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x32x1024.size a ≤ S8x32x1024.size a), EltTy.bits .bf16 = 32 ∨ (Rect.block (s := S8x32x1024) S1x32x1024.size (cc0_transform_3 k0_off1_inb numel1_S1 pf i) h).WholeWords (EltTy.packing .bf16)) ∧
  (∀ i : grid0.Coords, ∃ h : (∀ a, (cc0_transform_4 k0_off1_inb numel1_S1 pf i a + 1) * S1x32x4096.size a ≤ S8x32x4096.size a), EltTy.bits .bf16 = 32 ∨ (Rect.block (s := S8x32x4096) S1x32x4096.size (cc0_transform_4 k0_off1_inb numel1_S1 pf i) h).WholeWords (EltTy.packing .bf16)) ∧
  (∀ i : grid0.Coords, ∃ h : (∀ a, (cc0_transform_5 k0_off1_inb numel1_S1 pf i a + 1) * S1x32x4096.size a ≤ S8x32x4096.size a), EltTy.bits .bf16 = 32 ∨ (Rect.block (s := S8x32x4096) S1x32x4096.size (cc0_transform_5 k0_off1_inb numel1_S1 pf i) h).WholeWords (EltTy.packing .bf16)) ∧
  (∀ i : grid0.Coords, ∃ h : (∀ a, (cc0_transform_6 k0_off1_inb numel1_S1 pf i a + 1) * S1x32x1024.size a ≤ S8x32x1024.size a), EltTy.bits .bf16 = 32 ∨ (Rect.block (s := S8x32x1024) S1x32x1024.size (cc0_transform_6 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok.1 i).elim fun h _ => h a | 4 => fun i a => (hok.2.1 i).elim fun h _ => h a | 5 => fun i a => (hok.2.2.1 i).elim fun h _ => h a | 6 => fun i a => (hok.2.2.2 i).elim fun h _ => h a | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok.1 i).elim fun _ h => h | 4 => fun i => (hok.2.1 i).elim fun _ h => h | 5 => fun i => (hok.2.2.1 i).elim fun _ h => h | 6 => fun i => (hok.2.2.2 i).elim fun _ h => h | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S32x512x1024 : Shape := ⟨3, ![32, 512, 1024]⟩
abbrev S32 : Shape := ⟨1, ![32]⟩
abbrev S4096x1024 : Shape := ⟨2, ![4096, 1024]⟩
abbrev S1024x4096 : Shape := ⟨2, ![1024, 4096]⟩
abbrev S16x1024 : Shape := ⟨2, ![16, 1024]⟩
abbrev S4096x16 : Shape := ⟨2, ![4096, 16]⟩
abbrev S16x4096 : Shape := ⟨2, ![16, 4096]⟩
abbrev S1024x16 : Shape := ⟨2, ![1024, 16]⟩
abbrev S8x16x1024 : Shape := ⟨3, ![8, 16, 1024]⟩
abbrev S8x4096x16 : Shape := ⟨3, ![8, 4096, 16]⟩
abbrev S8x16x4096 : Shape := ⟨3, ![8, 16, 4096]⟩
abbrev S8x1024x16 : Shape := ⟨3, ![8, 1024, 16]⟩
abbrev S32x512x4096 : Shape := ⟨3, ![32, 512, 4096]⟩
abbrev S32x512x16 : Shape := ⟨3, ![32, 512, 16]⟩
abbrev S_ : Shape := ⟨0, ![]⟩
abbrev S32x1 : Shape := ⟨2, ![32, 1]⟩
abbrev S32x16x1024 : Shape := ⟨3, ![32, 16, 1024]⟩
abbrev S32x4096x16 : Shape := ⟨3, ![32, 4096, 16]⟩
abbrev S32x16x4096 : Shape := ⟨3, ![32, 16, 4096]⟩
abbrev S32x1024x16 : Shape := ⟨3, ![32, 1024, 16]⟩

abbrev nBuf : Space → Nat
  | .hbm => 77
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32, .i32⟩
  | .hbm, ⟨2, _⟩ => ⟨S4096x1024, .f32⟩
  | .hbm, ⟨3, _⟩ => ⟨S1024x4096, .f32⟩
  | .hbm, ⟨4, _⟩ => ⟨S16x1024, .f32⟩
  | .hbm, ⟨5, _⟩ => ⟨S4096x16, .f32⟩
  | .hbm, ⟨6, _⟩ => ⟨S16x4096, .f32⟩
  | .hbm, ⟨7, _⟩ => ⟨S1024x16, .f32⟩
  | .hbm, ⟨8, _⟩ => ⟨S8x16x1024, .f32⟩
  | .hbm, ⟨9, _⟩ => ⟨S8x4096x16, .f32⟩
  | .hbm, ⟨10, _⟩ => ⟨S8x16x4096, .f32⟩
  | .hbm, ⟨11, _⟩ => ⟨S8x1024x16, .f32⟩
  | .hbm, ⟨12, _⟩ => ⟨S32x512x4096, .f32⟩
  | .hbm, ⟨13, _⟩ => ⟨S32x512x16, .f32⟩
  | .hbm, ⟨14, _⟩ => ⟨S32x512x4096, .f32⟩
  | .hbm, ⟨15, _⟩ => ⟨S_, .f32⟩
  | .hbm, ⟨16, _⟩ => ⟨S32x512x4096, .f32⟩
  | .hbm, ⟨17, _⟩ => ⟨S32x512x4096, .f32⟩
  | .hbm, ⟨18, _⟩ => ⟨S32x512x4096, .f32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S32x1, .i32⟩
  | .hbm, ⟨27, _⟩ => ⟨S32x16x1024, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S32x4096x16, .f32⟩
  | .hbm, ⟨37, _⟩ => ⟨S32x512x16, .f32⟩
  | .hbm, ⟨38, _⟩ => ⟨S32x512x4096, .f32⟩
  | .hbm, ⟨39, _⟩ => ⟨S_, .f32⟩
  | .hbm, ⟨40, _⟩ => ⟨S32x512x4096, .f32⟩
  | .hbm, ⟨41, _⟩ => ⟨S32x512x4096, .f32⟩
  | .hbm, ⟨42, _⟩ => ⟨S32x512x4096, .f32⟩
  | .hbm, ⟨43, _⟩ => ⟨S_, .f32⟩
  | .hbm, ⟨44, _⟩ => ⟨S32x512x4096, .f32⟩
  | .hbm, ⟨45, _⟩ => ⟨S32x512x4096, .f32⟩
  | .hbm, ⟨46, _⟩ => ⟨S32x512x1024, .f32⟩
  | .hbm, ⟨47, _⟩ => ⟨S32x512x16, .f32⟩
  | .hbm, ⟨48, _⟩ => ⟨S32x512x1024, .f32⟩
  | .hbm, ⟨49, _⟩ => ⟨S_, .f32⟩
  | .hbm, ⟨50, _⟩ => ⟨S32x512x1024, .f32⟩
  | .hbm, ⟨51, _⟩ => ⟨S32x512x1024, .f32⟩
  | .hbm, ⟨52, _⟩ => ⟨S32x512x1024, .f32⟩
  | .hbm, ⟨53, _⟩ => ⟨S_, .i32⟩
  | .hbm, ⟨54, _⟩ => ⟨S32, .i32⟩
  | .hbm, ⟨55, _⟩ => ⟨S32, .i1⟩
  | .hbm, ⟨56, _⟩ => ⟨S_, .i32⟩
  | .hbm, ⟨57, _⟩ => ⟨S32, .i32⟩
  | .hbm, ⟨58, _⟩ => ⟨S32, .i32⟩
  | .hbm, ⟨59, _⟩ => ⟨S32, .i32⟩
  | .hbm, ⟨60, _⟩ => ⟨S32x1, .i32⟩
  | .hbm, ⟨61, _⟩ => ⟨S32x16x4096, .f32⟩
  | .hbm, ⟨62, _⟩ => ⟨S_, .i32⟩
  | .hbm, ⟨63, _⟩ => ⟨S32, .i32⟩
  | .hbm, ⟨64, _⟩ => ⟨S32, .i1⟩
  | .hbm, ⟨65, _⟩ => ⟨S_, .i32⟩
  | .hbm, ⟨66, _⟩ => ⟨S32, .i32⟩
  | .hbm, ⟨67, _⟩ => ⟨S32, .i32⟩
  | .hbm, ⟨68, _⟩ => ⟨S32, .i32⟩
  | .hbm, ⟨69, _⟩ => ⟨S32x1, .i32⟩
  | .hbm, ⟨70, _⟩ => ⟨S32x1024x16, .f32⟩
  | .hbm, ⟨71, _⟩ => ⟨S32x512x16, .f32⟩
  | .hbm, ⟨72, _⟩ => ⟨S32x512x1024, .f32⟩
  | .hbm, ⟨73, _⟩ => ⟨S_, .f32⟩
  | .hbm, ⟨74, _⟩ => ⟨S32x512x1024, .f32⟩
  | .hbm, ⟨75, _⟩ => ⟨S32x512x1024, .f32⟩
  | .hbm, ⟨76, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]

class Facts₀ : Prop where
  bcast_S_S32x512x4096 : S_.BroadcastsInDim S32x512x4096 (![] : Fin 0 → Fin S32x512x4096.rank)
  bcast_S_S32 : S_.BroadcastsInDim S32 (![] : Fin 0 → Fin S32.rank)
  bcast_S32_S32x1_0 : S32.BroadcastsInDim S32x1 (![0] : Fin 1 → Fin S32x1.rank)
  bcast_S_S32x512x1024 : S_.BroadcastsInDim S32x512x1024 (![] : Fin 0 → Fin S32x512x1024.rank)
  dot_S32x512x1024_S4096x1024_S32x512x4096_2_1_01_0_n_n_wf : DotDims.WF S32x512x1024 S4096x1024 S32x512x4096 [2] [1] [0, 1] [0] [] []
  dot_S32x512x1024_S16x1024_S32x512x16_2_1_01_0_n_n_wf : DotDims.WF S32x512x1024 S16x1024 S32x512x16 [2] [1] [0, 1] [0] [] []
  dot_S32x512x16_S4096x16_S32x512x4096_2_1_01_0_n_n_wf : DotDims.WF S32x512x16 S4096x16 S32x512x4096 [2] [1] [0, 1] [0] [] []
  gather_S8x16x1024_S32x1_S32x16x1024_12_0_n_n_0_1_1161024_wf : GatherDims.WF S8x16x1024 S32x1 S32x16x1024 [1, 2] [0] [] [0] [] 1 ![1, 16, 1024]
  gather_S8x4096x16_S32x1_S32x4096x16_12_0_n_n_0_1_1409616_wf : GatherDims.WF S8x4096x16 S32x1 S32x4096x16 [1, 2] [0] [] [0] [] 1 ![1, 4096, 16]
  dot_S32x512x1024_S32x16x1024_S32x512x16_2_2_1_1_0_0_wf : DotDims.WF S32x512x1024 S32x16x1024 S32x512x16 [2] [2] [1] [1] [0] [0]
  dot_S32x512x16_S32x4096x16_S32x512x4096_2_2_1_1_0_0_wf : DotDims.WF S32x512x16 S32x4096x16 S32x512x4096 [2] [2] [1] [1] [0] [0]
  dot_S32x512x4096_S1024x4096_S32x512x1024_2_1_01_0_n_n_wf : DotDims.WF S32x512x4096 S1024x4096 S32x512x1024 [2] [1] [0, 1] [0] [] []
  dot_S32x512x4096_S16x4096_S32x512x16_2_1_01_0_n_n_wf : DotDims.WF S32x512x4096 S16x4096 S32x512x16 [2] [1] [0, 1] [0] [] []
  dot_S32x512x16_S1024x16_S32x512x1024_2_1_01_0_n_n_wf : DotDims.WF S32x512x16 S1024x16 S32x512x1024 [2] [1] [0, 1] [0] [] []
  gather_S8x16x4096_S32x1_S32x16x4096_12_0_n_n_0_1_1164096_wf : GatherDims.WF S8x16x4096 S32x1 S32x16x4096 [1, 2] [0] [] [0] [] 1 ![1, 16, 4096]
  gather_S8x1024x16_S32x1_S32x1024x16_12_0_n_n_0_1_1102416_wf : GatherDims.WF S8x1024x16 S32x1 S32x1024x16 [1, 2] [0] [] [0] [] 1 ![1, 1024, 16]
  dot_S32x512x4096_S32x16x4096_S32x512x16_2_2_1_1_0_0_wf : DotDims.WF S32x512x4096 S32x16x4096 S32x512x16 [2] [2] [1] [1] [0] [0]
  dot_S32x512x16_S32x1024x16_S32x512x1024_2_2_1_1_0_0_wf : DotDims.WF S32x512x16 S32x1024x16 S32x512x1024 [2] [2] [1] [1] [0] [0]

variable [Facts₀]

def dot_S32x512x1024_S4096x1024_S32x512x4096_2_1_01_0_n_n : DotDims S32x512x1024 S4096x1024 S32x512x4096 where
  lhsContracting := [2]
  rhsContracting := [1]
  lhsNonContracting := [0, 1]
  rhsNonContracting := [0]
  lhsBatch := []
  rhsBatch := []
  wf := dot_S32x512x1024_S4096x1024_S32x512x4096_2_1_01_0_n_n_wf
def dot_S32x512x1024_S16x1024_S32x512x16_2_1_01_0_n_n : DotDims S32x512x1024 S16x1024 S32x512x16 where
  lhsContracting := [2]
  rhsContracting := [1]
  lhsNonContracting := [0, 1]
  rhsNonContracting := [0]
  lhsBatch := []
  rhsBatch := []
  wf := dot_S32x512x1024_S16x1024_S32x512x16_2_1_01_0_n_n_wf
def dot_S32x512x16_S4096x16_S32x512x4096_2_1_01_0_n_n : DotDims S32x512x16 S4096x16 S32x512x4096 where
  lhsContracting := [2]
  rhsContracting := [1]
  lhsNonContracting := [0, 1]
  rhsNonContracting := [0]
  lhsBatch := []
  rhsBatch := []
  wf := dot_S32x512x16_S4096x16_S32x512x4096_2_1_01_0_n_n_wf
def gather_S8x16x1024_S32x1_S32x16x1024_12_0_n_n_0_1_1161024 : GatherDims S8x16x1024 S32x1 S32x16x1024 where
  offsetDims := [1, 2]
  collapsedSliceDims := [0]
  operandBatchingDims := []
  startIndicesBatchingDims := []
  startIndexMap := [0]
  indexVectorDim := 1
  sliceSizes := ![1, 16, 1024]
  wf := gather_S8x16x1024_S32x1_S32x16x1024_12_0_n_n_0_1_1161024_wf
def gather_S8x4096x16_S32x1_S32x4096x16_12_0_n_n_0_1_1409616 : GatherDims S8x4096x16 S32x1 S32x4096x16 where
  offsetDims := [1, 2]
  collapsedSliceDims := [0]
  operandBatchingDims := []
  startIndicesBatchingDims := []
  startIndexMap := [0]
  indexVectorDim := 1
  sliceSizes := ![1, 4096, 16]
  wf := gather_S8x4096x16_S32x1_S32x4096x16_12_0_n_n_0_1_1409616_wf
def dot_S32x512x1024_S32x16x1024_S32x512x16_2_2_1_1_0_0 : DotDims S32x512x1024 S32x16x1024 S32x512x16 where
  lhsContracting := [2]
  rhsContracting := [2]
  lhsNonContracting := [1]
  rhsNonContracting := [1]
  lhsBatch := [0]
  rhsBatch := [0]
  wf := dot_S32x512x1024_S32x16x1024_S32x512x16_2_2_1_1_0_0_wf
def dot_S32x512x16_S32x4096x16_S32x512x4096_2_2_1_1_0_0 : DotDims S32x512x16 S32x4096x16 S32x512x4096 where
  lhsContracting := [2]
  rhsContracting := [2]
  lhsNonContracting := [1]
  rhsNonContracting := [1]
  lhsBatch := [0]
  rhsBatch := [0]
  wf := dot_S32x512x16_S32x4096x16_S32x512x4096_2_2_1_1_0_0_wf
def dot_S32x512x4096_S1024x4096_S32x512x1024_2_1_01_0_n_n : DotDims S32x512x4096 S1024x4096 S32x512x1024 where
  lhsContracting := [2]
  rhsContracting := [1]
  lhsNonContracting := [0, 1]
  rhsNonContracting := [0]
  lhsBatch := []
  rhsBatch := []
  wf := dot_S32x512x4096_S1024x4096_S32x512x1024_2_1_01_0_n_n_wf
def dot_S32x512x4096_S16x4096_S32x512x16_2_1_01_0_n_n : DotDims S32x512x4096 S16x4096 S32x512x16 where
  lhsContracting := [2]
  rhsContracting := [1]
  lhsNonContracting := [0, 1]
  rhsNonContracting := [0]
  lhsBatch := []
  rhsBatch := []
  wf := dot_S32x512x4096_S16x4096_S32x512x16_2_1_01_0_n_n_wf
def dot_S32x512x16_S1024x16_S32x512x1024_2_1_01_0_n_n : DotDims S32x512x16 S1024x16 S32x512x1024 where
  lhsContracting := [2]
  rhsContracting := [1]
  lhsNonContracting := [0, 1]
  rhsNonContracting := [0]
  lhsBatch := []
  rhsBatch := []
  wf := dot_S32x512x16_S1024x16_S32x512x1024_2_1_01_0_n_n_wf
def gather_S8x16x4096_S32x1_S32x16x4096_12_0_n_n_0_1_1164096 : GatherDims S8x16x4096 S32x1 S32x16x4096 where
  offsetDims := [1, 2]
  collapsedSliceDims := [0]
  operandBatchingDims := []
  startIndicesBatchingDims := []
  startIndexMap := [0]
  indexVectorDim := 1
  sliceSizes := ![1, 16, 4096]
  wf := gather_S8x16x4096_S32x1_S32x16x4096_12_0_n_n_0_1_1164096_wf
def gather_S8x1024x16_S32x1_S32x1024x16_12_0_n_n_0_1_1102416 : GatherDims S8x1024x16 S32x1 S32x1024x16 where
  offsetDims := [1, 2]
  collapsedSliceDims := [0]
  operandBatchingDims := []
  startIndicesBatchingDims := []
  startIndexMap := [0]
  indexVectorDim := 1
  sliceSizes := ![1, 1024, 16]
  wf := gather_S8x1024x16_S32x1_S32x1024x16_12_0_n_n_0_1_1102416_wf
def dot_S32x512x4096_S32x16x4096_S32x512x16_2_2_1_1_0_0 : DotDims S32x512x4096 S32x16x4096 S32x512x16 where
  lhsContracting := [2]
  rhsContracting := [2]
  lhsNonContracting := [1]
  rhsNonContracting := [1]
  lhsBatch := [0]
  rhsBatch := [0]
  wf := dot_S32x512x4096_S32x16x4096_S32x512x16_2_2_1_1_0_0_wf
def dot_S32x512x16_S32x1024x16_S32x512x1024_2_2_1_1_0_0 : DotDims S32x512x16 S32x1024x16 S32x512x1024 where
  lhsContracting := [2]
  rhsContracting := [2]
  lhsNonContracting := [1]
  rhsNonContracting := [1]
  lhsBatch := [0]
  rhsBatch := [0]
  wf := dot_S32x512x16_S32x1024x16_S32x512x1024_2_2_1_1_0_0_wf

class Facts : Prop extends Facts₀ where

variable [Facts]
-- ==== Proof.OkClampBits.lean ====
/-
  The prefetched table of `Kernel` is the expert ids clamped into [0, 7] by the program itself (a signed maximum with 0,
  then a signed minimum with 7), so every table word is below 8 and each expert-indexed block lies inside its
  eight-expert array whatever the ids are; and a nonnegative id's table word is the id read signed and clamped.
-/
import proofs.«414242_j31267361915293_3_alg».proof.Proof.Gen.Kernel.Frame
import Idealize.ShloMosaic.Lib.StableHlo.Run

set_option maxRecDepth 16384

noncomputable section

namespace Cert.Kernel.OkClamp

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-! ## A 32-bit word clamped signed into [0, 7] -/

/-- The clamp by cases on the word's signed reading: 0 below 0, 7 above 7, the word itself in between. -/
private theorem clamp_cases (w : BitVec 32) :
    (IntOp.minsi 7#32 (IntOp.maxsi 0#32 w)).toNat
      = (if w.toInt < 0 then 0 else if 7 < w.toInt then 7 else w.toInt.toNat) := by
  have h0 : (0#32 : BitVec 32).toInt = 0 := by decide
  have h7 : (7#32 : BitVec 32).toInt = 7 := by decide
  by_cases hw : w.toInt < 0
  · -- a negative word: the maximum with 0 is 0, and 0 is below 7
    have e1 : IntOp.maxsi 0#32 w = 0#32 := by
      unfold IntOp.maxsi; simp only [BitVec.slt, h0, hw, decide_true, if_true]
    have e2 : IntOp.minsi 7#32 0#32 = 0#32 := by decide
    rw [e1, e2, if_pos hw]; rfl
  · -- a nonnegative word survives the maximum
    have e1 : IntOp.maxsi 0#32 w = w := by
      unfold IntOp.maxsi; simp only [BitVec.slt, h0, hw, decide_false]; rfl
    rw [e1, if_neg hw]
    by_cases h7' : 7 < w.toInt
    · have e2 : IntOp.minsi 7#32 w = 7#32 := by
        unfold IntOp.minsi; simp only [BitVec.slt, h7, h7', decide_true, if_true]
      rw [e2, if_pos h7']; rfl
    · -- a word in [0, 7] survives the minimum too; its unsigned and signed readings agree
      have e2 : IntOp.minsi 7#32 w = w := by
        unfold IntOp.minsi; simp only [BitVec.slt, h7, h7', decide_false]; rfl
      rw [e2, if_neg h7']
      have hlt := w.isLt
      rw [BitVec.toInt_eq_toNat_cond] at hw ⊢
      by_cases hc : 2 * w.toNat < 2 ^ 32
      · simp only [hc, if_true] at hw ⊢; omega
      · simp only [hc, if_false] at hw ⊢; omega

/-- A clamped word is at most 7. -/
private theorem clamp_lt (w : BitVec 32) : (IntOp.minsi 7#32 (IntOp.maxsi 0#32 w)).toNat < 8 := by
  rw [clamp_cases]
  split
  · omega
  · split <;> omega

/-- A nonnegative word clamped is the smaller of the word and 7. -/
private theorem clamp_of_nonneg (w : BitVec 32) (h : 0 ≤ w.toInt) :
    (IntOp.minsi 7#32 (IntOp.maxsi 0#32 w)).toNat = min w.toInt.toNat 7 := by
  rw [clamp_cases, if_neg (by omega)]
  split <;> omega

/-! ## The table's contents -/

/-- The table when the region is entered: the host operations before it leave in it the minimum of 7 (broadcast) and the
    maximum of 0 (broadcast) and the ids as launched; the operations after the clamp write other buffers. -/
private theorem tbl_eq : (tbl m 0 : S32.Idx → BitVec 32)
    = minsi (broadcastInDim S32 ![] bcast_S_S32 (constantI S_ 32 7#32))
        (maxsi (broadcastInDim S32 ![] bcast_S_S32 (constantI S_ 32 0#32))
          (m (((0 : Dev nD) : Thread nD τ).loc main_arg1))) := by
  unfold Gen.tbl
  show V m 0 main_v0 = _
  unfold V
  simp only [hostOps0, hostOps0_1, hostOps0_2, List.flatten_cons, List.flatten_nil, List.append_nil, List.cons_append,
    List.nil_append]
  after_results
  rfl

/-- Read at an index: the broadcasts are constant and the maximum and minimum pointwise, so word x of the table is id x
    clamped. -/
private theorem tbl_at (x : S32.Idx) : (tbl m 0 : S32.Idx → BitVec 32) x
    = IntOp.minsi 7#32 (IntOp.maxsi 0#32 ((m (((0 : Dev nD) : Thread nD τ).loc main_arg1) : S32.Idx → BitVec 32) x)) := by
  rw [tbl_eq]
  rfl

/-- Every table word is below 8. -/
theorem tbl_lt (x : S32.Idx) : ((tbl m 0 : S32.Idx → BitVec 32) x).toNat < 8 := by
  rw [tbl_at]
  exact clamp_lt _

/-- A nonnegative id's table word is the id, read signed and clamped into [0, 7]. -/
theorem tbl_of_nonneg (x : S32.Idx)
    (h : 0 ≤ ((m (((0 : Dev nD) : Thread nD τ).loc main_arg1) : S32.Idx → BitVec 32) x).toInt) :
    ((tbl m 0 : S32.Idx → BitVec 32) x).toNat
      = min ((m (((0 : Dev nD) : Thread nD τ).loc main_arg1) : S32.Idx → BitVec 32) x).toInt.toNat 7 := by
  rw [tbl_at]
  exact clamp_of_nonneg _ h

/-! ## The side condition -/

/-- Block (e, 0, 0) of extents [1, 32, N] lies inside an [8, 32, N] array when e < 8. -/
private theorem inb_1024 (w : BitVec 32) (hw : w.toNat < 8) :
    ∀ a, ((![w.toNat, 0, 0] : Fin 3 → Nat) a + 1) * S1x32x1024.size a ≤ S8x32x1024.size a := by
  intro a
  fin_cases a <;> simp [S1x32x1024, S8x32x1024] <;> omega
private theorem inb_4096 (w : BitVec 32) (hw : w.toNat < 8) :
    ∀ a, ((![w.toNat, 0, 0] : Fin 3 → Nat) a + 1) * S1x32x4096.size a ≤ S8x32x4096.size a := by
  intro a
  fin_cases a <;> simp [S1x32x4096, S8x32x4096] <;> omega

/-- The side condition at ANY contents whose words are below 8: each of the four expert-indexed windows has block
    (table word at the point's first coordinate, 0, 0), inside its eight-expert array; and a block of 32 rows of 16-bit
    elements is whole words (32 is a multiple of the packing 2), wherever it starts. -/
private theorem ok_of_lt (pf : pre0.Contents (Elt F)) (hl : ∀ x, ((pf 0 : S32.Idx → BitVec 32) x).toNat < 8) :
    ok0 (F := F) pf := by
  unfold ok0
  refine ⟨fun i => ?_, fun i => ?_, fun i => ?_, fun i => ?_⟩
  · obtain ⟨w, hw, e⟩ : ∃ w : BitVec 32, w.toNat < 8 ∧ cc0_transform_3 k0_off1_inb numel1_S1 pf i = ![w.toNat, 0, 0] :=
      ⟨_, hl _, rfl⟩
    exact ⟨fun a => by rw [e]; exact inb_1024 w hw a, .inr (Affine.block_words_dvd (of_decide_eq_true rfl) (by decide))⟩
  · obtain ⟨w, hw, e⟩ : ∃ w : BitVec 32, w.toNat < 8 ∧ cc0_transform_4 k0_off1_inb numel1_S1 pf i = ![w.toNat, 0, 0] :=
      ⟨_, hl _, rfl⟩
    exact ⟨fun a => by rw [e]; exact inb_4096 w hw a, .inr (Affine.block_words_dvd (of_decide_eq_true rfl) (by decide))⟩
  · obtain ⟨w, hw, e⟩ : ∃ w : BitVec 32, w.toNat < 8 ∧ cc0_transform_5 k0_off1_inb numel1_S1 pf i = ![w.toNat, 0, 0] :=
      ⟨_, hl _, rfl⟩
    exact ⟨fun a => by rw [e]; exact inb_4096 w hw a, .inr (Affine.block_words_dvd (of_decide_eq_true rfl) (by decide))⟩
  · obtain ⟨w, hw, e⟩ : ∃ w : BitVec 32, w.toNat < 8 ∧ cc0_transform_6 k0_off1_inb numel1_S1 pf i = ![w.toNat, 0, 0] :=
      ⟨_, hl _, rfl⟩
    exact ⟨fun a => by rw [e]; exact inb_1024 w hw a, .inr (Affine.block_words_dvd (of_decide_eq_true rfl) (by decide))⟩

/-- The pipeline's side condition on the table: every expert-indexed block inside its array, its transfers word-exact. -/
theorem ok : Ok m := ok_of_lt (tbl m) (tbl_lt m)

end Cert.Kernel.OkClamp

end
-- ==== Proof.OkClampIdeal.lean ====
/-
  The prefetched table of `KernelIdeal` is the expert ids clamped into [0, 7] by the program itself (a signed maximum with 0,
  then a signed minimum with 7), so every table word is below 8 and each expert-indexed block lies inside its
  eight-expert array whatever the ids are; and a nonnegative id's table word is the id read signed and clamped.
-/
import proofs.«414242_j31267361915293_3_alg».proof.Proof.Gen.KernelIdeal.Frame
import Idealize.ShloMosaic.Lib.StableHlo.Run

set_option maxRecDepth 16384

noncomputable section

namespace Cert.KernelIdeal.OkClamp

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-! ## A 32-bit word clamped signed into [0, 7] -/

/-- The clamp by cases on the word's signed reading: 0 below 0, 7 above 7, the word itself in between. -/
private theorem clamp_cases (w : BitVec 32) :
    (IntOp.minsi 7#32 (IntOp.maxsi 0#32 w)).toNat
      = (if w.toInt < 0 then 0 else if 7 < w.toInt then 7 else w.toInt.toNat) := by
  have h0 : (0#32 : BitVec 32).toInt = 0 := by decide
  have h7 : (7#32 : BitVec 32).toInt = 7 := by decide
  by_cases hw : w.toInt < 0
  · -- a negative word: the maximum with 0 is 0, and 0 is below 7
    have e1 : IntOp.maxsi 0#32 w = 0#32 := by
      unfold IntOp.maxsi; simp only [BitVec.slt, h0, hw, decide_true, if_true]
    have e2 : IntOp.minsi 7#32 0#32 = 0#32 := by decide
    rw [e1, e2, if_pos hw]; rfl
  · -- a nonnegative word survives the maximum
    have e1 : IntOp.maxsi 0#32 w = w := by
      unfold IntOp.maxsi; simp only [BitVec.slt, h0, hw, decide_false]; rfl
    rw [e1, if_neg hw]
    by_cases h7' : 7 < w.toInt
    · have e2 : IntOp.minsi 7#32 w = 7#32 := by
        unfold IntOp.minsi; simp only [BitVec.slt, h7, h7', decide_true, if_true]
      rw [e2, if_pos h7']; rfl
    · -- a word in [0, 7] survives the minimum too; its unsigned and signed readings agree
      have e2 : IntOp.minsi 7#32 w = w := by
        unfold IntOp.minsi; simp only [BitVec.slt, h7, h7', decide_false]; rfl
      rw [e2, if_neg h7']
      have hlt := w.isLt
      rw [BitVec.toInt_eq_toNat_cond] at hw ⊢
      by_cases hc : 2 * w.toNat < 2 ^ 32
      · simp only [hc, if_true] at hw ⊢; omega
      · simp only [hc, if_false] at hw ⊢; omega

/-- A clamped word is at most 7. -/
private theorem clamp_lt (w : BitVec 32) : (IntOp.minsi 7#32 (IntOp.maxsi 0#32 w)).toNat < 8 := by
  rw [clamp_cases]
  split
  · omega
  · split <;> omega

/-- A nonnegative word clamped is the smaller of the word and 7. -/
private theorem clamp_of_nonneg (w : BitVec 32) (h : 0 ≤ w.toInt) :
    (IntOp.minsi 7#32 (IntOp.maxsi 0#32 w)).toNat = min w.toInt.toNat 7 := by
  rw [clamp_cases, if_neg (by omega)]
  split <;> omega

/-! ## The table's contents -/

/-- The table when the region is entered: the host operations before it leave in it the minimum of 7 (broadcast) and the
    maximum of 0 (broadcast) and the ids as launched; the operations after the clamp write other buffers. -/
private theorem tbl_eq : (tbl m 0 : S32.Idx → BitVec 32)
    = minsi (broadcastInDim S32 ![] bcast_S_S32 (constantI S_ 32 7#32))
        (maxsi (broadcastInDim S32 ![] bcast_S_S32 (constantI S_ 32 0#32))
          (m (((0 : Dev nD) : Thread nD τ).loc main_arg1))) := by
  unfold Gen.tbl
  show V m 0 main_v0 = _
  unfold V
  simp only [hostOps0, hostOps0_1, hostOps0_2, List.flatten_cons, List.flatten_nil, List.append_nil, List.cons_append,
    List.nil_append]
  after_results
  rfl

/-- Read at an index: the broadcasts are constant and the maximum and minimum pointwise, so word x of the table is id x
    clamped. -/
private theorem tbl_at (x : S32.Idx) : (tbl m 0 : S32.Idx → BitVec 32) x
    = IntOp.minsi 7#32 (IntOp.maxsi 0#32 ((m (((0 : Dev nD) : Thread nD τ).loc main_arg1) : S32.Idx → BitVec 32) x)) := by
  rw [tbl_eq]
  rfl

/-- Every table word is below 8. -/
theorem tbl_lt (x : S32.Idx) : ((tbl m 0 : S32.Idx → BitVec 32) x).toNat < 8 := by
  rw [tbl_at]
  exact clamp_lt _

/-- A nonnegative id's table word is the id, read signed and clamped into [0, 7]. -/
theorem tbl_of_nonneg (x : S32.Idx)
    (h : 0 ≤ ((m (((0 : Dev nD) : Thread nD τ).loc main_arg1) : S32.Idx → BitVec 32) x).toInt) :
    ((tbl m 0 : S32.Idx → BitVec 32) x).toNat
      = min ((m (((0 : Dev nD) : Thread nD τ).loc main_arg1) : S32.Idx → BitVec 32) x).toInt.toNat 7 := by
  rw [tbl_at]
  exact clamp_of_nonneg _ h

/-! ## The side condition -/

/-- Block (e, 0, 0) of extents [1, 32, N] lies inside an [8, 32, N] array when e < 8. -/
private theorem inb_1024 (w : BitVec 32) (hw : w.toNat < 8) :
    ∀ a, ((![w.toNat, 0, 0] : Fin 3 → Nat) a + 1) * S1x32x1024.size a ≤ S8x32x1024.size a := by
  intro a
  fin_cases a <;> simp [S1x32x1024, S8x32x1024] <;> omega
private theorem inb_4096 (w : BitVec 32) (hw : w.toNat < 8) :
    ∀ a, ((![w.toNat, 0, 0] : Fin 3 → Nat) a + 1) * S1x32x4096.size a ≤ S8x32x4096.size a := by
  intro a
  fin_cases a <;> simp [S1x32x4096, S8x32x4096] <;> omega

/-- The side condition at ANY contents whose words are below 8: each of the four expert-indexed windows has block
    (table word at the point's first coordinate, 0, 0), inside its eight-expert array; and a block of 32 rows of 16-bit
    elements is whole words (32 is a multiple of the packing 2), wherever it starts. -/
private theorem ok_of_lt (pf : pre0.Contents (Elt F)) (hl : ∀ x, ((pf 0 : S32.Idx → BitVec 32) x).toNat < 8) :
    ok0 (F := F) pf := by
  unfold ok0
  refine ⟨fun i => ?_, fun i => ?_, fun i => ?_, fun i => ?_⟩
  · obtain ⟨w, hw, e⟩ : ∃ w : BitVec 32, w.toNat < 8 ∧ cc0_transform_3 k0_off1_inb numel1_S1 pf i = ![w.toNat, 0, 0] :=
      ⟨_, hl _, rfl⟩
    exact ⟨fun a => by rw [e]; exact inb_1024 w hw a, .inr (Affine.block_words_dvd (of_decide_eq_true rfl) (by decide))⟩
  · obtain ⟨w, hw, e⟩ : ∃ w : BitVec 32, w.toNat < 8 ∧ cc0_transform_4 k0_off1_inb numel1_S1 pf i = ![w.toNat, 0, 0] :=
      ⟨_, hl _, rfl⟩
    exact ⟨fun a => by rw [e]; exact inb_4096 w hw a, .inr (Affine.block_words_dvd (of_decide_eq_true rfl) (by decide))⟩
  · obtain ⟨w, hw, e⟩ : ∃ w : BitVec 32, w.toNat < 8 ∧ cc0_transform_5 k0_off1_inb numel1_S1 pf i = ![w.toNat, 0, 0] :=
      ⟨_, hl _, rfl⟩
    exact ⟨fun a => by rw [e]; exact inb_4096 w hw a, .inr (Affine.block_words_dvd (of_decide_eq_true rfl) (by decide))⟩
  · obtain ⟨w, hw, e⟩ : ∃ w : BitVec 32, w.toNat < 8 ∧ cc0_transform_6 k0_off1_inb numel1_S1 pf i = ![w.toNat, 0, 0] :=
      ⟨_, hl _, rfl⟩
    exact ⟨fun a => by rw [e]; exact inb_1024 w hw a, .inr (Affine.block_words_dvd (of_decide_eq_true rfl) (by decide))⟩

/-- The pipeline's side condition on the table: every expert-indexed block inside its array, its transfers word-exact. -/
theorem ok : Ok m := ok_of_lt (tbl m) (tbl_lt m)

end Cert.KernelIdeal.OkClamp

end
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.Spec.lean ====
/-
  One row of the low-rank-adapted feed-forward layer, in the two groupings the two programs compute it in.

  For a row vector `v`, a dense weight and a rank-32 pair of factors, the kernel forms
  `v·W + (v·Aᵀ)·B` with the 32 factor rows stacked from a common block (rows 0..15) and one expert's block
  (rows 16..31), the scale 2 already multiplied into the second factor. The reference forms
  `v·Wᵀ' + 2·((v·caᵀ)·cbᵀ) + 2·((v·eaᵀ)·ebᵀ)` with the common and the expert pair kept apart and the scale applied
  to each finished product. A sum over 32 stacked rows is the sum over the first 16 plus the sum over the last 16;
  a scale moves across a finite sum of finite reals. So the two agree whenever every entry is a finite real.
-/
import Idealize.ShloMosaic.PureOps.Ideal
import proofs.«414242_j31267361915293_3_alg».proof.Proof.LibReal
import Mathlib.Algebra.BigOperators.Fin

noncomputable section

namespace Cert.Spec

open scoped BigOperators
open Cert.LibReal

/-- The kernel's grouping: `(∑ i, v i · W i j) + ∑ r, (∑ i, v i · A r i) · B r j`. -/
def lora {n k : ℕ} (v : Fin n → EReal) (W : Fin n → Fin k → EReal) (A : Fin 32 → Fin n → EReal)
    (B : Fin 32 → Fin k → EReal) (j : Fin k) : EReal :=
  (∑ i, v i * W i j) + ∑ r, (∑ i, v i * A r i) * B r j

/-- The reference's grouping, the dense weight stored output-major and the scale `two` applied to each low-rank product. -/
def loraR {n k : ℕ} (two : EReal) (v : Fin n → EReal) (W : Fin k → Fin n → EReal) (ca : Fin 16 → Fin n → EReal)
    (cb : Fin k → Fin 16 → EReal) (ea : Fin 16 → Fin n → EReal) (eb : Fin k → Fin 16 → EReal) (j : Fin k) : EReal :=
  ((∑ i, v i * W j i) + two * ∑ r, (∑ i, v i * ca r i) * cb j r) + two * ∑ r, (∑ i, v i * ea r i) * eb j r

/-- The first factors stacked: rows 0..15 the common block, rows 16..31 the expert's. -/
def stackA {n : ℕ} (ca ea : Fin 16 → Fin n → EReal) (r : Fin 32) (i : Fin n) : EReal :=
  if h : r.val < 16 then ca ⟨r.val, h⟩ i else ea ⟨r.val - 16, by omega⟩ i

/-- The second factors stacked, transposed and scaled: row `r`, column `j` is `cb j r · two` or `eb j (r-16) · two`. -/
def stackB {k : ℕ} (two : EReal) (cb eb : Fin k → Fin 16 → EReal) (r : Fin 32) (j : Fin k) : EReal :=
  if h : r.val < 16 then cb j ⟨r.val, h⟩ * two else eb j ⟨r.val - 16, by omega⟩ * two

/-- A finite real factor moves into a finite sum of finite reals. -/
theorem mul_sum_real {ι : Type*} [Fintype ι] {c : EReal} (hc : IsReal c) {f : ι → EReal} (hf : ∀ i, IsReal (f i)) :
    c * ∑ i, f i = ∑ i, c * f i := by
  obtain ⟨c', rfl⟩ := hc
  choose g hg using hf
  have e : f = fun i => ((g i : ℝ) : EReal) := funext hg
  subst e
  rw [← coe_finset_sum, ← EReal.coe_mul, Finset.mul_sum, coe_finset_sum]
  exact Finset.sum_congr rfl fun i _ => EReal.coe_mul _ _

/-- A sum over the 32 stacked rows is the sum over the first sixteen plus the sum over the last sixteen. -/
theorem sum_split (g : Fin 32 → EReal) :
    ∑ r, g r = (∑ r : Fin 16, g ⟨r.val, by omega⟩) + ∑ r : Fin 16, g ⟨16 + r.val, by omega⟩ := by
  have h := Fin.sum_univ_add (M := EReal) (a := 16) (b := 16) (fun r : Fin (16 + 16) => g ⟨r.val, r.isLt⟩)
  exact h

theorem stackA_lo {n : ℕ} (ca ea : Fin 16 → Fin n → EReal) (r : Fin 16) (i : Fin n) :
    stackA ca ea ⟨r.val, by omega⟩ i = ca r i := by
  unfold stackA; rw [dif_pos (show (⟨r.val, by omega⟩ : Fin 32).val < 16 from r.isLt)]

theorem stackA_hi {n : ℕ} (ca ea : Fin 16 → Fin n → EReal) (r : Fin 16) (i : Fin n) :
    stackA ca ea ⟨16 + r.val, by omega⟩ i = ea r i := by
  unfold stackA
  rw [dif_neg (show ¬ (⟨16 + r.val, by omega⟩ : Fin 32).val < 16 from by simp)]
  congr 1; exact Fin.ext (by simp)

theorem stackB_lo {k : ℕ} (two : EReal) (cb eb : Fin k → Fin 16 → EReal) (r : Fin 16) (j : Fin k) :
    stackB two cb eb ⟨r.val, by omega⟩ j = cb j r * two := by
  unfold stackB; rw [dif_pos (show (⟨r.val, by omega⟩ : Fin 32).val < 16 from r.isLt)]

theorem stackB_hi {k : ℕ} (two : EReal) (cb eb : Fin k → Fin 16 → EReal) (r : Fin 16) (j : Fin k) :
    stackB two cb eb ⟨16 + r.val, by omega⟩ j = eb j r * two := by
  unfold stackB
  rw [dif_neg (show ¬ (⟨16 + r.val, by omega⟩ : Fin 32).val < 16 from by simp)]
  congr 2; exact Fin.ext (by simp)

/-- One half of the stacked low-rank term: the scale, multiplied into each second factor, comes out of the sum. -/
theorem half_eq {n : ℕ} {two : EReal} (htwo : IsReal two) {v : Fin n → EReal} (hv : ∀ i, IsReal (v i))
    {a : Fin 16 → Fin n → EReal} (ha : ∀ r i, IsReal (a r i)) {b : Fin 16 → EReal} (hb : ∀ r, IsReal (b r)) :
    ∑ r : Fin 16, (∑ i, v i * a r i) * (b r * two) = two * ∑ r : Fin 16, (∑ i, v i * a r i) * b r := by
  rw [mul_sum_real htwo (fun r => (IsReal.sum_univ _ fun i => (hv i).mul (ha r i)).mul (hb r))]
  refine Finset.sum_congr rfl fun r _ => ?_
  rw [← mul_assoc, mul_comm]

/-- THE LAW: on finite reals the kernel's grouping over the stacked, pre-scaled factors is the reference's grouping. -/
theorem lora_stack_eq {n k : ℕ} {two : EReal} (htwo : IsReal two) {v : Fin n → EReal} (hv : ∀ i, IsReal (v i))
    (W : Fin k → Fin n → EReal) {ca ea : Fin 16 → Fin n → EReal} {cb eb : Fin k → Fin 16 → EReal}
    (hca : ∀ r i, IsReal (ca r i)) (hea : ∀ r i, IsReal (ea r i)) (hcb : ∀ j r, IsReal (cb j r))
    (heb : ∀ j r, IsReal (eb j r)) (j : Fin k) :
    lora v (fun i j => W j i) (stackA ca ea) (stackB two cb eb) j = loraR two v W ca cb ea eb j := by
  unfold lora loraR
  rw [sum_split]
  simp only [stackA_lo, stackA_hi, stackB_lo, stackB_hi]
  rw [half_eq htwo hv hca (fun r => hcb j r), half_eq htwo hv hea (fun r => heb j r), add_assoc]

/-- The reference's grouping of finite reals is a finite real. -/
theorem isReal_loraR {n k : ℕ} {two : EReal} (htwo : IsReal two) {v : Fin n → EReal} (hv : ∀ i, IsReal (v i))
    {W : Fin k → Fin n → EReal} (hW : ∀ j i, IsReal (W j i)) {ca ea : Fin 16 → Fin n → EReal} {cb eb : Fin k → Fin 16 → EReal}
    (hca : ∀ r i, IsReal (ca r i)) (hea : ∀ r i, IsReal (ea r i)) (hcb : ∀ j r, IsReal (cb j r))
    (heb : ∀ j r, IsReal (eb j r)) (j : Fin k) : IsReal (loraR two v W ca cb ea eb j) := by
  unfold loraR
  exact ((IsReal.sum_univ _ fun i => (hv i).mul (hW j i)).add
    (htwo.mul (IsReal.sum_univ _ fun r => (IsReal.sum_univ _ fun i => (hv i).mul (hca r i)).mul (hcb j r)))).add
    (htwo.mul (IsReal.sum_univ _ fun r => (IsReal.sum_univ _ fun i => (hv i).mul (hea r i)).mul (heb j r)))

/-- The f32 word `0x40000000`: the scale 2. -/
def two : EReal := Idealize.ShloMosaic.Ideal.ofBits .f32 0x40000000#32

/-- The scale is the real number 2. -/
theorem two_eq : two = ((2 : ℝ) : EReal) := by
  unfold two
  simp [Idealize.ShloMosaic.Ideal.ofBits, Idealize.ShloMosaic.Ideal.ieee, -EReal.coe_mul]; norm_num

theorem isReal_two : IsReal two := ⟨2, two_eq⟩

/-- An expert id word read signed and clamped into `[0, 7]`: the expert both programs use for a nonnegative id. -/
def eidx (w : BitVec 32) : Fin 8 := ⟨min w.toInt.toNat 7, by omega⟩

/-- Two layers with the rectifier between, in the kernel's grouping. -/
def outK (xr : Fin 1024 → EReal) (Wi : Fin 1024 → Fin 4096 → EReal) (Ai : Fin 32 → Fin 1024 → EReal)
    (Bi : Fin 32 → Fin 4096 → EReal) (Wo : Fin 4096 → Fin 1024 → EReal) (Ao : Fin 32 → Fin 4096 → EReal)
    (Bo : Fin 32 → Fin 1024 → EReal) (d : Fin 1024) : EReal :=
  lora (fun f => max (lora xr Wi Ai Bi f) 0) Wo Ao Bo d

/-- Two layers with the rectifier between, in the reference's grouping. -/
def outR (two : EReal) (xr : Fin 1024 → EReal) (wi : Fin 4096 → Fin 1024 → EReal) (cia : Fin 16 → Fin 1024 → EReal)
    (cib : Fin 4096 → Fin 16 → EReal) (eia : Fin 16 → Fin 1024 → EReal) (eib : Fin 4096 → Fin 16 → EReal)
    (wo : Fin 1024 → Fin 4096 → EReal) (coa : Fin 16 → Fin 4096 → EReal) (cob : Fin 1024 → Fin 16 → EReal)
    (eoa : Fin 16 → Fin 4096 → EReal) (eob : Fin 1024 → Fin 16 → EReal) (d : Fin 1024) : EReal :=
  loraR two (fun f => max (loraR two xr wi cia cib eia eib f) 0) wo coa cob eoa eob d

/-- The two-layer forms agree on finite reals: the law at the first layer, the rectifier of a finite real a finite
    real, the law again at the second. -/
theorem outK_eq_outR {two : EReal} (htwo : IsReal two) {xr : Fin 1024 → EReal} (hx : ∀ i, IsReal (xr i))
    {wi : Fin 4096 → Fin 1024 → EReal} (hwi : ∀ f i, IsReal (wi f i))
    {cia eia : Fin 16 → Fin 1024 → EReal} {cib eib : Fin 4096 → Fin 16 → EReal}
    (hcia : ∀ r i, IsReal (cia r i)) (heia : ∀ r i, IsReal (eia r i)) (hcib : ∀ f r, IsReal (cib f r))
    (heib : ∀ f r, IsReal (eib f r))
    (wo : Fin 1024 → Fin 4096 → EReal) {coa eoa : Fin 16 → Fin 4096 → EReal} {cob eob : Fin 1024 → Fin 16 → EReal}
    (hcoa : ∀ r f, IsReal (coa r f)) (heoa : ∀ r f, IsReal (eoa r f)) (hcob : ∀ d r, IsReal (cob d r))
    (heob : ∀ d r, IsReal (eob d r)) (d : Fin 1024) :
    outK xr (fun i f => wi f i) (stackA cia eia) (stackB two cib eib) (fun f d => wo d f) (stackA coa eoa)
      (stackB two cob eob) d = outR two xr wi cia cib eia eib wo coa cob eoa eob d := by
  unfold outK outR
  have h1 : (fun f => max (lora xr (fun i f => wi f i) (stackA cia eia) (stackB two cib eib) f) 0)
      = fun f => max (loraR two xr wi cia cib eia eib f) 0 :=
    funext fun f => by rw [lora_stack_eq htwo hx wi hcia heia hcib heib f]
  rw [h1]
  exact lora_stack_eq htwo
    (fun f => (isReal_loraR htwo hx hwi hcia heia hcib heib f).max isReal_zero) wo hcoa heoa hcob heob d

end Cert.Spec

end
-- ==== Proof.KernelSpec.lean ====
/-
  What the kernel program's result is claimed to hold: entry (b, s, d) is the two-layer form, in the kernel's grouping, of
  row (b, s) of the input against the arrays the launch finds — the transposed dense weights and the rank-32 factor
  arrays at the expert the prefetched table names for batch b.
-/
import proofs.«414242_j31267361915293_3_alg».proof.Proof.Gen.KernelIdeal.Frame
import proofs.«414242_j31267361915293_3_alg».proof.Proof.Spec
import proofs.«414242_j31267361915293_3_alg».proof.Proof.OkClampIdeal
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The expert the table names for batch b (a table word is below 8 because the program clamps the ids). -/
def ex (b : Fin 32) : Fin 8 := ⟨((tbl m 0 : S32.Idx → BitVec 32) (ix1 b)).toNat, OkClamp.tbl_lt m _⟩

/-- Entry (b, s, d) of the result: the kernel's two-layer form of row (b, s) against the arrays the launch finds. -/
def Gc (c : Dev nD) (b : Fin 32) (s : Fin 512) (d : Fin 1024) : EReal :=
  Spec.outK (fun i => (V m c main_arg0 : S32x512x1024.Idx → EReal) (ix3 b s i))
    (fun i f => (V m c main_v2 : S1024x4096.Idx → EReal) (ix2 i f))
    (fun r i => (V m c main_v8 : S8x32x1024.Idx → EReal) (ix3 (ex m b) r i))
    (fun r f => (V m c main_v18 : S8x32x4096.Idx → EReal) (ix3 (ex m b) r f))
    (fun f d => (V m c main_v4 : S4096x1024.Idx → EReal) (ix2 f d))
    (fun r f => (V m c main_v22 : S8x32x4096.Idx → EReal) (ix3 (ex m b) r f))
    (fun r d => (V m c main_v32 : S8x32x1024.Idx → EReal) (ix3 (ex m b) r d)) d

/-- The result array as one function of the index. -/
def G (c : Dev nD) : S32x512x1024.Idx → EReal := fun idx => Gc m c (idx 0) (idx 1) (idx 2)

end Cert.KernelIdeal.KValue

end
-- ==== Proof.Payload.lean ====
/-
  The kernel body's arithmetic at one entry of its output block, at the ideal instance: entry (s, d) of the block is the
  two-layer form in the kernel's grouping of row s of the input block, the two dense weight blocks and the four rank-32
  factor blocks. Each matrix product into a zero accumulator is a plain sum; changes of float format are the identity;
  the rectifier is the maximum with zero.

  The body is read in three pieces: the first layer before the rectifier (`hid`), the rectifier with the change of
  format (`act`), and the second layer (`out2`); the body is their composition by unfolding. Each of the six matrix
  products is read at an entry as the sum over its one contracted axis: for a product of a [m,k] block with a [k,n] block
  the contracted axis is the left operand's second and the right operand's first; for a product against a transposed
  [n,k] factor it is the second axis of both.
-/
import proofs.«414242_j31267361915293_3_alg».proof.Proof.Gen.KernelIdeal.Skeleton
import proofs.«414242_j31267361915293_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-! ### The input rows [256,1024] times the dense weight [1024,4096] -/

theorem lhs_v5_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_v5_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_v5_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_v5_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl
/-- Entry (s, f) of the product into a zero accumulator: the sum over k of a(s,k) · w(k,f). -/
theorem mm_v5 {φ₁ φ₂ : FTy} (a : FVec Ideal S256x1024 φ₁) (w : FVec Ideal S1024x4096 φ₂) (s : Fin 256) (f : Fin 4096) :
    matmul dot_S256x1024_S1024x4096_S256x4096_1_0_0_1_n_n none a w (constant S256x4096 .f32 0x00000000#32 (F := Ideal)) (ix2 s f)
      = ∑ k : Fin 1024, a (ix2 s k) * w (ix2 k f) := by
  refine (Ideal.matmul_constant_zero_apply dot_S256x1024_S1024x4096_S256x4096_1_0_0_1_n_n none a w (ix2 s f)).trans ?_
  rw [← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 s f) ((contrEquiv1 dot_S256x1024_S1024x4096_S256x4096_1_0_0_1_n_n 1024 rfl rfl).symm k) = ix2 s k := funext fun a => Fin.ext (by
    match a with
    | ⟨0, _⟩ => exact lhs_v5_0 _ _
    | ⟨1, _⟩ => exact (lhs_v5_1 _ _).trans hk)
  have er : dot_S256x1024_S1024x4096_S256x4096_1_0_0_1_n_n.rhsIdx (ix2 s f) ((contrEquiv1 dot_S256x1024_S1024x4096_S256x4096_1_0_0_1_n_n 1024 rfl rfl).symm k) = ix2 k f := funext fun a => Fin.ext (by
    match a with
    | ⟨0, _⟩ => exact (rhs_v5_0 _ _).trans hk
    | ⟨1, _⟩ => exact rhs_v5_1 _ _)
  rw [el, er]

/-! ### The input rows [256,1024] against the transposed first factor [32,1024] -/

theorem lhs_v8_0 (i : S256x32.Idx) (q : dot_S256x1024_S32x1024_S256x32_1_1_0_0_n_n.contr.Idx) :
    (dot_S256x1024_S32x1024_S256x32_1_1_0_0_n_n.lhsIdx i q 0).val = (i 0).val := by
  unfold DotDims.lhsIdx
  rw [dif_neg (show ¬(0 : Fin S256x1024.rank) ∈ dot_S256x1024_S32x1024_S256x32_1_1_0_0_n_n.lhsBatch by decide), dif_pos (show (0 : Fin S256x1024.rank) ∈ dot_S256x1024_S32x1024_S256x32_1_1_0_0_n_n.lhsNonContracting by decide)]
  rfl
theorem lhs_v8_1 (i : S256x32.Idx) (q : dot_S256x1024_S32x1024_S256x32_1_1_0_0_n_n.contr.Idx) :
    (dot_S256x1024_S32x1024_S256x32_1_1_0_0_n_n.lhsIdx i q 1).val = (q ⟨0, by decide⟩).val :=
  dot_S256x1024_S32x1024_S256x32_1_1_0_0_n_n.lhsIdx_val_of_single rfl i q
theorem rhs_v8_0 (i : S256x32.Idx) (q : dot_S256x1024_S32x1024_S256x32_1_1_0_0_n_n.contr.Idx) :
    (dot_S256x1024_S32x1024_S256x32_1_1_0_0_n_n.rhsIdx i q 0).val = (i 1).val := by
  unfold DotDims.rhsIdx
  rw [dif_neg (show ¬(0 : Fin S32x1024.rank) ∈ dot_S256x1024_S32x1024_S256x32_1_1_0_0_n_n.rhsBatch by decide), dif_pos (show (0 : Fin S32x1024.rank) ∈ dot_S256x1024_S32x1024_S256x32_1_1_0_0_n_n.rhsNonContracting by decide)]
  rfl
theorem rhs_v8_1 (i : S256x32.Idx) (q : dot_S256x1024_S32x1024_S256x32_1_1_0_0_n_n.contr.Idx) :
    (dot_S256x1024_S32x1024_S256x32_1_1_0_0_n_n.rhsIdx i q 1).val = (q ⟨0, by decide⟩).val :=
  dot_S256x1024_S32x1024_S256x32_1_1_0_0_n_n.rhsIdx_val_of_single rfl i q
/-- Entry (s, r) of the product against the transposed factor into a zero accumulator: the sum over k of a(s,k) · w(r,k). -/
theorem mm_v8 {φ₁ φ₂ : FTy} (a : FVec Ideal S256x1024 φ₁) (w : FVec Ideal S32x1024 φ₂) (s : Fin 256) (r : Fin 32) :
    matmul dot_S256x1024_S32x1024_S256x32_1_1_0_0_n_n none a w (constant S256x32 .f32 0x00000000#32 (F := Ideal)) (ix2 s r)
      = ∑ k : Fin 1024, a (ix2 s k) * w (ix2 r k) := by
  refine (Ideal.matmul_constant_zero_apply dot_S256x1024_S32x1024_S256x32_1_1_0_0_n_n none a w (ix2 s r)).trans ?_
  rw [← Equiv.sum_comp (contrEquiv1 dot_S256x1024_S32x1024_S256x32_1_1_0_0_n_n 1024 rfl rfl).symm]
  refine Finset.sum_congr rfl fun k _ => ?_
  have hk := contrEquiv1_symm_val dot_S256x1024_S32x1024_S256x32_1_1_0_0_n_n 1024 rfl rfl k
  have el : dot_S256x1024_S32x1024_S256x32_1_1_0_0_n_n.lhsIdx (ix2 s r) ((contrEquiv1 dot_S256x1024_S32x1024_S256x32_1_1_0_0_n_n 1024 rfl rfl).symm k) = ix2 s k := funext fun a => Fin.ext (by
    match a with
    | ⟨0, _⟩ => exact lhs_v8_0 _ _
    | ⟨1, _⟩ => exact (lhs_v8_1 _ _).trans hk)
  have er : dot_S256x1024_S32x1024_S256x32_1_1_0_0_n_n.rhsIdx (ix2 s r) ((contrEquiv1 dot_S256x1024_S32x1024_S256x32_1_1_0_0_n_n 1024 rfl rfl).symm k) = ix2 r k := funext fun a => Fin.ext (by
    match a with
    | ⟨0, _⟩ => exact rhs_v8_0 _ _
    | ⟨1, _⟩ => exact (rhs_v8_1 _ _).trans hk)
  rw [el, er]

/-! ### The low-rank rows [256,32] times the second factor [32,4096] -/

theorem lhs_v12_0 (i : S256x4096.Idx) (q : dot_S256x32_S32x4096_S256x4096_1_0_0_1_n_n.contr.Idx) :
    (dot_S256x32_S32x4096_S256x4096_1_0_0_1_n_n.lhsIdx i q 0).val = (i 0).val := by
  unfold DotDims.lhsIdx
  rw [dif_neg (show ¬(0 : Fin S256x32.rank) ∈ dot_S256x32_S32x4096_S256x4096_1_0_0_1_n_n.lhsBatch by decide), dif_pos (show (0 : Fin S256x32.rank) ∈ dot_S256x32_S32x4096_S256x4096_1_0_0_1_n_n.lhsNonContracting by decide)]
  rfl
theorem lhs_v12_1 (i : S256x4096.Idx) (q : dot_S256x32_S32x4096_S256x4096_1_0_0_1_n_n.contr.Idx) :
    (dot_S256x32_S32x4096_S256x4096_1_0_0_1_n_n.lhsIdx i q 1).val = (q ⟨0, by decide⟩).val :=
  dot_S256x32_S32x4096_S256x4096_1_0_0_1_n_n.lhsIdx_val_of_single rfl i q
theorem rhs_v12_0 (i : S256x4096.Idx) (q : dot_S256x32_S32x4096_S256x4096_1_0_0_1_n_n.contr.Idx) :
    (dot_S256x32_S32x4096_S256x4096_1_0_0_1_n_n.rhsIdx i q 0).val = (q ⟨0, by decide⟩).val :=
  dot_S256x32_S32x4096_S256x4096_1_0_0_1_n_n.rhsIdx_val_of_single rfl i q
theorem rhs_v12_1 (i : S256x4096.Idx) (q : dot_S256x32_S32x4096_S256x4096_1_0_0_1_n_n.contr.Idx) :
    (dot_S256x32_S32x4096_S256x4096_1_0_0_1_n_n.rhsIdx i q 1).val = (i 1).val := by
  unfold DotDims.rhsIdx
  rw [dif_neg (show ¬(1 : Fin S32x4096.rank) ∈ dot_S256x32_S32x4096_S256x4096_1_0_0_1_n_n.rhsBatch by decide), dif_pos (show (1 : Fin S32x4096.rank) ∈ dot_S256x32_S32x4096_S256x4096_1_0_0_1_n_n.rhsNonContracting by decide)]
  rfl
/-- Entry (s, f) of the product into a zero accumulator: the sum over r of a(s,r) · w(r,f). -/
theorem mm_v12 {φ₁ φ₂ : FTy} (a : FVec Ideal S256x32 φ₁) (w : FVec Ideal S32x4096 φ₂) (s : Fin 256) (f : Fin 4096) :
    matmul dot_S256x32_S32x4096_S256x4096_1_0_0_1_n_n none a w (constant S256x4096 .f32 0x00000000#32 (F := Ideal)) (ix2 s f)
      = ∑ k : Fin 32, a (ix2 s k) * w (ix2 k f) := by
  refine (Ideal.matmul_constant_zero_apply dot_S256x32_S32x4096_S256x4096_1_0_0_1_n_n none a w (ix2 s f)).trans ?_
  rw [← Equiv.sum_comp (contrEquiv1 dot_S256x32_S32x4096_S256x4096_1_0_0_1_n_n 32 rfl rfl).symm]
  refine Finset.sum_congr rfl fun k _ => ?_
  have hk := contrEquiv1_symm_val dot_S256x32_S32x4096_S256x4096_1_0_0_1_n_n 32 rfl rfl k
  have el : dot_S256x32_S32x4096_S256x4096_1_0_0_1_n_n.lhsIdx (ix2 s f) ((contrEquiv1 dot_S256x32_S32x4096_S256x4096_1_0_0_1_n_n 32 rfl rfl).symm k) = ix2 s k := funext fun a => Fin.ext (by
    match a with
    | ⟨0, _⟩ => exact lhs_v12_0 _ _
    | ⟨1, _⟩ => exact (lhs_v12_1 _ _).trans hk)
  have er : dot_S256x32_S32x4096_S256x4096_1_0_0_1_n_n.rhsIdx (ix2 s f) ((contrEquiv1 dot_S256x32_S32x4096_S256x4096_1_0_0_1_n_n 32 rfl rfl).symm k) = ix2 k f := funext fun a => Fin.ext (by
    match a with
    | ⟨0, _⟩ => exact (rhs_v12_0 _ _).trans hk
    | ⟨1, _⟩ => exact rhs_v12_1 _ _)
  rw [el, er]

/-! ### The rectified rows [256,4096] times the dense weight [4096,1024] -/

theorem lhs_v19_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_v19_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_v19_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_v19_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl
/-- Entry (s, d) of the product into a zero accumulator: the sum over f of a(s,f) · w(f,d). -/
theorem mm_v19 {φ₁ φ₂ : FTy} (a : FVec Ideal S256x4096 φ₁) (w : FVec Ideal S4096x1024 φ₂) (s : Fin 256) (d : Fin 1024) :
    matmul dot_S256x4096_S4096x1024_S256x1024_1_0_0_1_n_n none a w (constant S256x1024 .f32 0x00000000#32 (F := Ideal)) (ix2 s d)
      = ∑ k : Fin 4096, a (ix2 s k) * w (ix2 k d) := by
  refine (Ideal.matmul_constant_zero_apply dot_S256x4096_S4096x1024_S256x1024_1_0_0_1_n_n none a w (ix2 s d)).trans ?_
  rw [← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 s d) ((contrEquiv1 dot_S256x4096_S4096x1024_S256x1024_1_0_0_1_n_n 4096 rfl rfl).symm k) = ix2 s k := funext fun a => Fin.ext (by
    match a with
    | ⟨0, _⟩ => exact lhs_v19_0 _ _
    | ⟨1, _⟩ => exact (lhs_v19_1 _ _).trans hk)
  have er : dot_S256x4096_S4096x1024_S256x1024_1_0_0_1_n_n.rhsIdx (ix2 s d) ((contrEquiv1 dot_S256x4096_S4096x1024_S256x1024_1_0_0_1_n_n 4096 rfl rfl).symm k) = ix2 k d := funext fun a => Fin.ext (by
    match a with
    | ⟨0, _⟩ => exact (rhs_v19_0 _ _).trans hk
    | ⟨1, _⟩ => exact rhs_v19_1 _ _)
  rw [el, er]

/-! ### The rectified rows [256,4096] against the transposed first factor [32,4096] -/

theorem lhs_v22_0 (i : S256x32.Idx) (q : dot_S256x4096_S32x4096_S256x32_1_1_0_0_n_n.contr.Idx) :
    (dot_S256x4096_S32x4096_S256x32_1_1_0_0_n_n.lhsIdx i q 0).val = (i 0).val := by
  unfold DotDims.lhsIdx
  rw [dif_neg (show ¬(0 : Fin S256x4096.rank) ∈ dot_S256x4096_S32x4096_S256x32_1_1_0_0_n_n.lhsBatch by decide), dif_pos (show (0 : Fin S256x4096.rank) ∈ dot_S256x4096_S32x4096_S256x32_1_1_0_0_n_n.lhsNonContracting by decide)]
  rfl
theorem lhs_v22_1 (i : S256x32.Idx) (q : dot_S256x4096_S32x4096_S256x32_1_1_0_0_n_n.contr.Idx) :
    (dot_S256x4096_S32x4096_S256x32_1_1_0_0_n_n.lhsIdx i q 1).val = (q ⟨0, by decide⟩).val :=
  dot_S256x4096_S32x4096_S256x32_1_1_0_0_n_n.lhsIdx_val_of_single rfl i q
theorem rhs_v22_0 (i : S256x32.Idx) (q : dot_S256x4096_S32x4096_S256x32_1_1_0_0_n_n.contr.Idx) :
    (dot_S256x4096_S32x4096_S256x32_1_1_0_0_n_n.rhsIdx i q 0).val = (i 1).val := by
  unfold DotDims.rhsIdx
  rw [dif_neg (show ¬(0 : Fin S32x4096.rank) ∈ dot_S256x4096_S32x4096_S256x32_1_1_0_0_n_n.rhsBatch by decide), dif_pos (show (0 : Fin S32x4096.rank) ∈ dot_S256x4096_S32x4096_S256x32_1_1_0_0_n_n.rhsNonContracting by decide)]
  rfl
theorem rhs_v22_1 (i : S256x32.Idx) (q : dot_S256x4096_S32x4096_S256x32_1_1_0_0_n_n.contr.Idx) :
    (dot_S256x4096_S32x4096_S256x32_1_1_0_0_n_n.rhsIdx i q 1).val = (q ⟨0, by decide⟩).val :=
  dot_S256x4096_S32x4096_S256x32_1_1_0_0_n_n.rhsIdx_val_of_single rfl i q
/-- Entry (s, r) of the product against the transposed factor into a zero accumulator: the sum over f of a(s,f) · w(r,f). -/
theorem mm_v22 {φ₁ φ₂ : FTy} (a : FVec Ideal S256x4096 φ₁) (w : FVec Ideal S32x4096 φ₂) (s : Fin 256) (r : Fin 32) :
    matmul dot_S256x4096_S32x4096_S256x32_1_1_0_0_n_n none a w (constant S256x32 .f32 0x00000000#32 (F := Ideal)) (ix2 s r)
      = ∑ k : Fin 4096, a (ix2 s k) * w (ix2 r k) := by
  refine (Ideal.matmul_constant_zero_apply dot_S256x4096_S32x4096_S256x32_1_1_0_0_n_n none a w (ix2 s r)).trans ?_
  rw [← Equiv.sum_comp (contrEquiv1 dot_S256x4096_S32x4096_S256x32_1_1_0_0_n_n 4096 rfl rfl).symm]
  refine Finset.sum_congr rfl fun k _ => ?_
  have hk := contrEquiv1_symm_val dot_S256x4096_S32x4096_S256x32_1_1_0_0_n_n 4096 rfl rfl k
  have el : dot_S256x4096_S32x4096_S256x32_1_1_0_0_n_n.lhsIdx (ix2 s r) ((contrEquiv1 dot_S256x4096_S32x4096_S256x32_1_1_0_0_n_n 4096 rfl rfl).symm k) = ix2 s k := funext fun a => Fin.ext (by
    match a with
    | ⟨0, _⟩ => exact lhs_v22_0 _ _
    | ⟨1, _⟩ => exact (lhs_v22_1 _ _).trans hk)
  have er : dot_S256x4096_S32x4096_S256x32_1_1_0_0_n_n.rhsIdx (ix2 s r) ((contrEquiv1 dot_S256x4096_S32x4096_S256x32_1_1_0_0_n_n 4096 rfl rfl).symm k) = ix2 r k := funext fun a => Fin.ext (by
    match a with
    | ⟨0, _⟩ => exact rhs_v22_0 _ _
    | ⟨1, _⟩ => exact (rhs_v22_1 _ _).trans hk)
  rw [el, er]

/-! ### The low-rank rows [256,32] times the second factor [32,1024] -/

theorem lhs_v26_0 (i : S256x1024.Idx) (q : dot_S256x32_S32x1024_S256x1024_1_0_0_1_n_n.contr.Idx) :
    (dot_S256x32_S32x1024_S256x1024_1_0_0_1_n_n.lhsIdx i q 0).val = (i 0).val := by
  unfold DotDims.lhsIdx
  rw [dif_neg (show ¬(0 : Fin S256x32.rank) ∈ dot_S256x32_S32x1024_S256x1024_1_0_0_1_n_n.lhsBatch by decide), dif_pos (show (0 : Fin S256x32.rank) ∈ dot_S256x32_S32x1024_S256x1024_1_0_0_1_n_n.lhsNonContracting by decide)]
  rfl
theorem lhs_v26_1 (i : S256x1024.Idx) (q : dot_S256x32_S32x1024_S256x1024_1_0_0_1_n_n.contr.Idx) :
    (dot_S256x32_S32x1024_S256x1024_1_0_0_1_n_n.lhsIdx i q 1).val = (q ⟨0, by decide⟩).val :=
  dot_S256x32_S32x1024_S256x1024_1_0_0_1_n_n.lhsIdx_val_of_single rfl i q
theorem rhs_v26_0 (i : S256x1024.Idx) (q : dot_S256x32_S32x1024_S256x1024_1_0_0_1_n_n.contr.Idx) :
    (dot_S256x32_S32x1024_S256x1024_1_0_0_1_n_n.rhsIdx i q 0).val = (q ⟨0, by decide⟩).val :=
  dot_S256x32_S32x1024_S256x1024_1_0_0_1_n_n.rhsIdx_val_of_single rfl i q
theorem rhs_v26_1 (i : S256x1024.Idx) (q : dot_S256x32_S32x1024_S256x1024_1_0_0_1_n_n.contr.Idx) :
    (dot_S256x32_S32x1024_S256x1024_1_0_0_1_n_n.rhsIdx i q 1).val = (i 1).val := by
  unfold DotDims.rhsIdx
  rw [dif_neg (show ¬(1 : Fin S32x1024.rank) ∈ dot_S256x32_S32x1024_S256x1024_1_0_0_1_n_n.rhsBatch by decide), dif_pos (show (1 : Fin S32x1024.rank) ∈ dot_S256x32_S32x1024_S256x1024_1_0_0_1_n_n.rhsNonContracting by decide)]
  rfl
/-- Entry (s, d) of the product into a zero accumulator: the sum over r of a(s,r) · w(r,d). -/
theorem mm_v26 {φ₁ φ₂ : FTy} (a : FVec Ideal S256x32 φ₁) (w : FVec Ideal S32x1024 φ₂) (s : Fin 256) (d : Fin 1024) :
    matmul dot_S256x32_S32x1024_S256x1024_1_0_0_1_n_n none a w (constant S256x1024 .f32 0x00000000#32 (F := Ideal)) (ix2 s d)
      = ∑ k : Fin 32, a (ix2 s k) * w (ix2 k d) := by
  refine (Ideal.matmul_constant_zero_apply dot_S256x32_S32x1024_S256x1024_1_0_0_1_n_n none a w (ix2 s d)).trans ?_
  rw [← Equiv.sum_comp (contrEquiv1 dot_S256x32_S32x1024_S256x1024_1_0_0_1_n_n 32 rfl rfl).symm]
  refine Finset.sum_congr rfl fun k _ => ?_
  have hk := contrEquiv1_symm_val dot_S256x32_S32x1024_S256x1024_1_0_0_1_n_n 32 rfl rfl k
  have el : dot_S256x32_S32x1024_S256x1024_1_0_0_1_n_n.lhsIdx (ix2 s d) ((contrEquiv1 dot_S256x32_S32x1024_S256x1024_1_0_0_1_n_n 32 rfl rfl).symm k) = ix2 s k := funext fun a => Fin.ext (by
    match a with
    | ⟨0, _⟩ => exact lhs_v26_0 _ _
    | ⟨1, _⟩ => exact (lhs_v26_1 _ _).trans hk)
  have er : dot_S256x32_S32x1024_S256x1024_1_0_0_1_n_n.rhsIdx (ix2 s d) ((contrEquiv1 dot_S256x32_S32x1024_S256x1024_1_0_0_1_n_n 32 rfl rfl).symm k) = ix2 k d := funext fun a => Fin.ext (by
    match a with
    | ⟨0, _⟩ => exact (rhs_v26_0 _ _).trans hk
    | ⟨1, _⟩ => exact rhs_v26_1 _ _)
  rw [el, er]

/-! ### The body in three pieces -/

/-- The change of format from f32 to bf16 is the identity on extended reals. -/
theorem trunc_apply {sh : Shape} (a : FVec Ideal sh .f32) (i : sh.Idx) :
    (truncf .bf16 a bitsLt_bf16_f32 : FVec Ideal sh .bf16) i = a i := rfl

/-- The first layer before the rectifier, from the loaded blocks. -/
def hid (v0 : Vec Ideal S1x256x1024 .f32) (v3 : Vec Ideal S1024x4096 .bf16) (v6 : Vec Ideal S1x32x1024 .bf16)
    (v10 : Vec Ideal S1x32x4096 .bf16) : FVec Ideal S256x4096 .f32 :=
  have v1 : FVec Ideal S256x1024 .f32 := shapeCast S256x1024 v0 shapeCasts_S1x256x1024_S256x1024
  have v2 : FVec Ideal S256x1024 .bf16 := truncf .bf16 v1 bitsLt_bf16_f32
  have v4 : FVec Ideal S1024x4096 .bf16 := shapeCast S1024x4096 v3 shapeCasts_S1024x4096_S1024x4096
  have v5 : FVec Ideal S256x4096 .f32 :=
    matmul dot_S256x1024_S1024x4096_S256x4096_1_0_0_1_n_n none v2 v4 (constant S256x4096 .f32 0x00000000#32)
  have v7 : FVec Ideal S32x1024 .bf16 := shapeCast S32x1024 v6 shapeCasts_S1x32x1024_S32x1024
  have v8 : FVec Ideal S256x32 .f32 :=
    matmul dot_S256x1024_S32x1024_S256x32_1_1_0_0_n_n none v2 v7 (constant S256x32 .f32 0x00000000#32)
  have v9 : FVec Ideal S256x32 .bf16 := truncf .bf16 v8 bitsLt_bf16_f32
  have v11 : FVec Ideal S32x4096 .bf16 := shapeCast S32x4096 v10 shapeCasts_S1x32x4096_S32x4096
  have v12 : FVec Ideal S256x4096 .f32 :=
    matmul dot_S256x32_S32x4096_S256x4096_1_0_0_1_n_n none v9 v11 (constant S256x4096 .f32 0x00000000#32)
  addf v5 v12

/-- The rectifier and the change of format between the layers. -/
def act (h : FVec Ideal S256x4096 .f32) : FVec Ideal S256x4096 .bf16 :=
  have z : Ideal .f32 := Scalar.ofBits .f32 0x00000000#32
  have v15 : FVec Ideal S256x4096 .f32 := maximumf h (broadcast S256x4096 z)
  truncf .bf16 v15 bitsLt_bf16_f32

/-- The second layer, from the rectified first layer and the loaded blocks. -/
def out2 (a : FVec Ideal S256x4096 .bf16) (v17 : Vec Ideal S4096x1024 .bf16) (v20 : Vec Ideal S1x32x4096 .bf16)
    (v24 : Vec Ideal S1x32x1024 .bf16) : FVec Ideal S256x1024 .f32 :=
  have v18 : FVec Ideal S4096x1024 .bf16 := shapeCast S4096x1024 v17 shapeCasts_S4096x1024_S4096x1024
  have v19 : FVec Ideal S256x1024 .f32 :=
    matmul dot_S256x4096_S4096x1024_S256x1024_1_0_0_1_n_n none a v18 (constant S256x1024 .f32 0x00000000#32)
  have v21 : FVec Ideal S32x4096 .bf16 := shapeCast S32x4096 v20 shapeCasts_S1x32x4096_S32x4096
  have v22 : FVec Ideal S256x32 .f32 :=
    matmul dot_S256x4096_S32x4096_S256x32_1_1_0_0_n_n none a v21 (constant S256x32 .f32 0x00000000#32)
  have v23 : FVec Ideal S256x32 .bf16 := truncf .bf16 v22 bitsLt_bf16_f32
  have v25 : FVec Ideal S32x1024 .bf16 := shapeCast S32x1024 v24 shapeCasts_S1x32x1024_S32x1024
  have v26 : FVec Ideal S256x1024 .f32 :=
    matmul dot_S256x32_S32x1024_S256x1024_1_0_0_1_n_n none v23 v25 (constant S256x1024 .f32 0x00000000#32)
  addf v19 v26

/-- The body's value is the second layer of the rectified first layer: the two sides unfold to the same term. -/
theorem pay2_eq (v0 : Vec Ideal S1x256x1024 .f32) (v3 : Vec Ideal S1024x4096 .bf16) (v6 : Vec Ideal S1x32x1024 .bf16)
    (v10 : Vec Ideal S1x32x4096 .bf16) (v17 : Vec Ideal S4096x1024 .bf16) (v20 : Vec Ideal S1x32x4096 .bf16)
    (v24 : Vec Ideal S1x32x1024 .bf16) :
    k0_pay2 (F := Ideal) v0 v3 v6 v10 v17 v20 v24 = out2 (act (hid v0 v3 v6 v10)) v17 v20 v24 := rfl

/-- Entry (s, f) of the first layer before the rectifier: the kernel's grouping of row s of the input block. -/
theorem hid_apply (v0 : Vec Ideal S1x256x1024 .f32) (v3 : Vec Ideal S1024x4096 .bf16) (v6 : Vec Ideal S1x32x1024 .bf16)
    (v10 : Vec Ideal S1x32x4096 .bf16) (s : Fin 256) (f : Fin 4096) :
    (hid v0 v3 v6 v10 : S256x4096.Idx → EReal) (ix2 s f)
      = Spec.lora (fun i => (v0 : S1x256x1024.Idx → EReal) (ix3 (0 : Fin 1) s i))
          (fun i f => (v3 : S1024x4096.Idx → EReal) (ix2 i f))
          (fun r i => (v6 : S1x32x1024.Idx → EReal) (ix3 (0 : Fin 1) r i))
          (fun r f => (v10 : S1x32x4096.Idx → EReal) (ix3 (0 : Fin 1) r f)) f := by
  unfold hid Spec.lora
  dsimp only
  refine (addf_apply _ _ _).trans ?_
  refine congrArg₂ (· + ·) ?_ ?_
  · refine (mm_v5 _ _ s f).trans ?_
    refine Finset.sum_congr rfl fun k _ => ?_
    refine congrArg₂ (· * ·) ?_ (congrFun (shapeCast_self v3 _) (ix2 k f))
    exact (trunc_apply _ _).trans (shapeCast_1ab_ab_apply v0 _ s k)
  · refine (mm_v12 _ _ s f).trans ?_
    refine Finset.sum_congr rfl fun r _ => ?_
    refine congrArg₂ (· * ·) ?_ (shapeCast_1ab_ab_apply v10 _ r f)
    refine (trunc_apply _ _).trans ?_
    refine (mm_v8 _ _ s r).trans ?_
    refine Finset.sum_congr rfl fun i _ => ?_
    refine congrArg₂ (· * ·) ?_ (shapeCast_1ab_ab_apply v6 _ r i)
    exact (trunc_apply _ _).trans (shapeCast_1ab_ab_apply v0 _ s i)

/-- Entry (s, f) between the layers: the maximum with zero. -/
theorem act_apply (h : FVec Ideal S256x4096 .f32) (s : Fin 256) (f : Fin 4096) :
    (act h : S256x4096.Idx → EReal) (ix2 s f) = max ((h : S256x4096.Idx → EReal) (ix2 s f)) 0 := by
  unfold act
  refine (trunc_apply _ _).trans ?_
  refine (maximumf_apply _ _ _).trans ?_
  exact congrArg (max _) Ideal.ofBits_zero_f32

/-- Entry (s, d) of the second layer: the kernel's grouping of row s of the rectified first layer. -/
theorem out2_apply (a : FVec Ideal S256x4096 .bf16) (v17 : Vec Ideal S4096x1024 .bf16) (v20 : Vec Ideal S1x32x4096 .bf16)
    (v24 : Vec Ideal S1x32x1024 .bf16) (s : Fin 256) (d : Fin 1024) :
    (out2 a v17 v20 v24 : S256x1024.Idx → EReal) (ix2 s d)
      = Spec.lora (fun f => (a : S256x4096.Idx → EReal) (ix2 s f))
          (fun f d => (v17 : S4096x1024.Idx → EReal) (ix2 f d))
          (fun r f => (v20 : S1x32x4096.Idx → EReal) (ix3 (0 : Fin 1) r f))
          (fun r d => (v24 : S1x32x1024.Idx → EReal) (ix3 (0 : Fin 1) r d)) d := by
  unfold out2 Spec.lora
  dsimp only
  refine (addf_apply _ _ _).trans ?_
  refine congrArg₂ (· + ·) ?_ ?_
  · refine (mm_v19 _ _ s d).trans ?_
    refine Finset.sum_congr rfl fun k _ => ?_
    exact congrArg (_ * ·) (congrFun (shapeCast_self v17 _) (ix2 k d))
  · refine (mm_v26 _ _ s d).trans ?_
    refine Finset.sum_congr rfl fun r _ => ?_
    refine congrArg₂ (· * ·) ?_ (shapeCast_1ab_ab_apply v24 _ r d)
    refine (trunc_apply _ _).trans ?_
    refine (mm_v22 _ _ s r).trans ?_
    refine Finset.sum_congr rfl fun i _ => ?_
    exact congrArg (_ * ·) (shapeCast_1ab_ab_apply v20 _ r i)

/-- Entry (0, s, d) of the stored block, from the loaded blocks. -/
theorem pay_apply (v0 : Vec Ideal S1x256x1024 .f32) (v3 : Vec Ideal S1024x4096 .bf16) (v6 : Vec Ideal S1x32x1024 .bf16)
    (v10 : Vec Ideal S1x32x4096 .bf16) (v17 : Vec Ideal S4096x1024 .bf16) (v20 : Vec Ideal S1x32x4096 .bf16)
    (v24 : Vec Ideal S1x32x1024 .bf16) (s : Fin 256) (d : Fin 1024) :
    (k0_pay1 (F := Ideal) (k0_pay2 (F := Ideal) v0 v3 v6 v10 v17 v20 v24) : S1x256x1024.Idx → EReal) (ix3 (0 : Fin 1) s d)
      = Spec.outK (fun i => (v0 : S1x256x1024.Idx → EReal) (ix3 (0 : Fin 1) s i))
          (fun i f => (v3 : S1024x4096.Idx → EReal) (ix2 i f))
          (fun r i => (v6 : S1x32x1024.Idx → EReal) (ix3 (0 : Fin 1) r i))
          (fun r f => (v10 : S1x32x4096.Idx → EReal) (ix3 (0 : Fin 1) r f))
          (fun f d => (v17 : S4096x1024.Idx → EReal) (ix2 f d))
          (fun r f => (v20 : S1x32x4096.Idx → EReal) (ix3 (0 : Fin 1) r f))
          (fun r d => (v24 : S1x32x1024.Idx → EReal) (ix3 (0 : Fin 1) r d)) d := by
  unfold k0_pay1 Spec.outK
  refine (shapeCast_ab_1ab_apply _ _ (0 : Fin 1) s d).trans ?_
  refine (congrFun (pay2_eq v0 v3 v6 v10 v17 v20 v24) (ix2 s d)).trans ?_
  refine (out2_apply _ v17 v20 v24 s d).trans ?_
  refine congrArg (fun v => Spec.lora v _ _ _ d) (funext fun f => ?_)
  exact (act_apply _ s f).trans (congrArg (max · 0) (hid_apply v0 v3 v6 v10 s f))

end Cert.KernelIdeal.Payload

end
-- ==== Proof.Blocks.lean ====
/-
  The pipeline's static windows, read at an index, at any admissible contents of the prefetched table. Grid point t has a
  batch coordinate b (of 32) and a row-tile coordinate q (of 2). The input window's and the output window's block at t is
  batch b, rows 256·q … 256·q + 255, all 1024 columns of the [32, 512, 1024] array; the two dense weights' blocks are
  their whole arrays. The output window's blocks cover the array: entry (b, r, d) lies in the block of the point
  (b, r / 256).
-/
import proofs.«414242_j31267361915293_3_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

/-- The batch coordinate of a grid point. -/
def pb (t : Fin grid0.N) : Fin 32 := ⟨(grid0.coords t 0).val, (grid0.coords t 0).isLt⟩
/-- The row-tile coordinate of a grid point. -/
def pq (t : Fin grid0.N) : Fin 2 := ⟨(grid0.coords t 1).val, (grid0.coords t 1).isLt⟩

/-- Row s of tile q is row 256·q + s of the array. -/
def row (q : Fin 2) (s : Fin 256) : Fin 512 := ⟨q.val * 256 + s.val, by omega⟩

variable (a : (pcfg0 (F := Ideal)).Adm)

/-! ## The printed index maps over the grid -/

/-- The input window's index map at a point is (b, q, 0): decided over the 64 points. -/
private theorem idx0 : ∀ t : Fin grid0.N, cc0_transform_0 (grid0.coords t) (0 : Fin 3) = (grid0.coords t 0).val
    ∧ cc0_transform_0 (grid0.coords t) (1 : Fin 3) = (grid0.coords t 1).val
    ∧ cc0_transform_0 (grid0.coords t) (2 : Fin 3) = 0 := by
  decide +kernel

/-- The output window's index map at a point is (b, q, 0): decided over the 64 points. -/
private theorem idx7 : ∀ t : Fin grid0.N, cc0_transform_7 (grid0.coords t) (0 : Fin 3) = (grid0.coords t 0).val
    ∧ cc0_transform_7 (grid0.coords t) (1 : Fin 3) = (grid0.coords t 1).val
    ∧ cc0_transform_7 (grid0.coords t) (2 : Fin 3) = 0 := by
  decide +kernel

/-- Every pair (b, q) is some point's. -/
private theorem onto7 : ∀ (b : Fin 32) (q : Fin 2), ∃ t : Fin grid0.N,
    cc0_transform_7 (grid0.coords t) (0 : Fin 3) = b.val ∧ cc0_transform_7 (grid0.coords t) (1 : Fin 3) = q.val
      ∧ cc0_transform_7 (grid0.coords t) (2 : Fin 3) = 0 := by
  decide +kernel

/-- The input window's block at t, read at (0, s, i), is the array at (b, 256·q + s, i). -/
theorem blk0_apply (t : Fin (cfg0 a).N) (A : S32x512x1024.Idx → EReal) (s : Fin 256) (i : Fin 1024) :
    (((cfg0 a).win 0).blk t).view.read (Elt Ideal) A (ix3 (0 : Fin 1) s i) = A (ix3 (pb t) (row (pq t) s) i) := by
  obtain ⟨e0, e1, e2⟩ := idx0 t
  have hi : ((cfg0 a).win 0).index t = cc0_transform_0 (grid0.coords t) := rfl
  show A ((((cfg0 a).win 0).blk t).view.emb (ix3 (0 : Fin 1) s i)) = _
  refine congrArg A ?_
  funext k
  apply Fin.ext
  match k with
  | ⟨0, _⟩ =>
    show ((cfg0 a).win 0).index t (0 : Fin 3) * 1 + 1 * (0 : ℕ) = (grid0.coords t 0).val
    rw [hi, e0]; omega
  | ⟨1, _⟩ =>
    show ((cfg0 a).win 0).index t (1 : Fin 3) * 256 + 1 * s.val = (grid0.coords t 1).val * 256 + s.val
    rw [hi, e1]; omega
  | ⟨2, _⟩ =>
    show ((cfg0 a).win 0).index t (2 : Fin 3) * 1024 + 1 * i.val = i.val
    rw [hi, e2]; omega

/-- The first dense weight's block is its whole array. -/
theorem blk1_apply (t : Fin (cfg0 a).N) (A : S1024x4096.Idx → EReal) (j : S1024x4096.Idx) :
    (((cfg0 a).win 1).blk t).view.read (Elt Ideal) A j = A j := by
  have hi : ((cfg0 a).win 1).index t = ![0, 0] := rfl
  show A ((((cfg0 a).win 1).blk t).view.emb j) = _
  refine congrArg A ?_
  funext k
  apply Fin.ext
  match k with
  | ⟨0, _⟩ =>
    show ((cfg0 a).win 1).index t (0 : Fin 2) * 1024 + 1 * (j 0).val = (j 0).val
    rw [hi]; show 0 * 1024 + 1 * (j 0).val = (j 0).val; omega
  | ⟨1, _⟩ =>
    show ((cfg0 a).win 1).index t (1 : Fin 2) * 4096 + 1 * (j 1).val = (j 1).val
    rw [hi]; show 0 * 4096 + 1 * (j 1).val = (j 1).val; omega

/-- The second dense weight's block is its whole array. -/
theorem blk2_apply (t : Fin (cfg0 a).N) (A : S4096x1024.Idx → EReal) (j : S4096x1024.Idx) :
    (((cfg0 a).win 2).blk t).view.read (Elt Ideal) A j = A j := by
  have hi : ((cfg0 a).win 2).index t = ![0, 0] := rfl
  show A ((((cfg0 a).win 2).blk t).view.emb j) = _
  refine congrArg A ?_
  funext k
  apply Fin.ext
  match k with
  | ⟨0, _⟩ =>
    show ((cfg0 a).win 2).index t (0 : Fin 2) * 4096 + 1 * (j 0).val = (j 0).val
    rw [hi]; show 0 * 4096 + 1 * (j 0).val = (j 0).val; omega
  | ⟨1, _⟩ =>
    show ((cfg0 a).win 2).index t (1 : Fin 2) * 1024 + 1 * (j 1).val = (j 1).val
    rw [hi]; show 0 * 1024 + 1 * (j 1).val = (j 1).val; omega

/-- The output window's block at t, read at (0, s, d), is the array at (b, 256·q + s, d). -/
theorem blk7_apply (t : Fin (cfg0 a).N) (A : S32x512x1024.Idx → EReal) (s : Fin 256) (d : Fin 1024) :
    (((cfg0 a).win 7).blk t).view.read (Elt Ideal) A (ix3 (0 : Fin 1) s d) = A (ix3 (pb t) (row (pq t) s) d) := by
  obtain ⟨e0, e1, e2⟩ := idx7 t
  have hi : ((cfg0 a).win 7).index t = cc0_transform_7 (grid0.coords t) := rfl
  show A ((((cfg0 a).win 7).blk t).view.emb (ix3 (0 : Fin 1) s d)) = _
  refine congrArg A ?_
  funext k
  apply Fin.ext
  match k with
  | ⟨0, _⟩ =>
    show ((cfg0 a).win 7).index t (0 : Fin 3) * 1 + 1 * (0 : ℕ) = (grid0.coords t 0).val
    rw [hi, e0]; omega
  | ⟨1, _⟩ =>
    show ((cfg0 a).win 7).index t (1 : Fin 3) * 256 + 1 * s.val = (grid0.coords t 1).val * 256 + s.val
    rw [hi, e1]; omega
  | ⟨2, _⟩ =>
    show ((cfg0 a).win 7).index t (2 : Fin 3) * 1024 + 1 * d.val = d.val
    rw [hi, e2]; omega

/-- An index of the output array is in point t's block iff each coordinate is in the block's range on its axis. -/
private theorem mem_blk7 (t : Fin (cfg0 a).N) (i : S32x512x1024.Idx) :
    i ∈ (((cfg0 a).win 7).blk t).view.set ↔ ∀ k : Fin 3, ((cfg0 a).win 7).index t k * S1x256x1024.size k ≤ (i k).val
      ∧ (i k).val < ((cfg0 a).win 7).index t k * S1x256x1024.size k + S1x256x1024.size k := by
  have h : (((cfg0 a).win 7).blk t).view.set = (((cfg0 a).win 7).rect t).set := View.set_slice_whole main_v33 _
  rw [h]
  exact Rect.mem_set_unit

/-- Every entry of the output array lies in the block of some point that writes back. -/
theorem cover7 (i : S32x512x1024.Idx) :
    ∃ t : Fin (cfg0 a).N, ((cfg0 a).win 7).flush t = true ∧ i ∈ (((cfg0 a).win 7).blk t).view.set := by
  have hi0 : (i 0).val < 32 := (i 0).isLt
  have hi1 : (i 1).val < 512 := (i 1).isLt
  have hi2 : (i 2).val < 1024 := (i 2).isLt
  obtain ⟨t, q0, q1, q2⟩ := onto7 ⟨(i 0).val, hi0⟩ ⟨(i 1).val / 256, by omega⟩
  have hix : ((cfg0 a).win 7).index t = cc0_transform_7 (grid0.coords t) := rfl
  refine ⟨t, flush0_7 a t, ?_⟩
  rw [mem_blk7]
  intro k
  match k with
  | ⟨0, _⟩ =>
    show ((cfg0 a).win 7).index t (0 : Fin 3) * 1 ≤ (i 0).val ∧ (i 0).val < ((cfg0 a).win 7).index t (0 : Fin 3) * 1 + 1
    rw [hix, q0]; show (i 0).val * 1 ≤ (i 0).val ∧ (i 0).val < (i 0).val * 1 + 1; omega
  | ⟨1, _⟩ =>
    show ((cfg0 a).win 7).index t (1 : Fin 3) * 256 ≤ (i 1).val ∧ (i 1).val < ((cfg0 a).win 7).index t (1 : Fin 3) * 256 + 256
    rw [hix, q1]; show (i 1).val / 256 * 256 ≤ (i 1).val ∧ (i 1).val < (i 1).val / 256 * 256 + 256; omega
  | ⟨2, _⟩ =>
    show ((cfg0 a).win 7).index t (2 : Fin 3) * 1024 ≤ (i 2).val ∧ (i 2).val < ((cfg0 a).win 7).index t (2 : Fin 3) * 1024 + 1024
    rw [hix, q2]; omega

end Cert.KernelIdeal.Blocks

end
-- ==== Proof.KernelValue.lean ====
/-
  The kernel program's result, entry by entry, at the ideal instance. At grid point t = (b, q) the body stores ONE block:
  the two-layer form in the kernel's grouping of the point's input blocks — rows 256·q … of batch b of the input, the two
  transposed dense weights whole, and the four rank-32 factor blocks of the expert the prefetched table names for batch b.
  The 64 blocks tile the [32, 512, 1024] result, so entry (b, s, d) of the result is that form of row (b, s).
-/
import proofs.«414242_j31267361915293_3_alg».proof.Proof.Gen.KernelIdeal.Frame
import proofs.«414242_j31267361915293_3_alg».proof.Proof.Spec
import proofs.«414242_j31267361915293_3_alg».proof.Proof.OkClampIdeal
import proofs.«414242_j31267361915293_3_alg».proof.Proof.KernelSpec
import proofs.«414242_j31267361915293_3_alg».proof.Proof.Payload
import proofs.«414242_j31267361915293_3_alg».proof.Proof.Blocks
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Blocks
open Idealize.ShloMosaic Idealize.ShloMosaic.TcCoe Idealize.ShloMosaic.Tactic Idealize.SL.Sem Idealize.ShloMosaic.ValueIdx
open Idealize.ShloMosaic.Pipeline (Dat)

/-! ## The one stored piece -/

section Piece

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output's staging buffer is its one store's payload: the body's arithmetic of the seven
    loaded blocks (each load reads a whole staging buffer). -/
theorem out_piece (c : Dev nD) (i : grid0.Coords) (arg3 : Memref sig .tc .vmem S1x256x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S1x32x1024 .bf16) (harg6 : arg6.IsWhole) (arg7 : Memref sig .tc .vmem S1x32x4096 .bf16) (harg7 : arg7.IsWhole) (arg8 : Memref sig .tc .vmem S1x32x4096 .bf16) (harg8 : arg8.IsWhole) (arg9 : Memref sig .tc .vmem S1x32x1024 .bf16) (harg9 : arg9.IsWhole) (arg10 : Memref sig .tc .vmem S1x256x1024 .f32) (harg10 : arg10.IsWhole)
    (x0 : Vec F S1x256x1024 .f32) (x1 : Vec F S1024x4096 .bf16) (x2 : Vec F S4096x1024 .bf16) (x3 : Vec F S1x32x1024 .bf16) (x4 : Vec F S1x32x4096 .bf16) (x5 : Vec F S1x32x4096 .bf16) (x6 : Vec F S1x32x1024 .bf16) (xt0 : TbBuf0 (F := F) c tbM0_0) :
    out0_A_7 c i arg3 harg3 arg4 harg4 arg5 harg5 arg6 harg6 arg7 harg7 arg8 harg8 arg9 harg9 arg10 harg10 x0 x1 x2 x3 x4 x5 x6 xt0 = k0_pay1 (k0_pay2 x0 x1 x3 x4 x2 x5 x6) := by
  unfold out0_A_7
  rw [View.read_writes_eq_canon _ _ _ (cover0_A_7 c i arg3 harg3 arg4 harg4 arg5 harg5 arg6 harg6 arg7 harg7 arg8 harg8 arg9 harg9 arg10 harg10 x0 x1 x2 x3 x4 x5 x6 xt0)]
  unfold kernelRun0_A
  dsimp only
  sl_unfold_words
  rw [View.canon_unit_zero hz3]
  simp only [View.readAt_eq_ld, harg3.read_unread, harg4.read_unread, harg5.read_unread, harg6.read_unread, harg7.read_unread,
    harg8.read_unread, harg9.read_unread, View.ld_unit_zero (S := S1x256x1024) hz3, View.ld_unit_zero (S := S1024x4096) hz2,
    View.ld_unit_zero (S := S4096x1024) hz2, View.ld_unit_zero (S := S1x32x1024) hz3, View.ld_unit_zero (S := S1x32x4096) hz3]

end Piece

/-! ## The expert-indexed windows, at any admissible contents of the table -/

section Tables

variable (a : (pcfg0 (F := Ideal)).Adm)

/-- The table word the index maps read at a grid point: the table at the point's batch coordinate. -/
def wordAt (i : grid0.Coords) : BitVec 32 := (a.1 0 : S32.Idx → BitVec 32) (ix1 (⟨(i 0).val, (i 0).isLt⟩ : Fin 32))

/-- The index maps' scalar load of the table at offset "batch coordinate" reads that word. -/
theorem word_eq (i : grid0.Coords) :
    a.1.at 0 (Rect.unit (s := S32) ![(Scalar.indexCast (BitVec.ofNat 32 (i 0).val)).toNat] S1.size (k0_off1_inb i)) numel1_S1
      = wordAt a i := by
  unfold wordAt
  show (a.1 0) _ = (a.1 0) _
  refine congrArg (a.1 0) ?_
  funext k
  apply Fin.ext
  match k with
  | ⟨0, _⟩ =>
    show (Scalar.indexCast (BitVec.ofNat 32 (i 0).val)).toNat
        + 1 * (Shape.Idx.first (numel1_S1.symm ▸ Nat.one_pos : 0 < S1.numel) (0 : Fin 1)).val = (i 0).val
    have h0 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e1 : S1.size (0 : Fin 1) = 1 := by decide
      omega
    have h1 : (Scalar.indexCast (BitVec.ofNat 32 (i 0).val)).toNat = (BitVec.ofNat 32 (i 0).val).toNat := rfl
    have h2 : (i 0).val < 32 := (i 0).isLt
    rw [h0, h1, BitVec.toNat_ofNat]
    omega

theorem transform3 (i : grid0.Coords) :
    cc0_transform_3 k0_off1_inb numel1_S1 a.1 i = ![(wordAt a i).toNat, 0, 0] := by
  unfold cc0_transform_3
  dsimp only
  rw [word_eq]
  rfl

theorem index3 (t : Fin (cfg0 a).N) :
    ((cfg0 a).win 3).index t = cc0_transform_3 k0_off1_inb numel1_S1 a.1 ((cfg0 a).grid.coords t) := rfl

/-- Window 3's block at t, read at (0, r, i), is expert `e`'s row r, column i, where `e` is the table word at t's batch. -/
theorem blk3_apply (t : Fin (cfg0 a).N) (A : S8x32x1024.Idx → EReal) (r : Fin 32) (i : Fin 1024) (e : Fin 8)
    (he : (wordAt a (grid0.coords t)).toNat = e.val) :
    (((cfg0 a).win 3).blk t).view.read (Elt Ideal) A (ix3 (0 : Fin 1) r i) = A (ix3 e r i) := by
  show A ((((cfg0 a).win 3).blk t).view.emb (ix3 (0 : Fin 1) r i)) = _
  refine congrArg A ?_
  have hx : ((cfg0 a).win 3).index t = ![e.val, 0, 0] := by
    rw [index3, transform3]; show ![(wordAt a (grid0.coords t)).toNat, 0, 0] = _; rw [he]
  funext k
  apply Fin.ext
  match k with
  | ⟨0, _⟩ =>
    show ((cfg0 a).win 3).index t (0 : Fin 3) * 1 + 1 * (0 : ℕ) = e.val
    rw [hx]; show e.val * 1 + 1 * 0 = e.val; omega
  | ⟨1, _⟩ =>
    show ((cfg0 a).win 3).index t (1 : Fin 3) * 32 + 1 * r.val = r.val
    rw [hx]; show 0 * 32 + 1 * r.val = r.val; omega
  | ⟨2, _⟩ =>
    show ((cfg0 a).win 3).index t (2 : Fin 3) * 1024 + 1 * i.val = i.val
    rw [hx]; show 0 * 1024 + 1 * i.val = i.val; omega

theorem transform4 (i : grid0.Coords) :
    cc0_transform_4 k0_off1_inb numel1_S1 a.1 i = ![(wordAt a i).toNat, 0, 0] := by
  unfold cc0_transform_4
  dsimp only
  rw [word_eq]
  rfl

theorem index4 (t : Fin (cfg0 a).N) :
    ((cfg0 a).win 4).index t = cc0_transform_4 k0_off1_inb numel1_S1 a.1 ((cfg0 a).grid.coords t) := rfl

/-- Window 4's block at t, read at (0, r, i), is expert `e`'s row r, column i, where `e` is the table word at t's batch. -/
theorem blk4_apply (t : Fin (cfg0 a).N) (A : S8x32x4096.Idx → EReal) (r : Fin 32) (i : Fin 4096) (e : Fin 8)
    (he : (wordAt a (grid0.coords t)).toNat = e.val) :
    (((cfg0 a).win 4).blk t).view.read (Elt Ideal) A (ix3 (0 : Fin 1) r i) = A (ix3 e r i) := by
  show A ((((cfg0 a).win 4).blk t).view.emb (ix3 (0 : Fin 1) r i)) = _
  refine congrArg A ?_
  have hx : ((cfg0 a).win 4).index t = ![e.val, 0, 0] := by
    rw [index4, transform4]; show ![(wordAt a (grid0.coords t)).toNat, 0, 0] = _; rw [he]
  funext k
  apply Fin.ext
  match k with
  | ⟨0, _⟩ =>
    show ((cfg0 a).win 4).index t (0 : Fin 3) * 1 + 1 * (0 : ℕ) = e.val
    rw [hx]; show e.val * 1 + 1 * 0 = e.val; omega
  | ⟨1, _⟩ =>
    show ((cfg0 a).win 4).index t (1 : Fin 3) * 32 + 1 * r.val = r.val
    rw [hx]; show 0 * 32 + 1 * r.val = r.val; omega
  | ⟨2, _⟩ =>
    show ((cfg0 a).win 4).index t (2 : Fin 3) * 4096 + 1 * i.val = i.val
    rw [hx]; show 0 * 4096 + 1 * i.val = i.val; omega

theorem transform5 (i : grid0.Coords) :
    cc0_transform_5 k0_off1_inb numel1_S1 a.1 i = ![(wordAt a i).toNat, 0, 0] := by
  unfold cc0_transform_5
  dsimp only
  rw [word_eq]
  rfl

theorem index5 (t : Fin (cfg0 a).N) :
    ((cfg0 a).win 5).index t = cc0_transform_5 k0_off1_inb numel1_S1 a.1 ((cfg0 a).grid.coords t) := rfl

/-- Window 5's block at t, read at (0, r, i), is expert `e`'s row r, column i, where `e` is the table word at t's batch. -/
theorem blk5_apply (t : Fin (cfg0 a).N) (A : S8x32x4096.Idx → EReal) (r : Fin 32) (i : Fin 4096) (e : Fin 8)
    (he : (wordAt a (grid0.coords t)).toNat = e.val) :
    (((cfg0 a).win 5).blk t).view.read (Elt Ideal) A (ix3 (0 : Fin 1) r i) = A (ix3 e r i) := by
  show A ((((cfg0 a).win 5).blk t).view.emb (ix3 (0 : Fin 1) r i)) = _
  refine congrArg A ?_
  have hx : ((cfg0 a).win 5).index t = ![e.val, 0, 0] := by
    rw [index5, transform5]; show ![(wordAt a (grid0.coords t)).toNat, 0, 0] = _; rw [he]
  funext k
  apply Fin.ext
  match k with
  | ⟨0, _⟩ =>
    show ((cfg0 a).win 5).index t (0 : Fin 3) * 1 + 1 * (0 : ℕ) = e.val
    rw [hx]; show e.val * 1 + 1 * 0 = e.val; omega
  | ⟨1, _⟩ =>
    show ((cfg0 a).win 5).index t (1 : Fin 3) * 32 + 1 * r.val = r.val
    rw [hx]; show 0 * 32 + 1 * r.val = r.val; omega
  | ⟨2, _⟩ =>
    show ((cfg0 a).win 5).index t (2 : Fin 3) * 4096 + 1 * i.val = i.val
    rw [hx]; show 0 * 4096 + 1 * i.val = i.val; omega

theorem transform6 (i : grid0.Coords) :
    cc0_transform_6 k0_off1_inb numel1_S1 a.1 i = ![(wordAt a i).toNat, 0, 0] := by
  unfold cc0_transform_6
  dsimp only
  rw [word_eq]
  rfl

theorem index6 (t : Fin (cfg0 a).N) :
    ((cfg0 a).win 6).index t = cc0_transform_6 k0_off1_inb numel1_S1 a.1 ((cfg0 a).grid.coords t) := rfl

/-- Window 6's block at t, read at (0, r, i), is expert `e`'s row r, column i, where `e` is the table word at t's batch. -/
theorem blk6_apply (t : Fin (cfg0 a).N) (A : S8x32x1024.Idx → EReal) (r : Fin 32) (i : Fin 1024) (e : Fin 8)
    (he : (wordAt a (grid0.coords t)).toNat = e.val) :
    (((cfg0 a).win 6).blk t).view.read (Elt Ideal) A (ix3 (0 : Fin 1) r i) = A (ix3 e r i) := by
  show A ((((cfg0 a).win 6).blk t).view.emb (ix3 (0 : Fin 1) r i)) = _
  refine congrArg A ?_
  have hx : ((cfg0 a).win 6).index t = ![e.val, 0, 0] := by
    rw [index6, transform6]; show ![(wordAt a (grid0.coords t)).toNat, 0, 0] = _; rw [he]
  funext k
  apply Fin.ext
  match k with
  | ⟨0, _⟩ =>
    show ((cfg0 a).win 6).index t (0 : Fin 3) * 1 + 1 * (0 : ℕ) = e.val
    rw [hx]; show e.val * 1 + 1 * 0 = e.val; omega
  | ⟨1, _⟩ =>
    show ((cfg0 a).win 6).index t (1 : Fin 3) * 32 + 1 * r.val = r.val
    rw [hx]; show 0 * 32 + 1 * r.val = r.val; omega
  | ⟨2, _⟩ =>
    show ((cfg0 a).win 6).index t (2 : Fin 3) * 1024 + 1 * i.val = i.val
    rw [hx]; show 0 * 1024 + 1 * i.val = i.val; omega

end Tables

/-! ## The result array -/

variable (m : (ℓ : Loc nD τ sig) → Buf (Elt Ideal) ℓ) (ρ : Dev nD → PrngReg)

/-- The two-layer form depends only on its seven argument functions. -/
theorem outK_congr {x x' : Fin 1024 → EReal} {Wi Wi' : Fin 1024 → Fin 4096 → EReal} {Ai Ai' : Fin 32 → Fin 1024 → EReal}
    {Bi Bi' : Fin 32 → Fin 4096 → EReal} {Wo Wo' : Fin 4096 → Fin 1024 → EReal} {Ao Ao' : Fin 32 → Fin 4096 → EReal}
    {Bo Bo' : Fin 32 → Fin 1024 → EReal} (h0 : x = x') (h1 : Wi = Wi') (h2 : Ai = Ai') (h3 : Bi = Bi') (h4 : Wo = Wo')
    (h5 : Ao = Ao') (h6 : Bo = Bo') (d : Fin 1024) :
    Spec.outK x Wi Ai Bi Wo Ao Bo d = Spec.outK x' Wi' Ai' Bi' Wo' Ao' Bo' d := by
  subst h0 h1 h2 h3 h4 h5 h6; rfl

/-- The table word the index maps read at point t is the word that names batch b's expert. -/
theorem word_ex (hO : Ok m) (t : Fin grid0.N) : (wordAt (adm m hO) (grid0.coords t)).toNat = (ex m (pb t)).val := rfl

set_option backward.isDefEq.respectTransparency.types false in
/-- WHAT POINT t WRITES BACK is block t of `G`. -/
theorem flushed_eq (hO : Ok m) (c : Dev nD) (t : Fin (cfgM m hO).N) (_ : ((cfgM m hO).win 7).flush t = true) :
    (dats m hO 0 c).flushed 7 t = (((cfgM m hO).win 7).blk t).view.read (Elt Ideal) (G m c) := by
  show ((cfgM m hO).win 7).cut (grid0.coords t) ((dats m hO 0 c).after 7 t) = _
  rw [after0_7]
  unfold outsAt0
  rw [out_piece]
  refine funext fun (j : S1x256x1024.Idx) => ?_
  obtain ⟨s, d, rfl⟩ : ∃ (s : Fin 256) (d : Fin 1024), (j : S1x256x1024.Idx) = ix3 (0 : Fin 1) s d := by
    refine ⟨j 1, j 2, ?_⟩
    funext k
    match k with
    | ⟨0, hk⟩ =>
      apply Fin.ext
      have h1 : (j ⟨0, hk⟩).val < 1 := (j ⟨0, hk⟩).isLt
      show (j ⟨0, hk⟩).val = 0
      omega
    | ⟨1, _⟩ => rfl
    | ⟨2, _⟩ => rfl
  show (k0_pay1 (F := Ideal) (k0_pay2 (F := Ideal) (iblk m hO c 0 t) (iblk m hO c 1 t) (iblk m hO c 3 t) (iblk m hO c 4 t)
    (iblk m hO c 2 t) (iblk m hO c 5 t) (iblk m hO c 6 t)) : S1x256x1024.Idx → EReal) (ix3 (0 : Fin 1) s d) = _
  refine (Payload.pay_apply (iblk m hO c 0 t) (iblk m hO c 1 t) (iblk m hO c 3 t) (iblk m hO c 4 t) (iblk m hO c 2 t)
    (iblk m hO c 5 t) (iblk m hO c 6 t) s d).trans ?_
  refine Eq.trans ?_ (blk7_apply (adm m hO) t (G m c) s d).symm
  show _ = Gc m c (pb t) (row (pq t) s) d
  unfold Gc
  exact outK_congr
    (funext fun i => blk0_apply (adm m hO) t (V m c main_arg0) s i)
    (funext fun i => funext fun f => blk1_apply (adm m hO) t (V m c main_v2) (ix2 i f))
    (funext fun r => funext fun i => blk3_apply (adm m hO) t (V m c main_v8) r i (ex m (pb t)) (word_ex m hO t))
    (funext fun r => funext fun f => blk4_apply (adm m hO) t (V m c main_v18) r f (ex m (pb t)) (word_ex m hO t))
    (funext fun f => funext fun d => blk2_apply (adm m hO) t (V m c main_v4) (ix2 f d))
    (funext fun r => funext fun f => blk5_apply (adm m hO) t (V m c main_v22) r f (ex m (pb t)) (word_ex m hO t))
    (funext fun r => funext fun d => blk6_apply (adm m hO) t (V m c main_v32) r d (ex m (pb t)) (word_ex m hO t)) d

/-- The blocks of the 64 points tile the result, so the result array ends holding `G`. -/
theorem final (hO : Ok m) (c : Dev nD) : (dats m hO 0 c).arrAt 7 (cfgM m hO).N = G m c :=
  (dats m hO 0 c).arrAt_eq_of_cover 7 (G m c) (flushed_eq m hO c) (cover7 (adm m hO))

/-- THE KERNEL PROGRAM'S RUN with its result named: every weakly fair execution terminates with the result array at `G`
    and the twelve arguments unchanged. -/
theorem run (hO : Ok m) :
    θ_run defs (onTc (τ := τ) (main (F := Ideal))) ⟨m, fun _ => 0, ρ⟩ fun r => ∀ c : Dev nD,
      r.2.mem ((c : Thread nD τ).loc main_v33) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  refine (θ_run defs _ _).mono (fun r hq c => ?_) (run_main m ρ hO)
  exact ⟨((hq c).1 7).trans (final m hO c),
      ((hq c).1 0).trans (((dats m hO 0 c).arrAt_in 0 rfl _).trans ((A_eq m hO c 0).trans (V_main_arg0 m c))),
      ((hq c).2 main_arg1 (by decide : main_arg1 ∈ Pipeline.restRefs sig spec0)).trans (V_main_arg1 m c),
      ((hq c).2 main_arg2 (by decide : main_arg2 ∈ Pipeline.restRefs sig spec0)).trans (V_main_arg2 m c),
      ((hq c).2 main_arg3 (by decide : main_arg3 ∈ Pipeline.restRefs sig spec0)).trans (V_main_arg3 m c),
      ((hq c).2 main_arg4 (by decide : main_arg4 ∈ Pipeline.restRefs sig spec0)).trans (V_main_arg4 m c),
      ((hq c).2 main_arg5 (by decide : main_arg5 ∈ Pipeline.restRefs sig spec0)).trans (V_main_arg5 m c),
      ((hq c).2 main_arg6 (by decide : main_arg6 ∈ Pipeline.restRefs sig spec0)).trans (V_main_arg6 m c),
      ((hq c).2 main_arg7 (by decide : main_arg7 ∈ Pipeline.restRefs sig spec0)).trans (V_main_arg7 m c),
      ((hq c).2 main_arg8 (by decide : main_arg8 ∈ Pipeline.restRefs sig spec0)).trans (V_main_arg8 m c),
      ((hq c).2 main_arg9 (by decide : main_arg9 ∈ Pipeline.restRefs sig spec0)).trans (V_main_arg9 m c),
      ((hq c).2 main_arg10 (by decide : main_arg10 ∈ Pipeline.restRefs sig spec0)).trans (V_main_arg10 m c),
      ((hq c).2 main_arg11 (by decide : main_arg11 ∈ Pipeline.restRefs sig spec0)).trans (V_main_arg11 m c)⟩

end Cert.KernelIdeal.KValue

end
-- ==== Proof.RefHidden.lean ====
/-
  The reference's rectified hidden layer read at an index: entry (b, s, f) is the maximum with zero of the first layer in
  the reference's grouping — row (b, s) of the input against the dense weight, plus twice the common low-rank product,
  plus twice the low-rank product of the expert that row b's id selects. For a nonnegative id that expert is the id read
  signed and clamped into [0, 7]: the index wrap for negative ids leaves it alone, and the gather clamps.
-/
import proofs.«414242_j31267361915293_3_alg».proof.Defs
import proofs.«414242_j31267361915293_3_alg».proof.Proof.Gen.ReferenceIdeal.Run
import proofs.«414242_j31267361915293_3_alg».proof.Proof.Gen.ReferenceIdeal.Read
import proofs.«414242_j31267361915293_3_alg».proof.Proof.Spec
import Idealize.ShloMosaic.Lib.ValueIdx
import Idealize.ShloMosaic.Lib.Pipeline.Value

set_option maxRecDepth 16384

noncomputable section

namespace Cert.RefHidden

open Cert.ReferenceIdeal Cert.ReferenceIdeal.Gen
open Idealize.ShloMosaic Idealize.ShloMosaic.ValueIdx

open scoped BigOperators

/-! ## The index wrap: a nonnegative id is left alone -/

/-- A word whose signed value is nonnegative is not signed-below zero, so the comparison's bit is clear. -/
private theorem slt_zero_clear (w : BitVec 32) (h : 0 ≤ w.toInt) : IntOp.cmpi .slt w 0#32 = 0#1 := by
  have h0 : (0#32 : BitVec 32).toInt = 0 := by decide
  have hs : w.slt 0#32 = false := by
    simp only [BitVec.slt, h0, decide_eq_false_iff_not, not_lt]; exact h
  show BitVec.ofBool (w.slt 0#32) = 0#1
  rw [hs]; rfl

/-- A select on a clear bit takes its second branch. -/
private theorem select_clear {α : Type} (a c : α) : Scalar.select 0#1 a c = c := if_neg (by decide)

/-- The wrapped id of the first factor's gather is the id itself. -/
private theorem wrapA (x1 : (⟨S32, .i32⟩ : BufTy).Contents (Elt Ideal))
    (hid : ∀ x : S32.Idx, 0 ≤ ((x1 : S32.Idx → BitVec 32) x).toInt) (i : S32.Idx) :
    (Read.val_main_v10 (F := Ideal) x1 : S32.Idx → BitVec 32) i = (x1 : S32.Idx → BitVec 32) i := by
  rw [Read.val_main_v10_apply, Read.val_main_v7_apply, Read.val_main_v6_apply, Read.val_main_c_apply]
  exact (congrArg (fun c => Scalar.select c _ _) (slt_zero_clear _ (hid i))).trans (select_clear _ _)

/-- The wrapped id of the second factor's gather is the id itself. -/
private theorem wrapB (x1 : (⟨S32, .i32⟩ : BufTy).Contents (Elt Ideal))
    (hid : ∀ x : S32.Idx, 0 ≤ ((x1 : S32.Idx → BitVec 32) x).toInt) (i : S32.Idx) :
    (Read.val_main_v17 (F := Ideal) x1 : S32.Idx → BitVec 32) i = (x1 : S32.Idx → BitVec 32) i := by
  rw [Read.val_main_v17_apply, Read.val_main_v14_apply, Read.val_main_v13_apply, Read.val_main_c_1_apply]
  exact (congrArg (fun c => Scalar.select c _ _) (slt_zero_clear _ (hid i))).trans (select_clear _ _)

/-! ## The row gathers read at an index -/

/-- The first factor's gather: entry (b, p, q) of the result is entry (row, p, q) of the table, the row being the start
    word at (b, 0) read signed and clamped into [0, 7]. Axis 0 is collapsed and carries the start; axes 1 and 2 are the
    offset axes, with start 0. -/
private theorem gatherA_apply {α : Type} (x : S8x16x1024.Idx → α) (idx : IVec S32x1 32) (b : Fin 32) (p : Fin 16) (q : Fin 1024) :
    Host.gather gather_S8x16x1024_S32x1_S32x16x1024_12_0_n_n_0_1_1161024 x idx (ix3 b p q)
      = x (ix3 ⟨min (idx (ix2 b 0)).toInt.toNat 7, by omega⟩ p q) := by
  unfold Host.gather
  congr 1
  funext a
  refine Fin.ext ?_
  match a with
  | ⟨0, _⟩ =>
    show GatherDims.start _ (ix3 b p q) idx 0 + GatherDims.batchCoord _ (ix3 b p q) 0 + GatherDims.offCoord _ (ix3 b p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8x16x1024_S32x1_S32x16x1024_12_0_n_n_0_1_1161024.startIndexMap from List.mem_singleton.mpr rfl)]
    have hsi : gather_S8x16x1024_S32x1_S32x16x1024_12_0_n_n_0_1_1161024.siIdx (ix3 b p q)
        ⟨List.idxOf (0 : Fin 3) gather_S8x16x1024_S32x1_S32x16x1024_12_0_n_n_0_1_1161024.startIndexMap,
          List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show GatherDims.start _ (ix3 b p q) idx 1 + GatherDims.batchCoord _ (ix3 b p q) 1 + GatherDims.offCoord _ (ix3 b p q) 1 = p.val
    rw [GatherDims.batchCoord_eq_zero _ _ _ List.not_mem_nil]
    unfold GatherDims.start GatherDims.offCoord
    rw [dif_neg (show ¬ (1 : Fin 3) ∈ gather_S8x16x1024_S32x1_S32x16x1024_12_0_n_n_0_1_1161024.startIndexMap by decide),
      dif_pos (show (1 : Fin 3) ∈ gather_S8x16x1024_S32x1_S32x16x1024_12_0_n_n_0_1_1161024.sKept by decide)]
    simp only [Nat.add_zero, Nat.zero_add]
    rfl
  | ⟨2, _⟩ =>
    show GatherDims.start _ (ix3 b p q) idx 2 + GatherDims.batchCoord _ (ix3 b p q) 2 + GatherDims.offCoord _ (ix3 b p q) 2 = q.val
    rw [GatherDims.batchCoord_eq_zero _ _ _ List.not_mem_nil]
    unfold GatherDims.start GatherDims.offCoord
    rw [dif_neg (show ¬ (2 : Fin 3) ∈ gather_S8x16x1024_S32x1_S32x16x1024_12_0_n_n_0_1_1161024.startIndexMap by decide),
      dif_pos (show (2 : Fin 3) ∈ gather_S8x16x1024_S32x1_S32x16x1024_12_0_n_n_0_1_1161024.sKept by decide)]
    simp only [Nat.add_zero, Nat.zero_add]
    rfl

/-- The second factor's gather, the same dimension numbers over a table of 4096 by 16 blocks. -/
private theorem gatherB_apply {α : Type} (x : S8x4096x16.Idx → α) (idx : IVec S32x1 32) (b : Fin 32) (p : Fin 4096) (q : Fin 16) :
    Host.gather gather_S8x4096x16_S32x1_S32x4096x16_12_0_n_n_0_1_1409616 x idx (ix3 b p q)
      = x (ix3 ⟨min (idx (ix2 b 0)).toInt.toNat 7, by omega⟩ p q) := by
  unfold Host.gather
  congr 1
  funext a
  refine Fin.ext ?_
  match a with
  | ⟨0, _⟩ =>
    show GatherDims.start _ (ix3 b p q) idx 0 + GatherDims.batchCoord _ (ix3 b p q) 0 + GatherDims.offCoord _ (ix3 b p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S8x4096x16_S32x1_S32x4096x16_12_0_n_n_0_1_1409616.startIndexMap from List.mem_singleton.mpr rfl)]
    have hsi : gather_S8x4096x16_S32x1_S32x4096x16_12_0_n_n_0_1_1409616.siIdx (ix3 b p q)
        ⟨List.idxOf (0 : Fin 3) gather_S8x4096x16_S32x1_S32x4096x16_12_0_n_n_0_1_1409616.startIndexMap,
          List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show GatherDims.start _ (ix3 b p q) idx 1 + GatherDims.batchCoord _ (ix3 b p q) 1 + GatherDims.offCoord _ (ix3 b p q) 1 = p.val
    rw [GatherDims.batchCoord_eq_zero _ _ _ List.not_mem_nil]
    unfold GatherDims.start GatherDims.offCoord
    rw [dif_neg (show ¬ (1 : Fin 3) ∈ gather_S8x4096x16_S32x1_S32x4096x16_12_0_n_n_0_1_1409616.startIndexMap by decide),
      dif_pos (show (1 : Fin 3) ∈ gather_S8x4096x16_S32x1_S32x4096x16_12_0_n_n_0_1_1409616.sKept by decide)]
    simp only [Nat.add_zero, Nat.zero_add]
    rfl
  | ⟨2, _⟩ =>
    show GatherDims.start _ (ix3 b p q) idx 2 + GatherDims.batchCoord _ (ix3 b p q) 2 + GatherDims.offCoord _ (ix3 b p q) 2 = q.val
    rw [GatherDims.batchCoord_eq_zero _ _ _ List.not_mem_nil]
    unfold GatherDims.start GatherDims.offCoord
    rw [dif_neg (show ¬ (2 : Fin 3) ∈ gather_S8x4096x16_S32x1_S32x4096x16_12_0_n_n_0_1_1409616.startIndexMap by decide),
      dif_pos (show (2 : Fin 3) ∈ gather_S8x4096x16_S32x1_S32x4096x16_12_0_n_n_0_1_1409616.sKept by decide)]
    simp only [Nat.add_zero, Nat.zero_add]
    rfl

/-! ## The gathered expert blocks -/

/-- The start-index array of the first gather at (b, 0) reads the id of row b; -/
private theorem idx_bcastA (b : Fin 32) : Read.idx_main_v11 (ix2 b (0 : Fin 1)) = ix1 b :=
  funext fun a => Fin.ext (by match a with | ⟨0, _⟩ => rfl)
/-- so does the second gather's. -/
private theorem idx_bcastB (b : Fin 32) : Read.idx_main_v18 (ix2 b (0 : Fin 1)) = ix1 b :=
  funext fun a => Fin.ext (by match a with | ⟨0, _⟩ => rfl)

/-- Entry (b, r, i) of the gathered first factor is entry (r, i) of the expert's block. -/
private theorem expertA (x1 : (⟨S32, .i32⟩ : BufTy).Contents (Elt Ideal)) (x8 : (⟨S8x16x1024, .f32⟩ : BufTy).Contents (Elt Ideal))
    (hid : ∀ x : S32.Idx, 0 ≤ ((x1 : S32.Idx → BitVec 32) x).toInt) (b : Fin 32) (r : Fin 16) (i : Fin 1024) :
    (Read.val_main_v12 (F := Ideal) x1 x8 : S32x16x1024.Idx → EReal) (ix3 b r i)
      = (x8 : S8x16x1024.Idx → EReal) (ix3 (Spec.eidx ((x1 : S32.Idx → BitVec 32) (ix1 b))) r i) := by
  unfold Read.val_main_v12
  refine (gatherA_apply _ _ b r i).trans ?_
  have hw : (Read.val_main_v11 (F := Ideal) x1 : S32x1.Idx → BitVec 32) (ix2 b 0) = (x1 : S32.Idx → BitVec 32) (ix1 b) := by
    rw [Read.val_main_v11_apply, idx_bcastA]; exact wrapA x1 hid _
  exact congrArg (fun e : Fin 8 => (x8 : S8x16x1024.Idx → EReal) (ix3 e r i))
    (Fin.ext (congrArg (fun w : BitVec 32 => min w.toInt.toNat 7) hw))

/-- Entry (b, f, r) of the gathered second factor is entry (f, r) of the expert's block. -/
private theorem expertB (x1 : (⟨S32, .i32⟩ : BufTy).Contents (Elt Ideal)) (x9 : (⟨S8x4096x16, .f32⟩ : BufTy).Contents (Elt Ideal))
    (hid : ∀ x : S32.Idx, 0 ≤ ((x1 : S32.Idx → BitVec 32) x).toInt) (b : Fin 32) (f : Fin 4096) (r : Fin 16) :
    (Read.val_main_v19 (F := Ideal) x1 x9 : S32x4096x16.Idx → EReal) (ix3 b f r)
      = (x9 : S8x4096x16.Idx → EReal) (ix3 (Spec.eidx ((x1 : S32.Idx → BitVec 32) (ix1 b))) f r) := by
  unfold Read.val_main_v19
  refine (gatherB_apply _ _ b f r).trans ?_
  have hw : (Read.val_main_v18 (F := Ideal) x1 : S32x1.Idx → BitVec 32) (ix2 b 0) = (x1 : S32.Idx → BitVec 32) (ix1 b) := by
    rw [Read.val_main_v18_apply, idx_bcastB]; exact wrapB x1 hid _
  exact congrArg (fun e : Fin 8 => (x9 : S8x4096x16.Idx → EReal) (ix3 e f r))
    (Fin.ext (congrArg (fun w : BitVec 32 => min w.toInt.toNat 7) hw))

/-! ## The contractions' operand indices at (b, s, f) -/

private theorem l0 (b : Fin 32) (s : Fin 512) (f : Fin 4096) (k : Fin 1024) : Read.lidx_main_v0 (ix3 b s f) k = ix3 b s k :=
  funext fun a => Fin.ext (by match a with | ⟨0, _⟩ => rfl | ⟨1, _⟩ => rfl | ⟨2, _⟩ => rfl)
private theorem r0 (b : Fin 32) (s : Fin 512) (f : Fin 4096) (k : Fin 1024) : Read.ridx_main_v0 (ix3 b s f) k = ix2 f k :=
  funext fun a => Fin.ext (by match a with | ⟨0, _⟩ => rfl | ⟨1, _⟩ => rfl)
private theorem l1 (b : Fin 32) (s : Fin 512) (r : Fin 16) (k : Fin 1024) : Read.lidx_main_v1 (ix3 b s r) k = ix3 b s k :=
  funext fun a => Fin.ext (by match a with | ⟨0, _⟩ => rfl | ⟨1, _⟩ => rfl | ⟨2, _⟩ => rfl)
private theorem r1 (b : Fin 32) (s : Fin 512) (r : Fin 16) (k : Fin 1024) : Read.ridx_main_v1 (ix3 b s r) k = ix2 r k :=
  funext fun a => Fin.ext (by match a with | ⟨0, _⟩ => rfl | ⟨1, _⟩ => rfl)
private theorem l2 (b : Fin 32) (s : Fin 512) (f : Fin 4096) (k : Fin 16) : Read.lidx_main_v2 (ix3 b s f) k = ix3 b s k :=
  funext fun a => Fin.ext (by match a with | ⟨0, _⟩ => rfl | ⟨1, _⟩ => rfl | ⟨2, _⟩ => rfl)
private theorem r2 (b : Fin 32) (s : Fin 512) (f : Fin 4096) (k : Fin 16) : Read.ridx_main_v2 (ix3 b s f) k = ix2 f k :=
  funext fun a => Fin.ext (by match a with | ⟨0, _⟩ => rfl | ⟨1, _⟩ => rfl)
private theorem l20 (b : Fin 32) (s : Fin 512) (r : Fin 16) (k : Fin 1024) : Read.lidx_main_v20 (ix3 b s r) k = ix3 b s k :=
  funext fun a => Fin.ext (by match a with | ⟨0, _⟩ => rfl | ⟨1, _⟩ => rfl | ⟨2, _⟩ => rfl)
private theorem r20 (b : Fin 32) (s : Fin 512) (r : Fin 16) (k : Fin 1024) : Read.ridx_main_v20 (ix3 b s r) k = ix3 b r k :=
  funext fun a => Fin.ext (by match a with | ⟨0, _⟩ => rfl | ⟨1, _⟩ => rfl | ⟨2, _⟩ => rfl)
private theorem l21 (b : Fin 32) (s : Fin 512) (f : Fin 4096) (k : Fin 16) : Read.lidx_main_v21 (ix3 b s f) k = ix3 b s k :=
  funext fun a => Fin.ext (by match a with | ⟨0, _⟩ => rfl | ⟨1, _⟩ => rfl | ⟨2, _⟩ => rfl)
private theorem r21 (b : Fin 32) (s : Fin 512) (f : Fin 4096) (k : Fin 16) : Read.ridx_main_v21 (ix3 b s f) k = ix3 b f k :=
  funext fun a => Fin.ext (by match a with | ⟨0, _⟩ => rfl | ⟨1, _⟩ => rfl | ⟨2, _⟩ => rfl)

/-! ## The three products at (b, s, f) -/

/-- The dense product: row (b, s) of the input against row f of the output-major weight. -/
private theorem dense_apply (x0 : (⟨S32x512x1024, .f32⟩ : BufTy).Contents (Elt Ideal)) (x2 : (⟨S4096x1024, .f32⟩ : BufTy).Contents (Elt Ideal))
    (b : Fin 32) (s : Fin 512) (f : Fin 4096) :
    (Read.val_main_v0 (F := Ideal) x0 x2 : S32x512x4096.Idx → EReal) (ix3 b s f)
      = ∑ i : Fin 1024, (x0 : S32x512x1024.Idx → EReal) (ix3 b s i) * (x2 : S4096x1024.Idx → EReal) (ix2 f i) := by
  refine (Read.val_main_v0_apply x0 x2 (ix3 b s f)).trans ?_
  refine Finset.sum_congr rfl fun k _ => ?_
  rw [l0, r0]

/-- The common low-rank product. -/
private theorem common_apply (x0 : (⟨S32x512x1024, .f32⟩ : BufTy).Contents (Elt Ideal)) (x4 : (⟨S16x1024, .f32⟩ : BufTy).Contents (Elt Ideal))
    (x5 : (⟨S4096x16, .f32⟩ : BufTy).Contents (Elt Ideal)) (b : Fin 32) (s : Fin 512) (f : Fin 4096) :
    (Read.val_main_v2 (F := Ideal) x0 x4 x5 : S32x512x4096.Idx → EReal) (ix3 b s f)
      = ∑ r : Fin 16, (∑ i : Fin 1024, (x0 : S32x512x1024.Idx → EReal) (ix3 b s i) * (x4 : S16x1024.Idx → EReal) (ix2 r i))
          * (x5 : S4096x16.Idx → EReal) (ix2 f r) := by
  refine (Read.val_main_v2_apply x0 x4 x5 (ix3 b s f)).trans ?_
  refine Finset.sum_congr rfl fun r _ => ?_
  rw [l2, r2]
  refine congrArg (· * (x5 : S4096x16.Idx → EReal) (ix2 f r)) ?_
  refine (Read.val_main_v1_apply x0 x4 (ix3 b s r)).trans ?_
  refine Finset.sum_congr rfl fun k _ => ?_
  rw [l1, r1]

/-- The selected expert's low-rank product. -/
private theorem expert_apply (x0 : (⟨S32x512x1024, .f32⟩ : BufTy).Contents (Elt Ideal)) (x1 : (⟨S32, .i32⟩ : BufTy).Contents (Elt Ideal))
    (x8 : (⟨S8x16x1024, .f32⟩ : BufTy).Contents (Elt Ideal)) (x9 : (⟨S8x4096x16, .f32⟩ : BufTy).Contents (Elt Ideal))
    (hid : ∀ x : S32.Idx, 0 ≤ ((x1 : S32.Idx → BitVec 32) x).toInt) (b : Fin 32) (s : Fin 512) (f : Fin 4096) :
    (Read.val_main_v21 (F := Ideal) x0 x1 x8 x9 : S32x512x4096.Idx → EReal) (ix3 b s f)
      = ∑ r : Fin 16, (∑ i : Fin 1024, (x0 : S32x512x1024.Idx → EReal) (ix3 b s i)
            * (x8 : S8x16x1024.Idx → EReal) (ix3 (Spec.eidx ((x1 : S32.Idx → BitVec 32) (ix1 b))) r i))
          * (x9 : S8x4096x16.Idx → EReal) (ix3 (Spec.eidx ((x1 : S32.Idx → BitVec 32) (ix1 b))) f r) := by
  refine (Read.val_main_v21_apply x0 x1 x8 x9 (ix3 b s f)).trans ?_
  refine Finset.sum_congr rfl fun r _ => ?_
  rw [l21, r21, expertB x1 x9 hid b f r]
  refine congrArg (· * (x9 : S8x4096x16.Idx → EReal) (ix3 (Spec.eidx ((x1 : S32.Idx → BitVec 32) (ix1 b))) f r)) ?_
  refine (Read.val_main_v20_apply x0 x1 x8 (ix3 b s r)).trans ?_
  refine Finset.sum_congr rfl fun k _ => ?_
  rw [l20, r20, expertA x1 x8 hid b r k]

/-- Entry (b, s, f) of the rectified hidden layer. -/
theorem hidden_apply (x0 : (⟨S32x512x1024, .f32⟩ : BufTy).Contents (Elt Ideal)) (x1 : (⟨S32, .i32⟩ : BufTy).Contents (Elt Ideal))
    (x2 : (⟨S4096x1024, .f32⟩ : BufTy).Contents (Elt Ideal)) (x4 : (⟨S16x1024, .f32⟩ : BufTy).Contents (Elt Ideal))
    (x5 : (⟨S4096x16, .f32⟩ : BufTy).Contents (Elt Ideal)) (x8 : (⟨S8x16x1024, .f32⟩ : BufTy).Contents (Elt Ideal))
    (x9 : (⟨S8x4096x16, .f32⟩ : BufTy).Contents (Elt Ideal))
    (hid : ∀ x : S32.Idx, 0 ≤ ((x1 : S32.Idx → BitVec 32) x).toInt) (b : Fin 32) (s : Fin 512) (f : Fin 4096) :
    (Cert.ReferenceIdeal.Read.val_main_v25 (F := Ideal) x0 x1 x2 x4 x5 x8 x9 : S32x512x4096.Idx → EReal) (ix3 b s f)
      = max (Spec.loraR Spec.two (fun i => (x0 : S32x512x1024.Idx → EReal) (ix3 b s i))
          (fun f i => (x2 : S4096x1024.Idx → EReal) (ix2 f i))
          (fun r i => (x4 : S16x1024.Idx → EReal) (ix2 r i))
          (fun f r => (x5 : S4096x16.Idx → EReal) (ix2 f r))
          (fun r i => (x8 : S8x16x1024.Idx → EReal) (ix3 (Spec.eidx ((x1 : S32.Idx → BitVec 32) (ix1 b))) r i))
          (fun f r => (x9 : S8x4096x16.Idx → EReal) (ix3 (Spec.eidx ((x1 : S32.Idx → BitVec 32) (ix1 b))) f r)) f) 0 := by
  rw [Read.val_main_v25_apply, Read.val_main_v24_apply, Read.val_main_v5_apply, Read.val_main_v4_apply,
    Read.val_main_v23_apply, Read.val_main_v3_apply, Read.val_main_cst_apply, Read.val_main_v22_apply,
    Read.val_main_cst_3_apply, Read.val_main_call0_v0_apply, Read.val_main_call0_cst_apply,
    dense_apply, common_apply, expert_apply x0 x1 x8 x9 hid]
  simp only [Ideal.ofBits_def, Ideal.mulf_def, Ideal.addf_def, Ideal.maximumf_def, Ideal.ofBits_zero_f32]
  unfold Spec.loraR Spec.two
  rfl

end Cert.RefHidden

end
-- ==== Proof.RefValue.lean ====
/-
  The reference program read at an index: entry (b, s, d) of its result is the two-layer form in the reference's grouping
  of row (b, s) of the input, the dense weights, the common factor pairs, and the factor pairs of the expert that row b's
  id selects. For a nonnegative id the expert is the id read signed and clamped into [0, 7]: the index wrap for negative
  ids leaves a nonnegative id alone, and the gather clamps.
-/
import proofs.«414242_j31267361915293_3_alg».proof.Defs
import proofs.«414242_j31267361915293_3_alg».proof.Proof.Gen.ReferenceIdeal.Run
import proofs.«414242_j31267361915293_3_alg».proof.Proof.Gen.ReferenceIdeal.Read
import proofs.«414242_j31267361915293_3_alg».proof.Proof.Spec
import proofs.«414242_j31267361915293_3_alg».proof.Proof.RefHidden
import Idealize.ShloMosaic.Lib.ValueIdx
import Idealize.ShloMosaic.Lib.Pipeline.Value

set_option maxRecDepth 16384

noncomputable section

namespace Cert.RefValue

open Cert.ReferenceIdeal Cert.ReferenceIdeal.Gen
open Idealize.ShloMosaic Idealize.ShloMosaic.ValueIdx

/-! ## The expert's id: the index wrap is not taken -/

/-- A word whose signed value is nonnegative is not signed-below zero, so the wrap (add 8 when negative) leaves it. -/
private theorem wrap_nonneg (w : BitVec 32) (h : 0 ≤ w.toInt) :
    Scalar.select (IntOp.cmpi .slt w 0#32) (IntOp.addi w 8#32) w = w := by
  unfold Scalar.select
  refine if_neg ?_
  intro hc
  have h0 : (0#32 : BitVec 32).toInt = 0 := by decide
  have hc' : BitVec.ofBool (w.slt 0#32) = 1#1 := hc
  cases hb : w.slt 0#32
  · rw [hb] at hc'; exact absurd hc' (by decide)
  · simp only [BitVec.slt, h0, decide_eq_true_eq] at hb; omega

/-- The start-index column read at (b, 0) for the first gathered factor is row b's id. -/
private theorem v37_at (x1 : (⟨S32, .i32⟩ : BufTy).Contents (Elt Ideal))
    (hid : ∀ x : S32.Idx, 0 ≤ ((x1 : S32.Idx → BitVec 32) x).toInt) (b : Fin 32) :
    (Read.val_main_v37 (F := Ideal) x1 : S32x1.Idx → BitVec 32) (ix2 b (0 : Fin 1)) = (x1 : S32.Idx → BitVec 32) (ix1 b) := by
  have e : Read.idx_main_v37 (ix2 b (0 : Fin 1)) = ix1 b := funext fun a => Fin.ext (by match a with | ⟨0, _⟩ => rfl)
  rw [Read.val_main_v37_apply, e, Read.val_main_v36_apply, Read.val_main_v33_apply, Read.val_main_v35_apply,
    Read.val_main_v32_apply, Read.val_main_v34_apply, Read.val_main_c_5_apply, Read.val_main_c_6_apply]
  exact wrap_nonneg _ (hid _)

/-- The start-index column read at (b, 0) for the second gathered factor is row b's id. -/
private theorem v44_at (x1 : (⟨S32, .i32⟩ : BufTy).Contents (Elt Ideal))
    (hid : ∀ x : S32.Idx, 0 ≤ ((x1 : S32.Idx → BitVec 32) x).toInt) (b : Fin 32) :
    (Read.val_main_v44 (F := Ideal) x1 : S32x1.Idx → BitVec 32) (ix2 b (0 : Fin 1)) = (x1 : S32.Idx → BitVec 32) (ix1 b) := by
  have e : Read.idx_main_v44 (ix2 b (0 : Fin 1)) = ix1 b := funext fun a => Fin.ext (by match a with | ⟨0, _⟩ => rfl)
  rw [Read.val_main_v44_apply, e, Read.val_main_v43_apply, Read.val_main_v40_apply, Read.val_main_v42_apply,
    Read.val_main_v39_apply, Read.val_main_v41_apply, Read.val_main_c_7_apply, Read.val_main_c_8_apply]
  exact wrap_nonneg _ (hid _)

/-! ## The two gathers read at an index -/

/-- The dimension numbers of the gather of the 8×16×4096 expert blocks along their leading axis. -/
private abbrev G38 := gather_S8x16x4096_S32x1_S32x16x4096_12_0_n_n_0_1_1164096

/-- On the gathered axis the operand coordinate is the start word of the row, read signed and clamped into [0, 7]. -/
private theorem G38_c0 (idx : IVec S32x1 32) (b : Fin 32) (r : Fin 16) (f : Fin 4096) :
    (G38.operandIdx (ix3 b r f) idx 0).val = min (idx (ix2 b (0 : Fin 1))).toInt.toNat 7 := by
  show G38.start (ix3 b r f) idx 0 + G38.batchCoord (ix3 b r f) 0 + G38.offCoord (ix3 b r f) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ G38.startIndexMap from List.mem_singleton.mpr rfl)]
  have hsi : G38.siIdx (ix3 b r f) ⟨List.idxOf (0 : Fin 3) G38.startIndexMap,
      List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- On the first offset axis the operand coordinate is the result's second coordinate. -/
private theorem G38_c1 (idx : IVec S32x1 32) (b : Fin 32) (r : Fin 16) (f : Fin 4096) :
    (G38.operandIdx (ix3 b r f) idx 1).val = r.val := by
  show G38.start (ix3 b r f) idx 1 + G38.batchCoord (ix3 b r f) 1 + G38.offCoord (ix3 b r f) 1 = _
  rw [GatherDims.batchCoord_eq_zero _ _ _ List.not_mem_nil]
  unfold GatherDims.start
  rw [dif_neg (show ¬ (1 : Fin 3) ∈ G38.startIndexMap by decide)]
  unfold GatherDims.offCoord
  rw [dif_pos (show (1 : Fin 3) ∈ G38.sKept by decide)]
  simp only [Nat.add_zero, Nat.zero_add]
  rfl

/-- On the second offset axis the operand coordinate is the result's third coordinate. -/
private theorem G38_c2 (idx : IVec S32x1 32) (b : Fin 32) (r : Fin 16) (f : Fin 4096) :
    (G38.operandIdx (ix3 b r f) idx 2).val = f.val := by
  show G38.start (ix3 b r f) idx 2 + G38.batchCoord (ix3 b r f) 2 + G38.offCoord (ix3 b r f) 2 = _
  rw [GatherDims.batchCoord_eq_zero _ _ _ List.not_mem_nil]
  unfold GatherDims.start
  rw [dif_neg (show ¬ (2 : Fin 3) ∈ G38.startIndexMap by decide)]
  unfold GatherDims.offCoord
  rw [dif_pos (show (2 : Fin 3) ∈ G38.sKept by decide)]
  simp only [Nat.add_zero, Nat.zero_add]
  rfl

/-- THE GATHER READ AT (b, r, f): the operand's block selected by row b's start word, at (r, f). -/
private theorem G38_apply {α : Type} (x : S8x16x4096.Idx → α) (idx : IVec S32x1 32) (b : Fin 32) (r : Fin 16) (f : Fin 4096) :
    Host.gather G38 x idx (ix3 b r f) = x (ix3 (Spec.eidx (idx (ix2 b (0 : Fin 1)))) r f) := by
  unfold Host.gather
  congr 1
  funext a
  refine Fin.ext ?_
  match a with
  | ⟨0, _⟩ => exact G38_c0 idx b r f
  | ⟨1, _⟩ => exact G38_c1 idx b r f
  | ⟨2, _⟩ => exact G38_c2 idx b r f

/-- The dimension numbers of the gather of the 8×1024×16 expert blocks along their leading axis. -/
private abbrev G45 := gather_S8x1024x16_S32x1_S32x1024x16_12_0_n_n_0_1_1102416

/-- On the gathered axis the operand coordinate is the start word of the row, read signed and clamped into [0, 7]. -/
private theorem G45_c0 (idx : IVec S32x1 32) (b : Fin 32) (d : Fin 1024) (r : Fin 16) :
    (G45.operandIdx (ix3 b d r) idx 0).val = min (idx (ix2 b (0 : Fin 1))).toInt.toNat 7 := by
  show G45.start (ix3 b d r) idx 0 + G45.batchCoord (ix3 b d r) 0 + G45.offCoord (ix3 b d r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ G45.startIndexMap from List.mem_singleton.mpr rfl)]
  have hsi : G45.siIdx (ix3 b d r) ⟨List.idxOf (0 : Fin 3) G45.startIndexMap,
      List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- On the first offset axis the operand coordinate is the result's second coordinate. -/
private theorem G45_c1 (idx : IVec S32x1 32) (b : Fin 32) (d : Fin 1024) (r : Fin 16) :
    (G45.operandIdx (ix3 b d r) idx 1).val = d.val := by
  show G45.start (ix3 b d r) idx 1 + G45.batchCoord (ix3 b d r) 1 + G45.offCoord (ix3 b d r) 1 = _
  rw [GatherDims.batchCoord_eq_zero _ _ _ List.not_mem_nil]
  unfold GatherDims.start
  rw [dif_neg (show ¬ (1 : Fin 3) ∈ G45.startIndexMap by decide)]
  unfold GatherDims.offCoord
  rw [dif_pos (show (1 : Fin 3) ∈ G45.sKept by decide)]
  simp only [Nat.add_zero, Nat.zero_add]
  rfl

/-- On the second offset axis the operand coordinate is the result's third coordinate. -/
private theorem G45_c2 (idx : IVec S32x1 32) (b : Fin 32) (d : Fin 1024) (r : Fin 16) :
    (G45.operandIdx (ix3 b d r) idx 2).val = r.val := by
  show G45.start (ix3 b d r) idx 2 + G45.batchCoord (ix3 b d r) 2 + G45.offCoord (ix3 b d r) 2 = _
  rw [GatherDims.batchCoord_eq_zero _ _ _ List.not_mem_nil]
  unfold GatherDims.start
  rw [dif_neg (show ¬ (2 : Fin 3) ∈ G45.startIndexMap by decide)]
  unfold GatherDims.offCoord
  rw [dif_pos (show (2 : Fin 3) ∈ G45.sKept by decide)]
  simp only [Nat.add_zero, Nat.zero_add]
  rfl

/-- THE GATHER READ AT (b, d, r): the operand's block selected by row b's start word, at (d, r). -/
private theorem G45_apply {α : Type} (x : S8x1024x16.Idx → α) (idx : IVec S32x1 32) (b : Fin 32) (d : Fin 1024) (r : Fin 16) :
    Host.gather G45 x idx (ix3 b d r) = x (ix3 (Spec.eidx (idx (ix2 b (0 : Fin 1)))) d r) := by
  unfold Host.gather
  congr 1
  funext a
  refine Fin.ext ?_
  match a with
  | ⟨0, _⟩ => exact G45_c0 idx b d r
  | ⟨1, _⟩ => exact G45_c1 idx b d r
  | ⟨2, _⟩ => exact G45_c2 idx b d r

/-- The gathered first factor at (b, r, f): the block of the expert row b's id selects. -/
private theorem v38_at (x1 : (⟨S32, .i32⟩ : BufTy).Contents (Elt Ideal)) (x10 : (⟨S8x16x4096, .f32⟩ : BufTy).Contents (Elt Ideal))
    (hid : ∀ x : S32.Idx, 0 ≤ ((x1 : S32.Idx → BitVec 32) x).toInt) (b : Fin 32) (r : Fin 16) (f : Fin 4096) :
    (Read.val_main_v38 (F := Ideal) x1 x10 : S32x16x4096.Idx → EReal) (ix3 b r f)
      = (x10 : S8x16x4096.Idx → EReal) (ix3 (Spec.eidx ((x1 : S32.Idx → BitVec 32) (ix1 b))) r f) := by
  unfold Read.val_main_v38
  rw [G38_apply, v37_at x1 hid b]

/-- The gathered second factor at (b, d, r): the block of the expert row b's id selects. -/
private theorem v45_at (x1 : (⟨S32, .i32⟩ : BufTy).Contents (Elt Ideal)) (x11 : (⟨S8x1024x16, .f32⟩ : BufTy).Contents (Elt Ideal))
    (hid : ∀ x : S32.Idx, 0 ≤ ((x1 : S32.Idx → BitVec 32) x).toInt) (b : Fin 32) (d : Fin 1024) (r : Fin 16) :
    (Read.val_main_v45 (F := Ideal) x1 x11 : S32x1024x16.Idx → EReal) (ix3 b d r)
      = (x11 : S8x1024x16.Idx → EReal) (ix3 (Spec.eidx ((x1 : S32.Idx → BitVec 32) (ix1 b))) d r) := by
  unfold Read.val_main_v45
  rw [G45_apply, v44_at x1 hid b]

/-! ## The contractions' operand indices at (b, s, ·) -/

private theorem lidx26 (b : Fin 32) (s : Fin 512) (d : Fin 1024) (k : Fin 4096) :
    Read.lidx_main_v26 (ix3 b s d) k = ix3 b s k := funext fun a => Fin.ext (by match a with | ⟨0, _⟩ => rfl | ⟨1, _⟩ => rfl | ⟨2, _⟩ => rfl)
private theorem ridx26 (b : Fin 32) (s : Fin 512) (d : Fin 1024) (k : Fin 4096) :
    Read.ridx_main_v26 (ix3 b s d) k = ix2 d k := funext fun a => Fin.ext (by match a with | ⟨0, _⟩ => rfl | ⟨1, _⟩ => rfl)
private theorem lidx27 (b : Fin 32) (s : Fin 512) (r : Fin 16) (k : Fin 4096) :
    Read.lidx_main_v27 (ix3 b s r) k = ix3 b s k := funext fun a => Fin.ext (by match a with | ⟨0, _⟩ => rfl | ⟨1, _⟩ => rfl | ⟨2, _⟩ => rfl)
private theorem ridx27 (b : Fin 32) (s : Fin 512) (r : Fin 16) (k : Fin 4096) :
    Read.ridx_main_v27 (ix3 b s r) k = ix2 r k := funext fun a => Fin.ext (by match a with | ⟨0, _⟩ => rfl | ⟨1, _⟩ => rfl)
private theorem lidx28 (b : Fin 32) (s : Fin 512) (d : Fin 1024) (k : Fin 16) :
    Read.lidx_main_v28 (ix3 b s d) k = ix3 b s k := funext fun a => Fin.ext (by match a with | ⟨0, _⟩ => rfl | ⟨1, _⟩ => rfl | ⟨2, _⟩ => rfl)
private theorem ridx28 (b : Fin 32) (s : Fin 512) (d : Fin 1024) (k : Fin 16) :
    Read.ridx_main_v28 (ix3 b s d) k = ix2 d k := funext fun a => Fin.ext (by match a with | ⟨0, _⟩ => rfl | ⟨1, _⟩ => rfl)
private theorem lidx46 (b : Fin 32) (s : Fin 512) (r : Fin 16) (k : Fin 4096) :
    Read.lidx_main_v46 (ix3 b s r) k = ix3 b s k := funext fun a => Fin.ext (by match a with | ⟨0, _⟩ => rfl | ⟨1, _⟩ => rfl | ⟨2, _⟩ => rfl)
private theorem ridx46 (b : Fin 32) (s : Fin 512) (r : Fin 16) (k : Fin 4096) :
    Read.ridx_main_v46 (ix3 b s r) k = ix3 b r k := funext fun a => Fin.ext (by match a with | ⟨0, _⟩ => rfl | ⟨1, _⟩ => rfl | ⟨2, _⟩ => rfl)
private theorem lidx47 (b : Fin 32) (s : Fin 512) (d : Fin 1024) (k : Fin 16) :
    Read.lidx_main_v47 (ix3 b s d) k = ix3 b s k := funext fun a => Fin.ext (by match a with | ⟨0, _⟩ => rfl | ⟨1, _⟩ => rfl | ⟨2, _⟩ => rfl)
private theorem ridx47 (b : Fin 32) (s : Fin 512) (d : Fin 1024) (k : Fin 16) :
    Read.ridx_main_v47 (ix3 b s d) k = ix3 b d k := funext fun a => Fin.ext (by match a with | ⟨0, _⟩ => rfl | ⟨1, _⟩ => rfl | ⟨2, _⟩ => rfl)

/-! ## The second layer's stages at (b, s, ·), over the rectified hidden row -/

/-- The dense product: the hidden row against row d of the output-major dense weight. -/
private theorem v26_at (x0 : (⟨S32x512x1024, .f32⟩ : BufTy).Contents (Elt Ideal)) (x1 : (⟨S32, .i32⟩ : BufTy).Contents (Elt Ideal))
    (x2 : (⟨S4096x1024, .f32⟩ : BufTy).Contents (Elt Ideal)) (x4 : (⟨S16x1024, .f32⟩ : BufTy).Contents (Elt Ideal)) (x5 : (⟨S4096x16, .f32⟩ : BufTy).Contents (Elt Ideal))
    (x8 : (⟨S8x16x1024, .f32⟩ : BufTy).Contents (Elt Ideal)) (x9 : (⟨S8x4096x16, .f32⟩ : BufTy).Contents (Elt Ideal)) (x3 : (⟨S1024x4096, .f32⟩ : BufTy).Contents (Elt Ideal))
    (b : Fin 32) (s : Fin 512) (d : Fin 1024) :
    (Read.val_main_v26 (F := Ideal) x0 x1 x2 x3 x4 x5 x8 x9 : S32x512x1024.Idx → EReal) (ix3 b s d)
      = ∑ f : Fin 4096, (Read.val_main_v25 (F := Ideal) x0 x1 x2 x4 x5 x8 x9 : S32x512x4096.Idx → EReal) (ix3 b s f)
          * (x3 : S1024x4096.Idx → EReal) (ix2 d f) := by
  rw [Read.val_main_v26_apply]
  refine Finset.sum_congr rfl fun k _ => ?_
  rw [lidx26, ridx26]

/-- The common pair's inner product: the hidden row against row r of the common first factor. -/
private theorem v27_at (x0 : (⟨S32x512x1024, .f32⟩ : BufTy).Contents (Elt Ideal)) (x1 : (⟨S32, .i32⟩ : BufTy).Contents (Elt Ideal))
    (x2 : (⟨S4096x1024, .f32⟩ : BufTy).Contents (Elt Ideal)) (x4 : (⟨S16x1024, .f32⟩ : BufTy).Contents (Elt Ideal)) (x5 : (⟨S4096x16, .f32⟩ : BufTy).Contents (Elt Ideal))
    (x8 : (⟨S8x16x1024, .f32⟩ : BufTy).Contents (Elt Ideal)) (x9 : (⟨S8x4096x16, .f32⟩ : BufTy).Contents (Elt Ideal)) (x6 : (⟨S16x4096, .f32⟩ : BufTy).Contents (Elt Ideal))
    (b : Fin 32) (s : Fin 512) (r : Fin 16) :
    (Read.val_main_v27 (F := Ideal) x0 x1 x2 x4 x5 x6 x8 x9 : S32x512x16.Idx → EReal) (ix3 b s r)
      = ∑ f : Fin 4096, (Read.val_main_v25 (F := Ideal) x0 x1 x2 x4 x5 x8 x9 : S32x512x4096.Idx → EReal) (ix3 b s f)
          * (x6 : S16x4096.Idx → EReal) (ix2 r f) := by
  rw [Read.val_main_v27_apply]
  refine Finset.sum_congr rfl fun k _ => ?_
  rw [lidx27, ridx27]

/-- The common low-rank product. -/
private theorem v28_at (x0 : (⟨S32x512x1024, .f32⟩ : BufTy).Contents (Elt Ideal)) (x1 : (⟨S32, .i32⟩ : BufTy).Contents (Elt Ideal))
    (x2 : (⟨S4096x1024, .f32⟩ : BufTy).Contents (Elt Ideal)) (x4 : (⟨S16x1024, .f32⟩ : BufTy).Contents (Elt Ideal)) (x5 : (⟨S4096x16, .f32⟩ : BufTy).Contents (Elt Ideal))
    (x8 : (⟨S8x16x1024, .f32⟩ : BufTy).Contents (Elt Ideal)) (x9 : (⟨S8x4096x16, .f32⟩ : BufTy).Contents (Elt Ideal)) (x6 : (⟨S16x4096, .f32⟩ : BufTy).Contents (Elt Ideal)) (x7 : (⟨S1024x16, .f32⟩ : BufTy).Contents (Elt Ideal))
    (b : Fin 32) (s : Fin 512) (d : Fin 1024) :
    (Read.val_main_v28 (F := Ideal) x0 x1 x2 x4 x5 x6 x7 x8 x9 : S32x512x1024.Idx → EReal) (ix3 b s d)
      = ∑ r : Fin 16, (∑ f : Fin 4096, (Read.val_main_v25 (F := Ideal) x0 x1 x2 x4 x5 x8 x9 : S32x512x4096.Idx → EReal) (ix3 b s f)
          * (x6 : S16x4096.Idx → EReal) (ix2 r f)) * (x7 : S1024x16.Idx → EReal) (ix2 d r) := by
  rw [Read.val_main_v28_apply]
  refine Finset.sum_congr rfl fun k _ => ?_
  rw [lidx28, ridx28, v27_at]

/-- The expert pair's inner product: the hidden row against row r of the selected expert's first factor. -/
private theorem v46_at (x0 : (⟨S32x512x1024, .f32⟩ : BufTy).Contents (Elt Ideal)) (x1 : (⟨S32, .i32⟩ : BufTy).Contents (Elt Ideal))
    (x2 : (⟨S4096x1024, .f32⟩ : BufTy).Contents (Elt Ideal)) (x4 : (⟨S16x1024, .f32⟩ : BufTy).Contents (Elt Ideal)) (x5 : (⟨S4096x16, .f32⟩ : BufTy).Contents (Elt Ideal))
    (x8 : (⟨S8x16x1024, .f32⟩ : BufTy).Contents (Elt Ideal)) (x9 : (⟨S8x4096x16, .f32⟩ : BufTy).Contents (Elt Ideal)) (x10 : (⟨S8x16x4096, .f32⟩ : BufTy).Contents (Elt Ideal)) (hid : ∀ x : S32.Idx, 0 ≤ ((x1 : S32.Idx → BitVec 32) x).toInt)
    (b : Fin 32) (s : Fin 512) (r : Fin 16) :
    (Read.val_main_v46 (F := Ideal) x0 x1 x2 x4 x5 x8 x9 x10 : S32x512x16.Idx → EReal) (ix3 b s r)
      = ∑ f : Fin 4096, (Read.val_main_v25 (F := Ideal) x0 x1 x2 x4 x5 x8 x9 : S32x512x4096.Idx → EReal) (ix3 b s f)
          * (x10 : S8x16x4096.Idx → EReal) (ix3 (Spec.eidx ((x1 : S32.Idx → BitVec 32) (ix1 b))) r f) := by
  rw [Read.val_main_v46_apply]
  refine Finset.sum_congr rfl fun k _ => ?_
  rw [lidx46, ridx46, v38_at x1 x10 hid]

/-- The expert low-rank product. -/
private theorem v47_at (x0 : (⟨S32x512x1024, .f32⟩ : BufTy).Contents (Elt Ideal)) (x1 : (⟨S32, .i32⟩ : BufTy).Contents (Elt Ideal))
    (x2 : (⟨S4096x1024, .f32⟩ : BufTy).Contents (Elt Ideal)) (x4 : (⟨S16x1024, .f32⟩ : BufTy).Contents (Elt Ideal)) (x5 : (⟨S4096x16, .f32⟩ : BufTy).Contents (Elt Ideal))
    (x8 : (⟨S8x16x1024, .f32⟩ : BufTy).Contents (Elt Ideal)) (x9 : (⟨S8x4096x16, .f32⟩ : BufTy).Contents (Elt Ideal)) (x10 : (⟨S8x16x4096, .f32⟩ : BufTy).Contents (Elt Ideal)) (x11 : (⟨S8x1024x16, .f32⟩ : BufTy).Contents (Elt Ideal)) (hid : ∀ x : S32.Idx, 0 ≤ ((x1 : S32.Idx → BitVec 32) x).toInt)
    (b : Fin 32) (s : Fin 512) (d : Fin 1024) :
    (Read.val_main_v47 (F := Ideal) x0 x1 x2 x4 x5 x8 x9 x10 x11 : S32x512x1024.Idx → EReal) (ix3 b s d)
      = ∑ r : Fin 16, (∑ f : Fin 4096, (Read.val_main_v25 (F := Ideal) x0 x1 x2 x4 x5 x8 x9 : S32x512x4096.Idx → EReal) (ix3 b s f)
          * (x10 : S8x16x4096.Idx → EReal) (ix3 (Spec.eidx ((x1 : S32.Idx → BitVec 32) (ix1 b))) r f))
          * (x11 : S8x1024x16.Idx → EReal) (ix3 (Spec.eidx ((x1 : S32.Idx → BitVec 32) (ix1 b))) d r) := by
  rw [Read.val_main_v47_apply]
  refine Finset.sum_congr rfl fun k _ => ?_
  rw [lidx47, ridx47, v46_at x0 x1 x2 x4 x5 x8 x9 x10 hid, v45_at x1 x11 hid]

/-- The broadcast scale of the common product is the word of 2. -/
private theorem v29_at (i : S32x512x1024.Idx) : (Read.val_main_v29 (F := Ideal) : S32x512x1024.Idx → EReal) i = Spec.two := by
  rw [Read.val_main_v29_apply, Read.val_main_cst_4_apply]
  rfl

/-- The broadcast scale of the expert product is the word of 2. -/
private theorem v48_at (i : S32x512x1024.Idx) : (Read.val_main_v48 (F := Ideal) : S32x512x1024.Idx → EReal) i = Spec.two := by
  rw [Read.val_main_v48_apply, Read.val_main_cst_9_apply]
  rfl

/-! ## The result -/

/-- Entry (b, s, d) of the reference's result. -/
theorem ref_apply (x0 : (⟨S32x512x1024, .f32⟩ : BufTy).Contents (Elt Ideal)) (x1 : (⟨S32, .i32⟩ : BufTy).Contents (Elt Ideal))
    (x2 : (⟨S4096x1024, .f32⟩ : BufTy).Contents (Elt Ideal)) (x3 : (⟨S1024x4096, .f32⟩ : BufTy).Contents (Elt Ideal))
    (x4 : (⟨S16x1024, .f32⟩ : BufTy).Contents (Elt Ideal)) (x5 : (⟨S4096x16, .f32⟩ : BufTy).Contents (Elt Ideal))
    (x6 : (⟨S16x4096, .f32⟩ : BufTy).Contents (Elt Ideal)) (x7 : (⟨S1024x16, .f32⟩ : BufTy).Contents (Elt Ideal))
    (x8 : (⟨S8x16x1024, .f32⟩ : BufTy).Contents (Elt Ideal)) (x9 : (⟨S8x4096x16, .f32⟩ : BufTy).Contents (Elt Ideal))
    (x10 : (⟨S8x16x4096, .f32⟩ : BufTy).Contents (Elt Ideal)) (x11 : (⟨S8x1024x16, .f32⟩ : BufTy).Contents (Elt Ideal))
    (hid : ∀ x : S32.Idx, 0 ≤ ((x1 : S32.Idx → BitVec 32) x).toInt) (b : Fin 32) (s : Fin 512) (d : Fin 1024) :
    (Cert.ReferenceIdeal.Read.val_main_v50 (F := Ideal) x0 x1 x2 x3 x4 x5 x6 x7 x8 x9 x10 x11 : S32x512x1024.Idx → EReal) (ix3 b s d)
      = Spec.outR Spec.two (fun i => (x0 : S32x512x1024.Idx → EReal) (ix3 b s i))
          (fun f i => (x2 : S4096x1024.Idx → EReal) (ix2 f i))
          (fun r i => (x4 : S16x1024.Idx → EReal) (ix2 r i))
          (fun f r => (x5 : S4096x16.Idx → EReal) (ix2 f r))
          (fun r i => (x8 : S8x16x1024.Idx → EReal) (ix3 (Spec.eidx ((x1 : S32.Idx → BitVec 32) (ix1 b))) r i))
          (fun f r => (x9 : S8x4096x16.Idx → EReal) (ix3 (Spec.eidx ((x1 : S32.Idx → BitVec 32) (ix1 b))) f r))
          (fun d f => (x3 : S1024x4096.Idx → EReal) (ix2 d f))
          (fun r f => (x6 : S16x4096.Idx → EReal) (ix2 r f))
          (fun d r => (x7 : S1024x16.Idx → EReal) (ix2 d r))
          (fun r f => (x10 : S8x16x4096.Idx → EReal) (ix3 (Spec.eidx ((x1 : S32.Idx → BitVec 32) (ix1 b))) r f))
          (fun d r => (x11 : S8x1024x16.Idx → EReal) (ix3 (Spec.eidx ((x1 : S32.Idx → BitVec 32) (ix1 b))) d r)) d := by
  rw [Read.val_main_v50_apply, Read.val_main_v31_apply, Read.val_main_v49_apply, Read.val_main_v30_apply,
    v26_at, v28_at, v47_at x0 x1 x2 x4 x5 x8 x9 x10 x11 hid, v29_at, v48_at]
  simp only [Ideal.addf_def, Ideal.mulf_def, Cert.RefHidden.hidden_apply x0 x1 x2 x4 x5 x8 x9 hid]
  unfold Spec.outR Spec.loraR
  rfl

end Cert.RefValue

end
-- ==== Proof.PreDecode.lean ====
/-
  The precondition read entry by entry: every entry of each of the eleven float arguments is a finite real
  (its absolute value is below +∞), and every expert id is nonnegative (signed).

  The predicate is a conjunction of twelve full reductions by `and`, each started from 1. A conjunction that is 1
  has both conjuncts 1; a full reduction by `and` that is 1 met a 1 at every entry; and an entry's 1 is the comparison
  itself: `max x (-x) < +∞` for a float entry (the word 0x7F800000 denotes +∞), which leaves only the finite reals,
  and `0 ≤ id` read signed for an id word.
-/
import proofs.«414242_j31267361915293_3_alg».proof.Defs
import proofs.«414242_j31267361915293_3_alg».proof.Proof.Gen.Pre_finite_inputs
import proofs.«414242_j31267361915293_3_alg».proof.Proof.LibReal
import Idealize.ShloMosaic.Lib.ReduceAll
import Idealize.ShloMosaic.Lib.StableHlo.Predicate

set_option maxRecDepth 16384

noncomputable section

namespace Cert.PreDecode

open Idealize.ShloMosaic Cert.LibReal Cert.Pre_finite_inputs

/-- The result shape of a full reduction has exactly one index. -/
private instance subsingleton_idx : Subsingleton S_.Idx := ⟨fun a b => funext fun d => d.elim0⟩

/-- The one index of the rank-zero shape. -/
private def i0 : S_.Idx := fun a => a.elim0

/-- A conjunction of two one-bit arrays that reads 1 at an index has both conjuncts 1 there. -/
private theorem andi_split {s : Shape} {x y : IVec s 1} {i : s.Idx} (h : andi x y i = 1#1) : x i = 1#1 ∧ y i = 1#1 :=
  IntOp.andi_eq_one.mp h

/-- The ordered comparison "less than" of two extended reals reads 1 only when the first is below the second. -/
private theorem lt_of_cmp_olt {x y : EReal} (h : Ideal.cmp .olt x y = 1#1) : x < y := by
  by_contra hn
  have h0 : Ideal.cmp .olt x y = 0#1 := by
    show BitVec.ofBool (decide (x < y)) = 0#1
    rw [decide_eq_false hn]; rfl
  rw [h0] at h
  exact absurd h (by decide)

/-- `all(|a| < +∞)` over an array of any shape: if the conjunction over all entries of "the absolute value is below
    the word of +∞" is 1, every entry is a finite real. -/
private theorem all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu i0 = 1#1) :
    ∀ i, IsReal (a i) := by
  intro i
  have h1 := Host.reduce_andi_all _ _ hr hu i0 e i
  have h2 : Ideal.cmp .olt (max (a i) (-(a i))) (Ideal.ofBits .f32 0x7F800000#32) = 1#1 := h1
  rw [ofBits_pos_inf] at h2
  exact isReal_of_abs_lt_top (lt_of_cmp_olt h2)

/-- `all(ids ≥ 0)` over an array of 32-bit words of any shape: if the conjunction over all entries of the signed
    comparison with the zero word is 1, every entry is nonnegative as a signed integer. -/
private theorem all_nonneg {s : Shape} {axes : List (Fin s.rank)} (a : IVec s 32)
    (hb : S_.BroadcastsInDim s (![] : Fin 0 → Fin s.rank)) (hr : s.ReducesTo axes S_) (hu : 0 < S_.numel)
    (e : Host.reduce IntOp.andi
          (cmpi .sge a (broadcastInDim s ![] hb (constantI S_ 32 0#32)))
          (constantI S_ 1 1#1) hr hu i0 = 1#1) :
    ∀ x, 0 ≤ (a x).toInt := by
  intro x
  have h1 := Host.reduce_andi_all _ _ hr hu i0 e x
  have h2 : IntOp.cmpi .sge (a x) 0#32 = 1#1 := h1
  have h3 := IntOp.cmpi_sge.mp h2
  rwa [BitVec.toInt_zero] at h3

/-- The precondition's predicate all ones says: the eleven float arrays hold finite reals and the ids are nonnegative. -/
theorem decode (a0 : FVec Ideal S32x512x1024 .f32) (a1 : IVec S32 32) (a2 : FVec Ideal S4096x1024 .f32)
    (a3 : FVec Ideal S1024x4096 .f32) (a4 : FVec Ideal S16x1024 .f32) (a5 : FVec Ideal S4096x16 .f32)
    (a6 : FVec Ideal S16x4096 .f32) (a7 : FVec Ideal S1024x16 .f32) (a8 : FVec Ideal S8x16x1024 .f32)
    (a9 : FVec Ideal S8x4096x16 .f32) (a10 : FVec Ideal S8x16x4096 .f32) (a11 : FVec Ideal S8x1024x16 .f32)
    (h : Cert.Pre_finite_inputs.fn (F := Ideal) a0 a1 a2 a3 a4 a5 a6 a7 a8 a9 a10 a11 = (fun _ => 1#1)) :
    (∀ i, IsReal (a0 i)) ∧ (∀ x, 0 ≤ (a1 x).toInt) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) := by
  have e := congrFun h i0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  obtain ⟨e, h1⟩ := andi_split e
  obtain ⟨e, h11⟩ := andi_split e
  obtain ⟨e, h10⟩ := andi_split e
  obtain ⟨e, h9⟩ := andi_split e
  obtain ⟨e, h8⟩ := andi_split e
  obtain ⟨e, h7⟩ := andi_split e
  obtain ⟨e, h6⟩ := andi_split e
  obtain ⟨e, h5⟩ := andi_split e
  obtain ⟨e, h4⟩ := andi_split e
  obtain ⟨e, h3⟩ := andi_split e
  obtain ⟨h0, h2⟩ := andi_split e
  exact ⟨all_finite a0 _ _ _ h0, all_nonneg a1 _ _ _ h1, all_finite a2 _ _ _ h2, all_finite a3 _ _ _ h3,
    all_finite a4 _ _ _ h4, all_finite a5 _ _ _ h5, all_finite a6 _ _ _ h6, all_finite a7 _ _ _ h7,
    all_finite a8 _ _ _ h8, all_finite a9 _ _ _ h9, all_finite a10 _ _ _ h10, all_finite a11 _ _ _ h11⟩

end Cert.PreDecode

end
-- ==== Proof.HostPrefix.lean ====
/-
  What the kernel program's host operations before the launch leave in the arrays the windows stage, entry by entry
  at the ideal instance: the two dense weights transposed; each rank-32 first factor the common block stacked over
  one expert's block; each rank-32 second factor the transposed common and expert blocks, each entry times 2,
  stacked the same way. Changes of float format are the identity on extended reals.
-/
import proofs.«414242_j31267361915293_3_alg».proof.Proof.Gen.KernelIdeal.Frame
import proofs.«414242_j31267361915293_3_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.HostPrefix

open Cert.KernelIdeal Cert.KernelIdeal.Gen
open Idealize.ShloMosaic Idealize.ShloMosaic.TcCoe Idealize.SL.Sem Idealize.ShloMosaic.ValueIdx

/-! ## Layout operations of the host prefix read at an index -/

/-- A block of 16 rows, given a unit leading axis and then repeated along it 8 times, read at position `e`,
    row `r`, column `i`, is the block at row `r`, column `i`. -/
private theorem bcast8_apply {n : ℕ} (hn : n ≠ 1)
    (h1 : (⟨2, ![16, n]⟩ : Shape).BroadcastsInDim ⟨3, ![1, 16, n]⟩ ![1, 2])
    (h2 : (⟨3, ![1, 16, n]⟩ : Shape).BroadcastsInDim ⟨3, ![8, 16, n]⟩ ![0, 1, 2])
    (A : (⟨2, ![16, n]⟩ : Shape).Idx → EReal) (e : Fin 8) (r : Fin 16) (i : Fin n) :
    broadcastInDim ⟨3, ![8, 16, n]⟩ ![0, 1, 2] h2 (broadcastInDim ⟨3, ![1, 16, n]⟩ ![1, 2] h1 A) (ix3 e r i)
      = A (ix2 r i) := by
  refine (broadcastInDim_apply _ h2 _ (ix3 e r i) (ix3 (0 : Fin 1) r i) (fun a => ?_)).trans ?_
  · match a with
    | ⟨0, _⟩ => show (0 : ℕ) = if (1 : ℕ) = 1 then 0 else e.val; rw [if_pos rfl]
    | ⟨1, _⟩ => show r.val = if (16 : ℕ) = 1 then 0 else r.val; rw [if_neg (by decide)]
    | ⟨2, _⟩ => show i.val = if n = 1 then 0 else i.val; rw [if_neg hn]
  · exact broadcastInDim_apply _ h1 A (ix3 (0 : Fin 1) r i) (ix2 r i) (fun a => match a with
      | ⟨0, _⟩ => by show r.val = if (16 : ℕ) = 1 then 0 else r.val; rw [if_neg (by decide)]
      | ⟨1, _⟩ => by show i.val = if n = 1 then 0 else i.val; rw [if_neg hn])

/-- Two blocks of 16 rows stacked along the row axis, read at row `r`: the first block at `r` when `r < 16`, the
    second at `r - 16` otherwise. -/
private theorem stack_apply {n : ℕ}
    (hc : Shape.Concatenates [(⟨3, ![8, 16, n]⟩ : Shape), ⟨3, ![8, 16, n]⟩] ⟨3, ![8, 32, n]⟩ 1)
    (X Y : (⟨3, ![8, 16, n]⟩ : Shape).Idx → EReal) (e : Fin 8) (r : Fin 32) (i : Fin n) :
    concatenate ⟨3, ![8, 32, n]⟩ 1 [⟨_, X⟩, ⟨_, Y⟩] hc (ix3 e r i)
      = if h : r.val < 16 then X (ix3 e ⟨r.val, h⟩ i) else Y (ix3 e ⟨r.val - 16, by omega⟩ i) := by
  by_cases h : r.val < 16
  · rw [dif_pos h]
    exact concatenate_pair_apply_left _ X Y hc (ix3 e r i) rfl (ix3 e ⟨r.val, h⟩ i) (fun b => match b with
      | ⟨0, _⟩ => rfl | ⟨1, _⟩ => rfl | ⟨2, _⟩ => rfl)
  · rw [dif_neg h]
    exact concatenate_pair_apply_right _ X Y hc (ix3 e r i) rfl rfl (ix3 e ⟨r.val - 16, by omega⟩ i)
      (fun b hb => match b, hb with
        | ⟨0, _⟩, _ => rfl | ⟨1, _⟩, hb => absurd rfl hb | ⟨2, _⟩, _ => rfl)
      (by show (r.val - 16) + 16 = r.val; omega)

/-- The scalar constant 2 repeated to any shape, read anywhere, is the scale. -/
private theorem two_apply {t : Shape} (h : S_.BroadcastsInDim t ![]) (j : t.Idx) :
    broadcastInDim t ![] h (constant (F := Ideal) S_ .f32 0x40000000#32) j = Spec.two :=
  (broadcastInDim_apply _ h _ j (fun a => a.elim0) (fun a => a.elim0)).trans rfl

/-! ## The staged arrays -/

variable (m : (ℓ : Loc nD τ sig) → Buf (Elt Ideal) ℓ) (c : Dev nD)

/-- The first dense weight as staged is the operations' term: the transpose of `wi`, its format changed. -/
private theorem V_v2_eq :
    (V m c main_v2 : S1024x4096.Idx → EReal)
      = truncf (F := Ideal) .bf16 (transpose S1024x4096 [1, 0]
          (m ((c : Thread nD τ).loc main_arg2) : S4096x1024.Idx → EReal) transposes_S4096x1024_S1024x4096_1_0) bitsLt_bf16_f32 := by
  dsimp only [Gen.V]
  simp only [Gen.hostOps0, Gen.hostOps0_1, Gen.hostOps0_2, List.flatten_cons, List.flatten_nil, List.append_nil, List.cons_append, List.nil_append]
  after_results

/-- The first dense weight as staged: `wi` transposed. -/
theorem V_v2 (i : Fin 1024) (f : Fin 4096) :
    (V m c main_v2 : S1024x4096.Idx → EReal) (ix2 i f)
      = (m ((c : Thread nD τ).loc main_arg2) : S4096x1024.Idx → EReal) (ix2 f i) := by
  rw [V_v2_eq]
  -- the change of format is the identity; the transpose at row `i`, column `f` reads row `f`, column `i`
  refine (truncf_apply (φ := .f32) (ψ := .bf16) _ bitsLt_bf16_f32 _).trans ?_
  exact transpose_apply [1, 0] _ transposes_S4096x1024_S1024x4096_1_0 (ix2 i f) (ix2 f i)
    (fun b => match b with | ⟨0, _⟩ => rfl | ⟨1, _⟩ => rfl)

/-- The second dense weight as staged is the operations' term: the transpose of `wo`, its format changed. -/
private theorem V_v4_eq :
    (V m c main_v4 : S4096x1024.Idx → EReal)
      = truncf (F := Ideal) .bf16 (transpose S4096x1024 [1, 0]
          (m ((c : Thread nD τ).loc main_arg3) : S1024x4096.Idx → EReal) transposes_S1024x4096_S4096x1024_1_0) bitsLt_bf16_f32 := by
  dsimp only [Gen.V]
  simp only [Gen.hostOps0, Gen.hostOps0_1, Gen.hostOps0_2, List.flatten_cons, List.flatten_nil, List.append_nil, List.cons_append, List.nil_append]
  after_results

/-- The second dense weight as staged: `wo` transposed. -/
theorem V_v4 (f : Fin 4096) (d : Fin 1024) :
    (V m c main_v4 : S4096x1024.Idx → EReal) (ix2 f d)
      = (m ((c : Thread nD τ).loc main_arg3) : S1024x4096.Idx → EReal) (ix2 d f) := by
  rw [V_v4_eq]
  refine (truncf_apply (φ := .f32) (ψ := .bf16) _ bitsLt_bf16_f32 _).trans ?_
  exact transpose_apply [1, 0] _ transposes_S1024x4096_S4096x1024_1_0 (ix2 f d) (ix2 d f)
    (fun b => match b with | ⟨0, _⟩ => rfl | ⟨1, _⟩ => rfl)

/-- The stacked first factors of the first layer as the operations' term: the common block given a leading axis and
    repeated over the 8 experts, the experts' blocks stacked below it along the row axis, the format changed. -/
private theorem V_v8_eq :
    (V m c main_v8 : S8x32x1024.Idx → EReal)
      = truncf (F := Ideal) .bf16 (concatenate S8x32x1024 1
          [⟨S8x16x1024, broadcastInDim S8x16x1024 ![0, 1, 2] bcast_S1x16x1024_S8x16x1024_0_1_2
              (broadcastInDim S1x16x1024 ![1, 2] bcast_S16x1024_S1x16x1024_1_2
                (m ((c : Thread nD τ).loc main_arg4) : S16x1024.Idx → EReal))⟩,
           ⟨S8x16x1024, (m ((c : Thread nD τ).loc main_arg8) : S8x16x1024.Idx → EReal)⟩]
          concatenates_S8x16x1024_S8x16x1024_S8x32x1024_d1) bitsLt_bf16_f32 := by
  dsimp only [Gen.V]
  simp only [Gen.hostOps0, Gen.hostOps0_1, Gen.hostOps0_2, List.flatten_cons, List.flatten_nil, List.append_nil, List.cons_append, List.nil_append]
  after_results

/-- The stacked first factors of the first layer, expert `e`. -/
theorem V_v8 (e : Fin 8) (r : Fin 32) (i : Fin 1024) :
    (V m c main_v8 : S8x32x1024.Idx → EReal) (ix3 e r i)
      = Spec.stackA (fun r i => (m ((c : Thread nD τ).loc main_arg4) : S16x1024.Idx → EReal) (ix2 r i))
          (fun r i => (m ((c : Thread nD τ).loc main_arg8) : S8x16x1024.Idx → EReal) (ix3 e r i)) r i := by
  rw [V_v8_eq]
  refine (truncf_apply (φ := .f32) (ψ := .bf16) _ bitsLt_bf16_f32 _).trans ?_
  refine (stack_apply (n := 1024) concatenates_S8x16x1024_S8x16x1024_S8x32x1024_d1 _ _ e r i).trans ?_
  unfold Spec.stackA
  by_cases h : r.val < 16
  · -- a row of the common block, the same for every expert
    rw [dif_pos h, dif_pos h]
    exact bcast8_apply (n := 1024) (by decide) bcast_S16x1024_S1x16x1024_1_2 bcast_S1x16x1024_S8x16x1024_0_1_2 _ e ⟨r.val, h⟩ i
  · -- a row of expert `e`'s block
    rw [dif_neg h, dif_neg h]

/-- The stacked second factors of the first layer as the operations' term: the common block transposed and every
    entry multiplied by 2 on the right, given a leading axis and repeated over the 8 experts; the experts' blocks, each
    transposed and multiplied by 2 the same way, stacked below it along the row axis; the format changed. -/
private theorem V_v18_eq :
    (V m c main_v18 : S8x32x4096.Idx → EReal)
      = truncf (F := Ideal) .bf16 (concatenate S8x32x4096 1
          [⟨S8x16x4096, broadcastInDim S8x16x4096 ![0, 1, 2] bcast_S1x16x4096_S8x16x4096_0_1_2
              (broadcastInDim S1x16x4096 ![1, 2] bcast_S16x4096_S1x16x4096_1_2
                (mulf (transpose S16x4096 [1, 0] (m ((c : Thread nD τ).loc main_arg5) : S4096x16.Idx → EReal)
                    transposes_S4096x16_S16x4096_1_0)
                  (broadcastInDim S16x4096 ![] bcast_S_S16x4096 (constant (F := Ideal) S_ .f32 0x40000000#32))))⟩,
           ⟨S8x16x4096,
              mulf (transpose S8x16x4096 [0, 2, 1] (m ((c : Thread nD τ).loc main_arg9) : S8x4096x16.Idx → EReal)
                  transposes_S8x4096x16_S8x16x4096_0_2_1)
                (broadcastInDim S8x16x4096 ![] bcast_S_S8x16x4096 (constant (F := Ideal) S_ .f32 0x40000000#32))⟩]
          concatenates_S8x16x4096_S8x16x4096_S8x32x4096_d1) bitsLt_bf16_f32 := by
  dsimp only [Gen.V]
  simp only [Gen.hostOps0, Gen.hostOps0_1, Gen.hostOps0_2, List.flatten_cons, List.flatten_nil, List.append_nil, List.cons_append, List.nil_append]
  after_results

/-- The stacked, transposed, scaled second factors of the first layer, expert `e`. -/
theorem V_v18 (e : Fin 8) (r : Fin 32) (f : Fin 4096) :
    (V m c main_v18 : S8x32x4096.Idx → EReal) (ix3 e r f)
      = Spec.stackB Spec.two (fun f r => (m ((c : Thread nD τ).loc main_arg5) : S4096x16.Idx → EReal) (ix2 f r))
          (fun f r => (m ((c : Thread nD τ).loc main_arg9) : S8x4096x16.Idx → EReal) (ix3 e f r)) r f := by
  rw [V_v18_eq]
  refine (truncf_apply (φ := .f32) (ψ := .bf16) _ bitsLt_bf16_f32 _).trans ?_
  refine (stack_apply (n := 4096) concatenates_S8x16x4096_S8x16x4096_S8x32x4096_d1 _ _ e r f).trans ?_
  unfold Spec.stackB
  by_cases h : r.val < 16
  · -- a row of the common block: the transposed entry times the scale, the same for every expert
    rw [dif_pos h, dif_pos h]
    refine (bcast8_apply (n := 4096) (by decide) bcast_S16x4096_S1x16x4096_1_2 bcast_S1x16x4096_S8x16x4096_0_1_2 _ e ⟨r.val, h⟩ f).trans ?_
    refine (mulf_apply (φ := .f32) _ _ _).trans ?_
    rw [two_apply]
    exact congrArg (· * Spec.two) (transpose_apply [1, 0] _ transposes_S4096x16_S16x4096_1_0
      (ix2 (⟨r.val, h⟩ : Fin 16) f) (ix2 f (⟨r.val, h⟩ : Fin 16)) (fun b => match b with | ⟨0, _⟩ => rfl | ⟨1, _⟩ => rfl))
  · -- a row of expert `e`'s block: its last two axes exchanged, the entry times the scale
    rw [dif_neg h, dif_neg h]
    refine (mulf_apply (φ := .f32) _ _ _).trans ?_
    rw [two_apply]
    exact congrArg (· * Spec.two) (transpose_apply [0, 2, 1] _ transposes_S8x4096x16_S8x16x4096_0_2_1
      (ix3 e (⟨r.val - 16, by omega⟩ : Fin 16) f) (ix3 e f (⟨r.val - 16, by omega⟩ : Fin 16))
      (fun b => match b with | ⟨0, _⟩ => rfl | ⟨1, _⟩ => rfl | ⟨2, _⟩ => rfl))

end Cert.KernelIdeal.HostPrefix

end
-- ==== Proof.HostPrefixOut.lean ====
/-
  What the kernel program's host operations before the launch leave in the two second-layer factor arrays the windows
  stage, entry by entry at the ideal instance: the rank-32 first factor the common block stacked over one expert's block;
  the rank-32 second factor the transposed common and expert blocks, each entry times 2, stacked the same way.

  Each array is first written as the term of the operations that made it (a change of float format, a concatenation
  along the row axis of two 16-row pieces, a repetition of a matrix along a new leading axis, a transpose, a product
  with the splat of the word of 2). The term is then read at an index: the format change is the identity on extended
  reals; row `r` of the concatenation is row `r` of the first piece when `r < 16` and row `r - 16` of the second
  otherwise; a repeated matrix reads the same entry in every copy; a transpose swaps the last two coordinates; and
  the product with a splat multiplies each entry, on the right, by the splat's value.
-/
import proofs.«414242_j31267361915293_3_alg».proof.Proof.Gen.KernelIdeal.Frame
import proofs.«414242_j31267361915293_3_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.HostPrefixOut

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- A matrix of 16 rows given a unit leading axis and then repeated 8 times along it reads, in copy `e` at row `r`
    and column `i`, the matrix's entry at row `r` and column `i`. -/
private theorem repeat8_apply {n : ℕ} (hn : n ≠ 1)
    (h1 : (⟨2, ![16, n]⟩ : Shape).BroadcastsInDim ⟨3, ![1, 16, n]⟩ ![1, 2])
    (h8 : (⟨3, ![1, 16, n]⟩ : Shape).BroadcastsInDim ⟨3, ![8, 16, n]⟩ ![0, 1, 2])
    (A : (⟨2, ![16, n]⟩ : Shape).Idx → EReal) (e : Fin 8) (r : Fin 16) (i : Fin n) :
    broadcastInDim ⟨3, ![8, 16, n]⟩ ![0, 1, 2] h8 (broadcastInDim ⟨3, ![1, 16, n]⟩ ![1, 2] h1 A) (ix3 e r i)
      = A (ix2 r i) := by
  have inner : broadcastInDim ⟨3, ![1, 16, n]⟩ ![1, 2] h1 A (ix3 (0 : Fin 1) r i) = A (ix2 r i) :=
    broadcastInDim_apply _ h1 A _ _ fun a => match a with
      | ⟨0, _⟩ => by show r.val = if (16 : ℕ) = 1 then 0 else r.val; rw [if_neg (by decide)]
      | ⟨1, _⟩ => by show i.val = if n = 1 then 0 else i.val; rw [if_neg hn]
  rw [← inner]
  exact broadcastInDim_apply _ h8 _ _ _ fun a => match a with
    | ⟨0, _⟩ => by show (0 : ℕ) = if (1 : ℕ) = 1 then 0 else e.val; rw [if_pos rfl]
    | ⟨1, _⟩ => by show r.val = if (16 : ℕ) = 1 then 0 else r.val; rw [if_neg (by decide)]
    | ⟨2, _⟩ => by show i.val = if n = 1 then 0 else i.val; rw [if_neg hn]

/-- Two pieces of 16 rows concatenated along the row axis: a row below 16 is that row of the first piece. -/
private theorem stack_lo {n : ℕ}
    (hc : Shape.Concatenates [(⟨3, ![8, 16, n]⟩ : Shape), ⟨3, ![8, 16, n]⟩] ⟨3, ![8, 32, n]⟩ 1)
    (X Y : (⟨3, ![8, 16, n]⟩ : Shape).Idx → EReal) (e : Fin 8) (r : Fin 32) (i : Fin n) (h : r.val < 16) :
    concatenate ⟨3, ![8, 32, n]⟩ 1 [⟨_, X⟩, ⟨_, Y⟩] hc (ix3 e r i) = X (ix3 e ⟨r.val, h⟩ i) :=
  concatenate_pair_apply_left _ X Y hc _ rfl _ fun b => match b with
    | ⟨0, _⟩ => rfl
    | ⟨1, _⟩ => rfl
    | ⟨2, _⟩ => rfl

/-- Two pieces of 16 rows concatenated along the row axis: a row `r` from 16 on is row `r - 16` of the second piece. -/
private theorem stack_hi {n : ℕ}
    (hc : Shape.Concatenates [(⟨3, ![8, 16, n]⟩ : Shape), ⟨3, ![8, 16, n]⟩] ⟨3, ![8, 32, n]⟩ 1)
    (X Y : (⟨3, ![8, 16, n]⟩ : Shape).Idx → EReal) (e : Fin 8) (r : Fin 32) (i : Fin n) (h : ¬ r.val < 16) :
    concatenate ⟨3, ![8, 32, n]⟩ 1 [⟨_, X⟩, ⟨_, Y⟩] hc (ix3 e r i) = Y (ix3 e ⟨r.val - 16, by omega⟩ i) :=
  concatenate_pair_apply_right _ X Y hc _ rfl rfl _
    (fun b hb => match b, hb with
      | ⟨0, _⟩, _ => rfl
      | ⟨1, _⟩, hb => absurd rfl hb
      | ⟨2, _⟩, _ => rfl)
    (by show (r.val - 16) + 16 = r.val; omega)

/-- A product with the splat of the word of 2 multiplies each entry, on the right, by the scale. -/
private theorem scaled_apply {s : Shape} (hb : S_.BroadcastsInDim s (![] : Fin 0 → Fin s.rank))
    (X : FVec Ideal s .f32) (j : s.Idx) :
    mulf X (broadcastInDim s ![] hb (constant (F := Ideal) S_ .f32 0x40000000#32)) j = X j * Spec.two := rfl

/-- The stacked first factors of the second layer as the term of the operations that made them. -/
private theorem V_v22_eq :
    (V m c main_v22 : S8x32x4096.Idx → EReal)
      = truncf (F := Ideal) .bf16 (concatenate S8x32x4096 1
          [⟨S8x16x4096, broadcastInDim S8x16x4096 ![0, 1, 2] bcast_S1x16x4096_S8x16x4096_0_1_2
              (broadcastInDim S1x16x4096 ![1, 2] bcast_S16x4096_S1x16x4096_1_2
                (m ((c : Thread nD τ).loc main_arg6) : S16x4096.Idx → EReal))⟩,
           ⟨S8x16x4096, (m ((c : Thread nD τ).loc main_arg10) : S8x16x4096.Idx → EReal)⟩]
          concatenates_S8x16x4096_S8x16x4096_S8x32x4096_d1) bitsLt_bf16_f32 := by
  dsimp only [Gen.V]
  simp only [Gen.hostOps0, Gen.hostOps0_1, Gen.hostOps0_2, List.flatten_cons, List.flatten_nil, List.append_nil,
    List.cons_append, List.nil_append]
  after_results

/-- The stacked first factors of the second layer, expert `e`. -/
theorem V_v22 (e : Fin 8) (r : Fin 32) (f : Fin 4096) :
    (V m c main_v22 : S8x32x4096.Idx → EReal) (ix3 e r f)
      = Spec.stackA (fun r f => (m ((c : Thread nD τ).loc main_arg6) : S16x4096.Idx → EReal) (ix2 r f))
          (fun r f => (m ((c : Thread nD τ).loc main_arg10) : S8x16x4096.Idx → EReal) (ix3 e r f)) r f := by
  rw [V_v22_eq]
  refine (truncf_apply (φ := .f32) (ψ := .bf16) _ bitsLt_bf16_f32 _).trans ?_
  unfold Spec.stackA
  by_cases h : r.val < 16
  · rw [dif_pos h]
    refine (stack_lo (n := 4096) concatenates_S8x16x4096_S8x16x4096_S8x32x4096_d1 _ _ e r f h).trans ?_
    exact repeat8_apply (n := 4096) (by decide) bcast_S16x4096_S1x16x4096_1_2 bcast_S1x16x4096_S8x16x4096_0_1_2 _ e
      ⟨r.val, h⟩ f
  · rw [dif_neg h]
    exact stack_hi (n := 4096) concatenates_S8x16x4096_S8x16x4096_S8x32x4096_d1 _ _ e r f h

set_option maxHeartbeats 2000000 in
/-- The stacked, transposed, scaled second factors of the second layer as the term of the operations that made them.
    The array is written by the last of the host operations; the two argument arrays it is made from are written by
    none of them, so each is read as launched. -/
private theorem V_v32_eq :
    (V m c main_v32 : S8x32x1024.Idx → EReal)
      = truncf (F := Ideal) .bf16 (concatenate S8x32x1024 1
          [⟨S8x16x1024, broadcastInDim S8x16x1024 ![0, 1, 2] bcast_S1x16x1024_S8x16x1024_0_1_2
              (broadcastInDim S1x16x1024 ![1, 2] bcast_S16x1024_S1x16x1024_1_2
                (mulf (transpose S16x1024 [1, 0] (m ((c : Thread nD τ).loc main_arg7) : S1024x16.Idx → EReal)
                        transposes_S1024x16_S16x1024_1_0)
                  (broadcastInDim S16x1024 ![] bcast_S_S16x1024 (constant (F := Ideal) S_ .f32 0x40000000#32))))⟩,
           ⟨S8x16x1024,
              mulf (transpose S8x16x1024 [0, 2, 1] (m ((c : Thread nD τ).loc main_arg11) : S8x1024x16.Idx → EReal)
                      transposes_S8x1024x16_S8x16x1024_0_2_1)
                (broadcastInDim S8x16x1024 ![] bcast_S_S8x16x1024 (constant (F := Ideal) S_ .f32 0x40000000#32))⟩]
          concatenates_S8x16x1024_S8x16x1024_S8x32x1024_d1) bitsLt_bf16_f32 := by
  dsimp only [Gen.V]
  simp only [Gen.hostOps0, Gen.hostOps0_1, Gen.hostOps0_2, List.flatten_cons, List.flatten_nil, List.append_nil,
    List.cons_append, List.nil_append]
  after_results

/-- The stacked, transposed, scaled second factors of the second layer, expert `e`. -/
theorem V_v32 (e : Fin 8) (r : Fin 32) (d : Fin 1024) :
    (V m c main_v32 : S8x32x1024.Idx → EReal) (ix3 e r d)
      = Spec.stackB Spec.two (fun d r => (m ((c : Thread nD τ).loc main_arg7) : S1024x16.Idx → EReal) (ix2 d r))
          (fun d r => (m ((c : Thread nD τ).loc main_arg11) : S8x1024x16.Idx → EReal) (ix3 e d r)) r d := by
  rw [V_v32_eq]
  refine (truncf_apply (φ := .f32) (ψ := .bf16) _ bitsLt_bf16_f32 _).trans ?_
  unfold Spec.stackB
  by_cases h : r.val < 16
  · rw [dif_pos h]
    refine (stack_lo (n := 1024) concatenates_S8x16x1024_S8x16x1024_S8x32x1024_d1 _ _ e r d h).trans ?_
    refine (repeat8_apply (n := 1024) (by decide) bcast_S16x1024_S1x16x1024_1_2 bcast_S1x16x1024_S8x16x1024_0_1_2 _ e
      ⟨r.val, h⟩ d).trans ?_
    refine (scaled_apply bcast_S_S16x1024 _ _).trans ?_
    refine congrArg (· * Spec.two) ?_
    exact transpose_apply [1, 0] _ transposes_S1024x16_S16x1024_1_0 (ix2 (⟨r.val, h⟩ : Fin 16) d) (ix2 d ⟨r.val, h⟩)
      fun b => match b with
        | ⟨0, _⟩ => rfl
        | ⟨1, _⟩ => rfl
  · rw [dif_neg h]
    refine (stack_hi (n := 1024) concatenates_S8x16x1024_S8x16x1024_S8x32x1024_d1 _ _ e r d h).trans ?_
    refine (scaled_apply bcast_S_S8x16x1024 _ _).trans ?_
    refine congrArg (· * Spec.two) ?_
    exact transpose_apply [0, 2, 1] _ transposes_S8x1024x16_S8x16x1024_0_2_1
      (ix3 e (⟨r.val - 16, by omega⟩ : Fin 16) d) (ix3 e d ⟨r.val - 16, by omega⟩)
      fun b => match b with
        | ⟨0, _⟩ => rfl
        | ⟨1, _⟩ => rfl
        | ⟨2, _⟩ => rfl

end Cert.KernelIdeal.HostPrefixOut

end
-- ==== Proof.Bridge.lean ====
/-
  The kernel's claimed entry is the reference's entry. Under the precondition every float entry is a finite real and every
  expert id is nonnegative. The arrays the launch finds are the arguments rearranged: the dense weights transposed, the
  rank-32 factors the common blocks stacked over the table's expert's blocks, the second factors transposed and times 2;
  and the table's expert for a nonnegative id is the id read signed and clamped into [0, 7], which is also the expert the
  reference's gather reads. On finite reals the kernel's grouping over the stacked, pre-scaled factors is the reference's
  grouping (the two-layer law).
-/
import proofs.«414242_j31267361915293_3_alg».proof.Defs
import proofs.«414242_j31267361915293_3_alg».proof.Proof.KernelSpec
import proofs.«414242_j31267361915293_3_alg».proof.Proof.HostPrefix
import proofs.«414242_j31267361915293_3_alg».proof.Proof.HostPrefixOut
import proofs.«414242_j31267361915293_3_alg».proof.Proof.PreDecode
import proofs.«414242_j31267361915293_3_alg».proof.Proof.Gen.Pre_finite_inputs

set_option maxRecDepth 16384

noncomputable section

namespace Cert.Bridge

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The kernel's two-layer form depends on its seven arrays only through their values. -/
private theorem outK_congr {xr xr' : Fin 1024 → EReal} {Wi Wi' : Fin 1024 → Fin 4096 → EReal}
    {Ai Ai' : Fin 32 → Fin 1024 → EReal} {Bi Bi' : Fin 32 → Fin 4096 → EReal} {Wo Wo' : Fin 4096 → Fin 1024 → EReal}
    {Ao Ao' : Fin 32 → Fin 4096 → EReal} {Bo Bo' : Fin 32 → Fin 1024 → EReal}
    (h0 : xr = xr') (h1 : Wi = Wi') (h2 : Ai = Ai') (h3 : Bi = Bi') (h4 : Wo = Wo') (h5 : Ao = Ao') (h6 : Bo = Bo')
    (d : Fin 1024) :
    Spec.outK xr Wi Ai Bi Wo Ao Bo d = Spec.outK xr' Wi' Ai' Bi' Wo' Ao' Bo' d := by
  subst h0 h1 h2 h3 h4 h5 h6
  rfl

/-- Entry (b, s, d) the kernel is shown to leave is the reference's two-layer form of the ARGUMENTS. -/
theorem gc_eq (hpre : Cert.Pre_KernelIdeal (hPre_finite_inputs := Cert.Pre_finite_inputs.Gen.facts) m) (c : Dev nD)
    (b : Fin 32) (s : Fin 512) (d : Fin 1024) :
    KValue.Gc m c b s d
      = Spec.outR Spec.two (fun i => (m ((c : Thread nD τ).loc main_arg0) : S32x512x1024.Idx → EReal) (ix3 b s i))
          (fun f i => (m ((c : Thread nD τ).loc main_arg2) : S4096x1024.Idx → EReal) (ix2 f i))
          (fun r i => (m ((c : Thread nD τ).loc main_arg4) : S16x1024.Idx → EReal) (ix2 r i))
          (fun f r => (m ((c : Thread nD τ).loc main_arg5) : S4096x16.Idx → EReal) (ix2 f r))
          (fun r i => (m ((c : Thread nD τ).loc main_arg8) : S8x16x1024.Idx → EReal)
            (ix3 (Spec.eidx ((m ((c : Thread nD τ).loc main_arg1) : S32.Idx → BitVec 32) (ix1 b))) r i))
          (fun f r => (m ((c : Thread nD τ).loc main_arg9) : S8x4096x16.Idx → EReal)
            (ix3 (Spec.eidx ((m ((c : Thread nD τ).loc main_arg1) : S32.Idx → BitVec 32) (ix1 b))) f r))
          (fun d f => (m ((c : Thread nD τ).loc main_arg3) : S1024x4096.Idx → EReal) (ix2 d f))
          (fun r f => (m ((c : Thread nD τ).loc main_arg6) : S16x4096.Idx → EReal) (ix2 r f))
          (fun d r => (m ((c : Thread nD τ).loc main_arg7) : S1024x16.Idx → EReal) (ix2 d r))
          (fun r f => (m ((c : Thread nD τ).loc main_arg10) : S8x16x4096.Idx → EReal)
            (ix3 (Spec.eidx ((m ((c : Thread nD τ).loc main_arg1) : S32.Idx → BitVec 32) (ix1 b))) r f))
          (fun d r => (m ((c : Thread nD τ).loc main_arg11) : S8x1024x16.Idx → EReal)
            (ix3 (Spec.eidx ((m ((c : Thread nD τ).loc main_arg1) : S32.Idx → BitVec 32) (ix1 b))) d r)) d := by
  -- the precondition, entry by entry: finite reals and nonnegative ids
  obtain ⟨h0, h1, h2, h3, h4, h5, h6, h7, h8, h9, h10, h11⟩ :=
    Cert.PreDecode.decode _ _ _ _ _ _ _ _ _ _ _ _ (hpre c)
  -- the table's expert for a nonnegative id is the id read signed and clamped
  have hex : KValue.ex m b = (Spec.eidx ((m ((c : Thread nD τ).loc main_arg1) : S32.Idx → BitVec 32) (ix1 b))) := by
    obtain rfl : c = 0 := Subsingleton.elim _ _
    have hv := OkClamp.tbl_of_nonneg m (ix1 b) (h1 (ix1 b))
    unfold KValue.ex Spec.eidx
    exact Fin.mk.inj_iff.mpr hv
  unfold KValue.Gc
  rw [hex]
  -- the arrays the launch finds are the arguments rearranged
  have e0 : (fun i => (V m c main_arg0 : S32x512x1024.Idx → EReal) (ix3 b s i))
      = fun i => (m ((c : Thread nD τ).loc main_arg0) : S32x512x1024.Idx → EReal) (ix3 b s i) := by
    rw [V_main_arg0]
  have e1 : (fun i f => (V m c main_v2 : S1024x4096.Idx → EReal) (ix2 i f))
      = fun i f => (m ((c : Thread nD τ).loc main_arg2) : S4096x1024.Idx → EReal) (ix2 f i) :=
    funext fun i => funext fun f => HostPrefix.V_v2 m c i f
  have e2 : (fun r i => (V m c main_v8 : S8x32x1024.Idx → EReal) (ix3 (Spec.eidx ((m ((c : Thread nD τ).loc main_arg1) : S32.Idx → BitVec 32) (ix1 b))) r i))
      = Spec.stackA (fun r i => (m ((c : Thread nD τ).loc main_arg4) : S16x1024.Idx → EReal) (ix2 r i))
          (fun r i => (m ((c : Thread nD τ).loc main_arg8) : S8x16x1024.Idx → EReal) (ix3 (Spec.eidx ((m ((c : Thread nD τ).loc main_arg1) : S32.Idx → BitVec 32) (ix1 b))) r i)) :=
    funext fun r => funext fun i => HostPrefix.V_v8 m c _ r i
  have e3 : (fun r f => (V m c main_v18 : S8x32x4096.Idx → EReal) (ix3 (Spec.eidx ((m ((c : Thread nD τ).loc main_arg1) : S32.Idx → BitVec 32) (ix1 b))) r f))
      = Spec.stackB Spec.two (fun f r => (m ((c : Thread nD τ).loc main_arg5) : S4096x16.Idx → EReal) (ix2 f r))
          (fun f r => (m ((c : Thread nD τ).loc main_arg9) : S8x4096x16.Idx → EReal) (ix3 (Spec.eidx ((m ((c : Thread nD τ).loc main_arg1) : S32.Idx → BitVec 32) (ix1 b))) f r)) :=
    funext fun r => funext fun f => HostPrefix.V_v18 m c _ r f
  have e4 : (fun f d => (V m c main_v4 : S4096x1024.Idx → EReal) (ix2 f d))
      = fun f d => (m ((c : Thread nD τ).loc main_arg3) : S1024x4096.Idx → EReal) (ix2 d f) :=
    funext fun f => funext fun d => HostPrefix.V_v4 m c f d
  have e5 : (fun r f => (V m c main_v22 : S8x32x4096.Idx → EReal) (ix3 (Spec.eidx ((m ((c : Thread nD τ).loc main_arg1) : S32.Idx → BitVec 32) (ix1 b))) r f))
      = Spec.stackA (fun r f => (m ((c : Thread nD τ).loc main_arg6) : S16x4096.Idx → EReal) (ix2 r f))
          (fun r f => (m ((c : Thread nD τ).loc main_arg10) : S8x16x4096.Idx → EReal) (ix3 (Spec.eidx ((m ((c : Thread nD τ).loc main_arg1) : S32.Idx → BitVec 32) (ix1 b))) r f)) :=
    funext fun r => funext fun f => HostPrefixOut.V_v22 m c _ r f
  have e6 : (fun r d => (V m c main_v32 : S8x32x1024.Idx → EReal) (ix3 (Spec.eidx ((m ((c : Thread nD τ).loc main_arg1) : S32.Idx → BitVec 32) (ix1 b))) r d))
      = Spec.stackB Spec.two (fun d r => (m ((c : Thread nD τ).loc main_arg7) : S1024x16.Idx → EReal) (ix2 d r))
          (fun d r => (m ((c : Thread nD τ).loc main_arg11) : S8x1024x16.Idx → EReal) (ix3 (Spec.eidx ((m ((c : Thread nD τ).loc main_arg1) : S32.Idx → BitVec 32) (ix1 b))) d r)) :=
    funext fun r => funext fun d => HostPrefixOut.V_v32 m c _ r d
  refine (outK_congr e0 e1 e2 e3 e4 e5 e6 d).trans ?_
  -- on finite reals the kernel's grouping over the stacked, pre-scaled factors is the reference's
  exact Spec.outK_eq_outR Spec.isReal_two (fun i => h0 _) (fun f i => h2 _) (fun r i => h4 _) (fun r i => h8 _)
    (fun f r => h5 _) (fun f r => h9 _) _ (fun r f => h6 _) (fun r f => h10 _) (fun d r => h7 _) (fun d r => h11 _) d

end Cert.Bridge

end
-- ==== Proof.lean ====
/-
  A two-layer feed-forward block with low-rank adapters, one common pair and one of eight expert pairs chosen per batch row
  by an integer id: the kernel program against its array reference, over the extended reals.

  The kernel program clamps the ids into [0, 7] itself and prefetches them as the table its index maps read, so each
  expert-indexed block lies inside its eight-expert array for every input: the two frames need nothing of the precondition.
  For the value, the kernel stacks the common and the chosen expert's factors into one rank-32 pair per layer, transposes the
  dense weights and the second factors once on the host, multiplies the scale 2 into the second factors, and per grid point
  (batch b, row tile q) computes  max(x·W + (x·Aᵀ)·B, 0)·W' + (…·A'ᵀ)·B'  for 256 rows; the 64 blocks tile the result.
  The reference computes, per row,  x·Wᵀ + 2·((x·caᵀ)·cbᵀ) + 2·((x·eaᵀ)·ebᵀ), the rectifier, and the same again, the
  expert's pair gathered at the id (a negative id wrapped by 8, then clamped). For a NONNEGATIVE id both programs use the
  id clamped into [0, 7]; and on FINITE reals a sum over the 32 stacked rows splits into the two sums over 16 and the scale
  moves across a finite sum, so the two groupings agree. Both facts come from the precondition: every float entry finite,
  every id nonnegative.
-/
import proofs.«414242_j31267361915293_3_alg».proof.Defs
import proofs.«414242_j31267361915293_3_alg».proof.Proof.Gen.Kernel
import proofs.«414242_j31267361915293_3_alg».proof.Proof.Gen.Kernel.Frame
import proofs.«414242_j31267361915293_3_alg».proof.Proof.Gen.KernelIdeal
import proofs.«414242_j31267361915293_3_alg».proof.Proof.Gen.KernelIdeal.Frame
import proofs.«414242_j31267361915293_3_alg».proof.Proof.Gen.ReferenceIdeal
import proofs.«414242_j31267361915293_3_alg».proof.Proof.Gen.ReferenceIdeal.Run
import proofs.«414242_j31267361915293_3_alg».proof.Proof.Gen.ReferenceIdeal.Read
import proofs.«414242_j31267361915293_3_alg».proof.Proof.Gen.Pre_finite_inputs
import proofs.«414242_j31267361915293_3_alg».proof.Proof.OkClampBits
import proofs.«414242_j31267361915293_3_alg».proof.Proof.OkClampIdeal
import proofs.«414242_j31267361915293_3_alg».proof.Proof.KernelValue
import proofs.«414242_j31267361915293_3_alg».proof.Proof.RefValue
import proofs.«414242_j31267361915293_3_alg».proof.Proof.PreDecode
import proofs.«414242_j31267361915293_3_alg».proof.Proof.Bridge
import Idealize.ShloMosaic.Adequacy
import Idealize.ShloMosaic.Init

noncomputable section

namespace Cert.Proof

open Idealize.ShloMosaic Idealize.SL.Sem Idealize.ShloMosaic.ValueIdx

/-- The two idealized programs end with equal results: the kernel's result array is the two-layer form in the kernel's
    grouping (its run, read block by block), the reference's the same form in the reference's grouping (its run, read
    operation by operation), and the two forms agree on finite reals at a nonnegative id. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KValue.G m c,
    Cert.KernelIdeal.KValue.run m ρ (Cert.KernelIdeal.OkClamp.ok m), ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11⟩ := hagree c
  rw [(h c).1, Cert.ReferenceIdeal.Read.val_main_v50_eq, e0, e1, e2, e3, e4, e5, e6, e7, e8, e9, e10, e11]
  have hd := Cert.PreDecode.decode _ _ _ _ _ _ _ _ _ _ _ _ (hpre c)
  funext idx
  obtain ⟨b, s, d, rfl⟩ : ∃ (b : Fin 32) (s : Fin 512) (d : Fin 1024), idx = ix3 b s d :=
    ⟨idx 0, idx 1, idx 2, eq_ix3 idx⟩
  refine (Cert.RefValue.ref_apply _ _ _ _ _ _ _ _ _ _ _ _ hd.2.1 b s d).trans ?_
  exact (Cert.Bridge.gc_eq m hpre c b s d).symm

/-- The five claims: the kernel program's frames at both instances hold for every input because the program clamps the
    table it prefetches; the reference's frame is its run with the result dropped; the idealization rewrote nothing. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ (Cert.Kernel.OkClamp.ok m),
  fun m ρ _ => Cert.KernelIdeal.Gen.frame m ρ (Cert.KernelIdeal.OkClamp.ok m),
  fun m ρ _ => (θ_run Cert.ReferenceIdeal.defs _ _).mono (fun _ h c => (h c).2) (Cert.ReferenceIdeal.Value.run (F := Ideal) m ρ),
  trivial,
  algebraic⟩

end Cert.Proof

end
